-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x768 : Shape := ⟨2, ![65536, 768]⟩
abbrev S19x10x768 : Shape := ⟨3, ![19, 10, 768]⟩
abbrev S768 : Shape := ⟨1, ![768]⟩
abbrev S190 : Shape := ⟨1, ![190]⟩
abbrev S19 : Shape := ⟨1, ![19]⟩
abbrev S_ : Shape := ⟨0, ![]⟩

class Facts : Prop where
  bcast_S_S65536x768 : S_.BroadcastsInDim S65536x768 (![] : Fin 0 → Fin S65536x768.rank)
  reducesTo_S65536x768_S_d0_1 : S65536x768.ReducesTo [0, 1] S_
  h_S_ : 0 < S_.numel
  bcast_S_S19x10x768 : S_.BroadcastsInDim S19x10x768 (![] : Fin 0 → Fin S19x10x768.rank)
  reducesTo_S19x10x768_S_d0_1_2 : S19x10x768.ReducesTo [0, 1, 2] S_
  bcast_S_S768 : S_.BroadcastsInDim S768 (![] : Fin 0 → Fin S768.rank)
  reducesTo_S768_S_d0 : S768.ReducesTo [0] S_
  bcast_S_S190 : S_.BroadcastsInDim S190 (![] : Fin 0 → Fin S190.rank)
  reducesTo_S190_S_d0 : S190.ReducesTo [0] S_
  bcast_S_S19 : S_.BroadcastsInDim S19 (![] : Fin 0 → Fin S19.rank)
  reducesTo_S19_S_d0 : S19.ReducesTo [0] S_

variable [Facts]

def fn_part2 {F : FTy → Type} [FloatOps F] (main_arg7 : FVec F S19 .f32) (main_v33 : IVec S_ 1) : IVec S_ 1 :=
  let main_v34 : FVec F S19 .f32 := Host.absf main_arg7
  let main_cst_12 : FVec F S_ .f32 := constant S_ .f32 0x7F800000#32
  let main_v35 : FVec F S19 .f32 := broadcastInDim S19 ![] bcast_S_S19 main_cst_12
  let main_v36 : IVec S19 1 := cmpf .olt main_v34 main_v35
  let main_c_13 : IVec S_ 1 := constantI S_ 1 1#1
  let main_v37 : IVec S_ 1 := (fun x v => Host.reduce IntOp.andi x v reducesTo_S19_S_d0 h_S_) main_v36 main_c_13
  let main_v38 : IVec S_ 1 := andi main_v33 main_v37
  main_v38

def fn_part1 {F : FTy → Type} [FloatOps F] (main_arg4 : FVec F S190 .f32) (main_arg5 : FVec F S190 .f32) (main_arg6 : FVec F S19 .f32) (main_arg7 : FVec F S19 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S190 .f32 := Host.absf main_arg4
  let main_cst_6 : FVec F S_ .f32 := constant S_ .f32 0x7F800000#32
  let main_v20 : FVec F S190 .f32 := broadcastInDim S190 ![] bcast_S_S190 main_cst_6
  let main_v21 : IVec S190 1 := cmpf .olt main_v19 main_v20
  let main_c_7 : IVec S_ 1 := constantI S_ 1 1#1
  let main_v22 : IVec S_ 1 := (fun x v => Host.reduce IntOp.andi x v reducesTo_S190_S_d0 h_S_) main_v21 main_c_7
  let main_v23 : IVec S_ 1 := andi main_v18 main_v22
  let main_v24 : FVec F S190 .f32 := Host.absf main_arg5
  let main_cst_8 : FVec F S_ .f32 := constant S_ .f32 0x7F800000#32
  let main_v25 : FVec F S190 .f32 := broadcastInDim S190 ![] bcast_S_S190 main_cst_8
  let main_v26 : IVec S190 1 := cmpf .olt main_v24 main_v25
  let main_c_9 : IVec S_ 1 := constantI S_ 1 1#1
  let main_v27 : IVec S_ 1 := (fun x v => Host.reduce IntOp.andi x v reducesTo_S190_S_d0 h_S_) main_v26 main_c_9
  let main_v28 : IVec S_ 1 := andi main_v23 main_v27
  let main_v29 : FVec F S19 .f32 := Host.absf main_arg6
  let main_cst_10 : FVec F S_ .f32 := constant S_ .f32 0x7F800000#32
  let main_v30 : FVec F S19 .f32 := broadcastInDim S19 ![] bcast_S_S19 main_cst_10
  let main_v31 : IVec S19 1 := cmpf .olt main_v29 main_v30
  let main_c_11 : IVec S_ 1 := constantI S_ 1 1#1
  let main_v32 : IVec S_ 1 := (fun x v => Host.reduce IntOp.andi x v reducesTo_S19_S_d0 h_S_) main_v31 main_c_11
  let main_v33 : IVec S_ 1 := andi main_v28 main_v32
  fn_part2 (F := F) main_arg7 main_v33

def fn {F : FTy → Type} [FloatOps F] (main_arg0 : FVec F S65536x768 .f32) (main_arg1 : FVec F S19x10x768 .f32) (main_arg2 : FVec F S768 .f32) (main_arg3 : FVec F S768 .f32) (main_arg4 : FVec F S190 .f32) (main_arg5 : FVec F S190 .f32) (main_arg6 : FVec F S19 .f32) (main_arg7 : FVec F S19 .f32) : IVec S_ 1 :=
  let main_v0 : FVec F S65536x768 .f32 := Host.absf main_arg0
  let main_cst : FVec F S_ .f32 := constant S_ .f32 0x7F800000#32
  let main_v1 : FVec F S65536x768 .f32 := broadcastInDim S65536x768 ![] bcast_S_S65536x768 main_cst
  let main_v2 : IVec S65536x768 1 := cmpf .olt main_v0 main_v1
  let main_c : IVec S_ 1 := constantI S_ 1 1#1
  let main_v3 : IVec S_ 1 := (fun x v => Host.reduce IntOp.andi x v reducesTo_S65536x768_S_d0_1 h_S_) main_v2 main_c
  let main_v4 : FVec F S19x10x768 .f32 := Host.absf main_arg1
  let main_cst_0 : FVec F S_ .f32 := constant S_ .f32 0x7F800000#32
  let main_v5 : FVec F S19x10x768 .f32 := broadcastInDim S19x10x768 ![] bcast_S_S19x10x768 main_cst_0
  let main_v6 : IVec S19x10x768 1 := cmpf .olt main_v4 main_v5
  let main_c_1 : IVec S_ 1 := constantI S_ 1 1#1
  let main_v7 : IVec S_ 1 := (fun x v => Host.reduce IntOp.andi x v reducesTo_S19x10x768_S_d0_1_2 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_v13 main_v16
-- ==== Kernel.lean ====
abbrev S65536x768 : Shape := ⟨2, ![65536, 768]⟩
abbrev S19x10x768 : Shape := ⟨3, ![19, 10, 768]⟩
abbrev S768 : Shape := ⟨1, ![768]⟩
abbrev S190 : Shape := ⟨1, ![190]⟩
abbrev S19 : Shape := ⟨1, ![19]⟩
abbrev S10x19x768 : Shape := ⟨3, ![10, 19, 768]⟩
abbrev S190x768 : Shape := ⟨2, ![190, 768]⟩
abbrev S768x190 : Shape := ⟨2, ![768, 190]⟩
abbrev S19x10 : Shape := ⟨2, ![19, 10]⟩
abbrev S10x19 : Shape := ⟨2, ![10, 19]⟩
abbrev S1x190 : Shape := ⟨2, ![1, 190]⟩
abbrev S1x768 : Shape := ⟨2, ![1, 768]⟩
abbrev S1x19 : Shape := ⟨2, ![1, 19]⟩
abbrev S65536x19 : Shape := ⟨2, ![65536, 19]⟩
abbrev S1024x768 : Shape := ⟨2, ![1024, 768]⟩
abbrev S1024x19 : Shape := ⟨2, ![1024, 19]⟩
abbrev S1024 : Shape := ⟨1, ![1024]⟩
abbrev S1024x1 : Shape := ⟨2, ![1024, 1]⟩
abbrev S1024x190 : Shape := ⟨2, ![1024, 190]⟩

abbrev nBuf : Space → Nat
  | .hbm => 23
  | .vmem => 13
  | .smem => 0
  | _ => 0

abbrev bufTy : (tb : Table) → Fin (tcTables nBuf tb) → BufTy
  | .hbm, ⟨0, _⟩ => ⟨S65536x768, .f32⟩
  | .hbm, ⟨1, _⟩ => ⟨S19x10x768, .f32⟩
  | .hbm, ⟨2, _⟩ => ⟨S768, .f32⟩
  | .hbm, ⟨3, _⟩ => ⟨S768, .f32⟩
  | .hbm, ⟨4, _⟩ => ⟨S190, .f32⟩
  | .hbm, ⟨5, _⟩ => ⟨S190, .f32⟩
  | .hbm, ⟨6, _⟩ => ⟨S19, .f32⟩
  | .hbm, ⟨7, _⟩ => ⟨S19, .f32⟩
  | .hbm, ⟨8, _⟩ => ⟨S10x19x768, .f32⟩
  | .hbm, ⟨9, _⟩ => ⟨S190x768, .f32⟩
  | .hbm, ⟨10, _⟩ => ⟨S768x190, .f32⟩
  | .hbm, ⟨11, _⟩ => ⟨S768x190, .f32⟩
  | .hbm, ⟨12, _⟩ => ⟨S19x10, .f32⟩
  | .hbm, ⟨13, _⟩ => ⟨S10x19, .f32⟩
  | .hbm, ⟨14, _⟩ => ⟨S1x190, .f32⟩
  | .hbm, ⟨15, _⟩ => ⟨S19x10, .f32⟩
  | .hbm, ⟨16, _⟩ => ⟨S10x19, .f32⟩
  | .hbm, ⟨17, _⟩ => ⟨S1x190, .f32⟩
  | .hbm, ⟨18, _⟩ => ⟨S1x768, .f32⟩
  | .hbm, ⟨19, _⟩ => ⟨S1x768, .f32⟩
  | .hbm, ⟨20, _⟩ => ⟨S1x19, .f32⟩
  | .hbm, ⟨21, _⟩ => ⟨S1x19, .f32⟩
  | .hbm, ⟨22, _⟩ => ⟨S65536x19, .f32⟩
  | .local _ .vmem, ⟨0, _⟩ => ⟨S768x190, .f32⟩
  | .local _ .vmem, ⟨1, _⟩ => ⟨S768x190, .f32⟩
  | .local _ .vmem, ⟨2, _⟩ => ⟨S1024x768, .f32⟩
  | .local _ .vmem, ⟨3, _⟩ => ⟨S1024x768, .f32⟩
  | .local _ .vmem, ⟨4, _⟩ => ⟨S768x190, .f32⟩
  | .local _ .vmem, ⟨5, _⟩ => ⟨S1x768, .f32⟩
  | .local _ .vmem, ⟨6, _⟩ => ⟨S1x768, .f32⟩
  | .local _ .vmem, ⟨7, _⟩ => ⟨S1x190, .f32⟩
  | .local _ .vmem, ⟨8, _⟩ => ⟨S1x190, .f32⟩
  | .local _ .vmem, ⟨9, _⟩ => ⟨S1x19, .f32⟩
  | .local _ .vmem, ⟨10, _⟩ => ⟨S1x19, .f32⟩
  | .local _ .vmem, ⟨11, _⟩ => ⟨S1024x19, .f32⟩
  | .local _ .vmem, ⟨12, _⟩ => ⟨S1024x19, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_v0 : Ref sig .tc := ⟨.hbm, 22, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg8_1 : Ref sig .tc := ⟨.vmem, 12, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem8_0 : DmaSem sig := 11
abbrev cc1_sem8_1 : DmaSem sig := 12

abbrev nD : Nat := 1
abbrev τ : Topo := Topo.v7x

variable {F : FTy → Type} [FloatOps F]

abbrev grid0 : Pipeline.Grid := .none

abbrev stage0_0 : Fin 1 → Memref sig .tc .vmem S768x190 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x190 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x190 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x190 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x190 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x19 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x19 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1024x19 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  transposes_S19x10x768_S10x19x768_1_0_2 : S19x10x768.Transposes [1, 0, 2] S10x19x768
  shapeCasts_S10x19x768_S190x768 : S10x19x768.ShapeCasts S190x768
  transposes_S190x768_S768x190_1_0 : S190x768.Transposes [1, 0] S768x190
  shapeCasts_S190_S19x10 : S190.ShapeCasts S19x10
  transposes_S19x10_S10x19_1_0 : S19x10.Transposes [1, 0] S10x19
  shapeCasts_S10x19_S1x190 : S10x19.ShapeCasts S1x190
  shapeCasts_S768_S1x768 : S768.ShapeCasts S1x768
  shapeCasts_S19_S1x19 : S19.ShapeCasts S1x19
  inb_S768x190_S768x190_0_0 : ∀ a, (![0, 0] : Fin 2 → Nat) a + S768x190.size a ≤ S768x190.size a
  h_S768x190 : 0 < S768x190.numel
  shapeCasts_S768x190_S768x190 : S768x190.ShapeCasts S768x190
  reduces_S768x190_S190 : S768x190.Reduces [0] S190
  shapeCasts_S190_S1x190 : S190.ShapeCasts S1x190
  broadcasts_S1x190_S768x190 : S1x190.Broadcasts S768x190
  inb_S1024x768_S1024x768_0_0 : ∀ a, (![0, 0] : Fin 2 → Nat) a + S1024x768.size a ≤ S1024x768.size a
  h_S1024x768 : 0 < S1024x768.numel
  reduces_S1024x768_S1024 : S1024x768.Reduces [1] S1024
  shapeCasts_S1024_S1024x1 : S1024.ShapeCasts S1024x1
  broadcasts_S1024x1_S1024x768 : S1024x1.Broadcasts S1024x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  reduces_S1024x190_S1024 : S1024x190.Reduces [1] S1024
  broadcasts_S1024x1_S1024x190 : S1024x1.Broadcasts S1024x190
  inb_S1x190_S1x190_0_0 : ∀ a, (![0, 0] : Fin 2 → Nat) a + S1x190.size a ≤ S1x190.size a
  h_S1x190 : 0 < S1x190.numel
  shapeCasts_S1x190_S1x190 : S1x190.ShapeCasts S1x190
  broadcasts_S1x190_S1024x190 : S1x190.Broadcasts S1024x190
  slices_S1024x190_o0_0_S1024x19 : S1024x190.Slices ![0, 0] S1024x19
  slices_S1024x190_o0_19_S1024x19 : S1024x190.Slices ![0, 19] S1024x19
  slices_S1024x190_o0_38_S1024x19 : S1024x190.Slices ![0, 38] S1024x19
  slices_S1024x190_o0_57_S1024x19 : S1024x190.Slices ![0, 57] S1024x19
  slices_S1024x190_o0_76_S1024x19 : S1024x190.Slices ![0, 76] S1024x19
  slices_S1024x190_o0_95_S1024x19 : S1024x190.Slices ![0, 95] S1024x19
  slices_S1024x190_o0_114_S1024x19 : S1024x190.Slices ![0, 114] S1024x19
  slices_S1024x190_o0_133_S1024x19 : S1024x190.Slices ![0, 133] S1024x19
  slices_S1024x190_o0_152_S1024x19 : S1024x190.Slices ![0, 152] S1024x19
  slices_S1024x190_o0_171_S1024x19 : S1024x190.Slices ![0, 171] S1024x19
  reduces_S1024x19_S1024 : S1024x19.Reduces [1] S1024
  broadcasts_S1024x1_S1024x19 : S1024x1.Broadcasts S1024x19
  inb_S1x19_S1x19_0_0 : ∀ a, (![0, 0] : Fin 2 → Nat) a + S1x19.size a ≤ S1x19.size a
  h_S1x19 : 0 < S1x19.numel
  shapeCasts_S1x19_S1x19 : S1x19.ShapeCasts S1x19
  broadcasts_S1x19_S1024x19 : S1x19.Broadcasts S1024x19
  inb_S1024x19_S1024x19_0_0 : ∀ a, (![0, 0] : Fin 2 → Nat) a + S1024x19.size a ≤ S1024x19.size a
  h_S1024x19 : 0 < S1024x19.numel
  dot_S1024x768_S768x190_S1024x190_1_0_0_1_n_n_wf : DotDims.WF S1024x768 S768x190 S1024x190 [1] [0] [0] [1] [] []
  hstage0_0 : ∀ j, (stage0_0 j).IsWhole
  hstage0_1 : ∀ j, (stage0_1 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x768.size a ≤ S65536x768.size a
  hwx1_0 : ∀ i : grid1.Coords, EltTy.bits .f32 = 32 ∨ (Rect.block (s := S65536x768) S1024x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x190.size a ≤ S768x190.size a
  hwx1_1 : ∀ i : grid1.Coords, EltTy.bits .f32 = 32 ∨ (Rect.block (s := S768x190) S768x190.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x768.size a ≤ S1x768.size a
  hwx1_3 : ∀ i : grid1.Coords, EltTy.bits .f32 = 32 ∨ (Rect.block (s := S1x768) S1x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x190.size a ≤ S1x190.size a
  hwx1_4 : ∀ i : grid1.Coords, EltTy.bits .f32 = 32 ∨ (Rect.block (s := S1x190) S1x190.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x190.size a ≤ S1x190.size a
  hwx1_5 : ∀ i : grid1.Coords, EltTy.bits .f32 = 32 ∨ (Rect.block (s := S1x190) S1x190.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x19.size a ≤ S1x19.size a
  hwx1_6 : ∀ i : grid1.Coords, EltTy.bits .f32 = 32 ∨ (Rect.block (s := S1x19) S1x19.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x19.size a ≤ S1x19.size a
  hwx1_7 : ∀ i : grid1.Coords, EltTy.bits .f32 = 32 ∨ (Rect.block (s := S1x19) S1x19.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x19.size a ≤ S65536x19.size a
  hwx1_8 : ∀ i : grid1.Coords, EltTy.bits .f32 = 32 ∨ (Rect.block (s := S65536x19) S1024x19.size (cc1_transform_8 i) (hinb1_8 i)).WholeWords (EltTy.packing .f32)

variable [Facts₀]

def dot_S1024x768_S768x190_S1024x190_1_0_0_1_n_n : DotDims S1024x768 S768x190 S1024x190 where
  lhsContracting := [1]
  rhsContracting := [0]
  lhsNonContracting := [0]
  rhsNonContracting := [1]
  lhsBatch := []
  rhsBatch := []
  wf := dot_S1024x768_S768x190_S1024x190_1_0_0_1_n_n_wf

abbrev win0_0 : Pipeline.Window sig grid0 :=
  Pipeline.Window.whole (Memref.whole main_call0_v2) false false (stage0_0 0) (sem0_0 0) (Memref.isWhole_whole _) (hstage0_0 0)

abbrev win0_1 : Pipeline.Window sig grid0 :=
  Pipeline.Window.whole (Memref.whole main_call0_v3) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v3) S768x190.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v10) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v11) S1x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v6) S1x190.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v9) S1x190.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v12) S1x19.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v13) S1x19.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v0) S1024x19.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S65536x768 : Shape := ⟨2, ![65536, 768]⟩
abbrev S19x10x768 : Shape := ⟨3, ![19, 10, 768]⟩
abbrev S768 : Shape := ⟨1, ![768]⟩
abbrev S190 : Shape := ⟨1, ![190]⟩
abbrev S19 : Shape := ⟨1, ![19]⟩
abbrev S_ : Shape := ⟨0, ![]⟩
abbrev S65536 : Shape := ⟨1, ![65536]⟩
abbrev S65536x1 : Shape := ⟨2, ![65536, 1]⟩
abbrev S1x768 : Shape := ⟨2, ![1, 768]⟩
abbrev S19x10 : Shape := ⟨2, ![19, 10]⟩
abbrev S19x10x1 : Shape := ⟨3, ![19, 10, 1]⟩
abbrev S19x10x65536 : Shape := ⟨3, ![19, 10, 65536]⟩
abbrev S65536x10x19 : Shape := ⟨3, ![65536, 10, 19]⟩
abbrev S65536x19x10 : Shape := ⟨3, ![65536, 19, 10]⟩
abbrev S65536x190 : Shape := ⟨2, ![65536, 190]⟩
abbrev S1x190 : Shape := ⟨2, ![1, 190]⟩
abbrev S65536x19 : Shape := ⟨2, ![65536, 19]⟩
abbrev S1x19 : Shape := ⟨2, ![1, 19]⟩

abbrev nBuf : Space → Nat
  | .hbm => 167
  | .vmem => 0
  | .smem => 0
  | _ => 0

abbrev hbmTy0_0 (i : Nat) : BufTy := match i % 128 with
  | 0 => ⟨S65536x768, .f32⟩
  | 1 => ⟨S19x10x768, .f32⟩
  | 2 => ⟨S768, .f32⟩
  | 3 => ⟨S768, .f32⟩
  | 4 => ⟨S190, .f32⟩
  | 5 => ⟨S190, .f32⟩
  | 6 => ⟨S19, .f32⟩
  | 7 => ⟨S19, .f32⟩
  | 8 => ⟨S_, .f32⟩
  | 9 => ⟨S65536, .f32⟩
  | 10 => ⟨S65536x1, .f32⟩
  | 11 => ⟨S_, .f32⟩
  | 12 => ⟨S65536x1, .f32⟩
  | 13 => ⟨S65536x1, .f32⟩
  | 14 => ⟨S_, .i32⟩
  | 15 => ⟨S_, .f32⟩
  | 16 => ⟨S65536, .f32⟩
  | 17 => ⟨S65536x1, .f32⟩
  | 18 => ⟨S_, .f32⟩
  | 19 => ⟨S65536x1, .f32⟩
  | 20 => ⟨S65536x1, .f32⟩
  | 21 => ⟨S65536x768, .f32⟩
  | 22 => ⟨S65536x768, .f32⟩
  | 23 => ⟨S65536x768, .f32⟩
  | 24 => ⟨S_, .f32⟩
  | 25 => ⟨S_, .f32⟩
  | 26 => ⟨S_, .f32⟩
  | 27 => ⟨S_, .f32⟩
  | 28 => ⟨S65536, .f32⟩
  | 29 => ⟨S65536x1, .f32⟩
  | 30 => ⟨S65536x1, .f32⟩
  | 31 => ⟨S65536x1, .f32⟩
  | 32 => ⟨S_, .f32⟩
  | 33 => ⟨S_, .i1⟩
  | 34 => ⟨S_, .f32⟩
  | 35 => ⟨S_, .f32⟩
  | 36 => ⟨S65536x1, .f32⟩
  | 37 => ⟨S65536x1, .f32⟩
  | 38 => ⟨S65536x768, .f32⟩
  | 39 => ⟨S65536x768, .f32⟩
  | 40 => ⟨S_, .f32⟩
  | 41 => ⟨S65536x1, .f32⟩
  | 42 => ⟨S65536x1, .f32⟩
  | 43 => ⟨S65536x1, .f32⟩
  | 44 => ⟨S65536x768, .f32⟩
  | 45 => ⟨S65536x768, .f32⟩
  | 46 => ⟨S1x768, .f32⟩
  | 47 => ⟨S65536x768, .f32⟩
  | 48 => ⟨S65536x768, .f32⟩
  | 49 => ⟨S1x768, .f32⟩
  | 50 => ⟨S65536x768, .f32⟩
  | 51 => ⟨S65536x768, .f32⟩
  | 52 => ⟨S65536x768, .f32⟩
  | 53 => ⟨S_, .f32⟩
  | 54 => ⟨S65536, .f32⟩
  | 55 => ⟨S65536x1, .f32⟩
  | 56 => ⟨S65536x1, .f32⟩
  | 57 => ⟨S_, .f32⟩
  | 58 => ⟨S65536x1, .f32⟩
  | 59 => ⟨S65536x1, .f32⟩
  | 60 => ⟨S65536x768, .f32⟩
  | 61 => ⟨S65536x768, .f32⟩
  | 62 => ⟨S19x10x768, .f32⟩
  | 63 => ⟨S_, .f32⟩
  | 64 => ⟨S19x10, .f32⟩
  | 65 => ⟨S19x10x1, .f32⟩
  | 66 => ⟨S19x10x1, .f32⟩
  | 67 => ⟨S_, .f32⟩
  | 68 => ⟨S19x10x1, .f32⟩
  | 69 => ⟨S19x10x1, .f32⟩
  | 70 => ⟨S19x10x768, .f32⟩
  | 71 => ⟨S19x10x768, .f32⟩
  | 72 => ⟨S19x10x65536, .f32⟩
  | 73 => ⟨S65536x10x19, .f32⟩
  | 74 => ⟨S65536x19x10, .f32⟩
  | 75 => ⟨S65536x190, .f32⟩
  | 76 => ⟨S_, .f32⟩
  | 77 => ⟨S65536, .f32⟩
  | 78 => ⟨S65536x1, .f32⟩
  | 79 => ⟨S_, .f32⟩
  | 80 => ⟨S65536x1, .f32⟩
  | 81 => ⟨S65536x1, .f32⟩
  | 82 => ⟨S_, .i32⟩
  | 83 => ⟨S_, .f32⟩
  | 84 => ⟨S65536, .f32⟩
  | 85 => ⟨S65536x1, .f32⟩
  | 86 => ⟨S_, .f32⟩
  | 87 => ⟨S65536x1, .f32⟩
  | 88 => ⟨S65536x1, .f32⟩
  | 89 => ⟨S65536x190, .f32⟩
  | 90 => ⟨S65536x190, .f32⟩
  | 91 => ⟨S65536x190, .f32⟩
  | 92 => ⟨S_, .f32⟩
  | 93 => ⟨S_, .f32⟩
  | 94 => ⟨S_, .f32⟩
  | 95 => ⟨S_, .f32⟩
  | 96 => ⟨S65536, .f32⟩
  | 97 => ⟨S65536x1, .f32⟩
  | 98 => ⟨S65536x1, .f32⟩
  | 99 => ⟨S65536x1, .f32⟩
  | 100 => ⟨S_, .f32⟩
  | 101 => ⟨S_, .i1⟩
  | 102 => ⟨S_, .f32⟩
  | 103 => ⟨S_, .f32⟩
  | 104 => ⟨S65536x1, .f32⟩
  | 105 => ⟨S65536x1, .f32⟩
  | 106 => ⟨S65536x190, .f32⟩
  | 107 => ⟨S65536x190, .f32⟩
  | 108 => ⟨S_, .f32⟩
  | 109 => ⟨S65536x1, .f32⟩
  | 110 => ⟨S65536x1, .f32⟩
  | 111 => ⟨S65536x1, .f32⟩
  | 112 => ⟨S65536x190, .f32⟩
  | 113 => ⟨S65536x190, .f32⟩
  | 114 => ⟨S1x190, .f32⟩
  | 115 => ⟨S65536x190, .f32⟩
  | 116 => ⟨S65536x190, .f32⟩
  | 117 => ⟨S1x190, .f32⟩
  | 118 => ⟨S65536x190, .f32⟩
  | 119 => ⟨S65536x190, .f32⟩
  | 120 => ⟨S65536x19x10, .f32⟩
  | 121 => ⟨S_, .f32⟩
  | 122 => ⟨S65536x19, .f32⟩
  | 123 => ⟨S_, .f32⟩
  | 124 => ⟨S65536, .f32⟩
  | 125 => ⟨S65536x1, .f32⟩
  | 126 => ⟨S_, .f32⟩
  | 127 => ⟨S65536x1, .f32⟩
  | _ => ⟨S65536x768, .f32⟩

abbrev hbmTy0_1 (i : Nat) : BufTy := match i % 128 with
  | 0 => ⟨S65536x1, .f32⟩
  | 1 => ⟨S_, .i32⟩
  | 2 => ⟨S_, .f32⟩
  | 3 => ⟨S65536, .f32⟩
  | 4 => ⟨S65536x1, .f32⟩
  | 5 => ⟨S_, .f32⟩
  | 6 => ⟨S65536x1, .f32⟩
  | 7 => ⟨S65536x1, .f32⟩
  | 8 => ⟨S65536x19, .f32⟩
  | 9 => ⟨S65536x19, .f32⟩
  | 10 => ⟨S65536x19, .f32⟩
  | 11 => ⟨S_, .f32⟩
  | 12 => ⟨S_, .f32⟩
  | 13 => ⟨S_, .f32⟩
  | 14 => ⟨S_, .f32⟩
  | 15 => ⟨S65536, .f32⟩
  | 16 => ⟨S65536x1, .f32⟩
  | 17 => ⟨S65536x1, .f32⟩
  | 18 => ⟨S65536x1, .f32⟩
  | 19 => ⟨S_, .f32⟩
  | 20 => ⟨S_, .i1⟩
  | 21 => ⟨S_, .f32⟩
  | 22 => ⟨S_, .f32⟩
  | 23 => ⟨S65536x1, .f32⟩
  | 24 => ⟨S65536x1, .f32⟩
  | 25 => ⟨S65536x19, .f32⟩
  | 26 => ⟨S65536x19, .f32⟩
  | 27 => ⟨S_, .f32⟩
  | 28 => ⟨S65536x1, .f32⟩
  | 29 => ⟨S65536x1, .f32⟩
  | 30 => ⟨S65536x1, .f32⟩
  | 31 => ⟨S65536x19, .f32⟩
  | 32 => ⟨S65536x19, .f32⟩
  | 33 => ⟨S1x19, .f32⟩
  | 34 => ⟨S65536x19, .f32⟩
  | 35 => ⟨S65536x19, .f32⟩
  | 36 => ⟨S1x19, .f32⟩
  | 37 => ⟨S65536x19, .f32⟩
  | 38 => ⟨S65536x19, .f32⟩
  | _ => ⟨S65536x768, .f32⟩

abbrev hbmTy (i : Nat) : BufTy := match i / 128 with
  | 0 => hbmTy0_0 i
  | 1 => hbmTy0_1 i
  | _ => ⟨S65536x768, .f32⟩

abbrev bufTy : (tb : Table) → Fin (tcTables nBuf tb) → BufTy
  | .hbm, ⟨i, _⟩ => hbmTy i
  | _, _ => ⟨S65536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_cst_3 : Ref sig .tc := ⟨.hbm, 32, rfl⟩
abbrev main_call0_v13 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_cst_1 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_call1_v0 : Ref sig .tc := ⟨.hbm, 52, rfl⟩
abbrev main_call1_cst : Ref sig .tc := ⟨.hbm, 53, rfl⟩
abbrev main_call1_v1 : Ref sig .tc := ⟨.hbm, 54, rfl⟩
abbrev main_call1_v2 : Ref sig .tc := ⟨.hbm, 55, rfl⟩
abbrev main_v18 : Ref sig .tc := ⟨.hbm, 56, rfl⟩
abbrev main_cst_2 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_call2_v0 : Ref sig .tc := ⟨.hbm, 62, rfl⟩
abbrev main_call2_cst : Ref sig .tc := ⟨.hbm, 63, rfl⟩
abbrev main_call2_v1 : Ref sig .tc := ⟨.hbm, 64, rfl⟩
abbrev main_call2_v2 : Ref sig .tc := ⟨.hbm, 65, rfl⟩
abbrev main_v23 : Ref sig .tc := ⟨.hbm, 66, rfl⟩
abbrev main_cst_3 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_4 : Ref sig .tc := ⟨.hbm, 76, rfl⟩
abbrev main_v32 : Ref sig .tc := ⟨.hbm, 77, rfl⟩
abbrev main_v33 : Ref sig .tc := ⟨.hbm, 78, rfl⟩
abbrev main_cst_5 : Ref sig .tc := ⟨.hbm, 79, rfl⟩
abbrev main_v34 : Ref sig .tc := ⟨.hbm, 80, rfl⟩
abbrev main_v35 : Ref sig .tc := ⟨.hbm, 81, rfl⟩
abbrev main_c_6 : Ref sig .tc := ⟨.hbm, 82, rfl⟩
abbrev main_call3_cst : Ref sig .tc := ⟨.hbm, 83, rfl⟩
abbrev main_call3_v0 : Ref sig .tc := ⟨.hbm, 84, rfl⟩
abbrev main_call3_v1 : Ref sig .tc := ⟨.hbm, 85, rfl⟩
abbrev main_call3_cst_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_v6 : Ref sig .tc := ⟨.hbm, 91, rfl⟩
abbrev main_call3_v7 : Ref sig .tc := ⟨.hbm, 92, rfl⟩
abbrev main_call3_cst_1 : Ref sig .tc := ⟨.hbm, 93, rfl⟩
abbrev main_call3_v8 : Ref sig .tc := ⟨.hbm, 94, rfl⟩
abbrev main_call3_cst_2 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_v12 : Ref sig .tc := ⟨.hbm, 99, rfl⟩
abbrev main_call3_cst_3 : Ref sig .tc := ⟨.hbm, 100, rfl⟩
abbrev main_call3_v13 : Ref sig .tc := ⟨.hbm, 101, rfl⟩
abbrev main_call3_cst_4 : Ref sig .tc := ⟨.hbm, 102, rfl⟩
abbrev main_call3_call0_v0 : Ref sig .tc := ⟨.hbm, 103, rfl⟩
abbrev main_call3_call0_v1 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_cst_8 : Ref sig .tc := ⟨.hbm, 121, rfl⟩
abbrev main_v51 : Ref sig .tc := ⟨.hbm, 122, rfl⟩
abbrev main_cst_9 : Ref sig .tc := ⟨.hbm, 123, rfl⟩
abbrev main_v52 : Ref sig .tc := ⟨.hbm, 124, rfl⟩
abbrev main_v53 : Ref sig .tc := ⟨.hbm, 125, rfl⟩
abbrev main_cst_10 : Ref sig .tc := ⟨.hbm, 126, rfl⟩
abbrev main_v54 : Ref sig .tc := ⟨.hbm, 127, rfl⟩
abbrev main_v55 : Ref sig .tc := ⟨.hbm, 128, rfl⟩
abbrev main_c_11 : Ref sig .tc := ⟨.hbm, 129, rfl⟩
abbrev main_call4_cst : Ref sig .tc := ⟨.hbm, 130, rfl⟩
abbrev main_call4_v0 : Ref sig .tc := ⟨.hbm, 131, rfl⟩
abbrev main_call4_v1 : Ref sig .tc := ⟨.hbm, 132, rfl⟩
abbrev main_call4_cst_0 : Ref sig .tc := ⟨.hbm, 133, rfl⟩
abbrev main_call4_v2 : Ref sig .tc := ⟨.hbm, 134, rfl⟩
abbrev main_call4_v3 : Ref sig .tc := ⟨.hbm, 135, rfl⟩
abbrev main_call4_v4 : Ref sig .tc := ⟨.hbm, 136, rfl⟩
abbrev main_call4_v5 : Ref sig .tc := ⟨.hbm, 137, rfl⟩
abbrev main_call4_v6 : Ref sig .tc := ⟨.hbm, 138, rfl⟩
abbrev main_call4_v7 : Ref sig .tc := ⟨.hbm, 139, rfl⟩
abbrev main_call4_cst_1 : Ref sig .tc := ⟨.hbm, 140, rfl⟩
abbrev main_call4_v8 : Ref sig .tc := ⟨.hbm, 141, rfl⟩
abbrev main_call4_cst_2 : Ref sig .tc := ⟨.hbm, 142, rfl⟩
abbrev main_call4_v9 : Ref sig .tc := ⟨.hbm, 143, rfl⟩
abbrev main_call4_v10 : Ref sig .tc := ⟨.hbm, 144, rfl⟩
abbrev main_call4_v11 : Ref sig .tc := ⟨.hbm, 145, rfl⟩
abbrev main_call4_v12 : Ref sig .tc := ⟨.hbm, 146, rfl⟩
abbrev main_call4_cst_3 : Ref sig .tc := ⟨.hbm, 147, rfl⟩
abbrev main_call4_v13 : Ref sig .tc := ⟨.hbm, 148, rfl⟩
abbrev main_call4_cst_4 : Ref sig .tc := ⟨.hbm, 149, rfl⟩
abbrev main_call4_call0_v0 : Ref sig .tc := ⟨.hbm, 150, rfl⟩
abbrev main_call4_call0_v1 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_cst_12 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩

abbrev nD : Nat := 1
abbrev τ : Topo := Topo.v7x

variable {F : FTy → Type} [FloatOps F]

class Facts₀ : Prop where
  reducesTo_S65536x768_S65536_d1 : S65536x768.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x768_0_1 : S65536x1.BroadcastsInDim S65536x768 (![0, 1] : Fin 2 → Fin S65536x768.rank)
  bcast_S768_S1x768_1 : S768.BroadcastsInDim S1x768 (![1] : Fin 1 → Fin S1x768.rank)
  bcast_S1x768_S65536x768_0_1 : S1x768.BroadcastsInDim S65536x768 (![0, 1] : Fin 2 → Fin S65536x768.rank)
  reducesTo_S19x10x768_S19x10_d2 : S19x10x768.ReducesTo [2] S19x10
  bcast_S19x10_S19x10x1_0_1 : S19x10.BroadcastsInDim S19x10x1 (![0, 1] : Fin 2 → Fin S19x10x1.rank)
  bcast_S_S19x10x1 : S_.BroadcastsInDim S19x10x1 (![] : Fin 0 → Fin S19x10x1.rank)
  bcast_S19x10x1_S19x10x768_0_1_2 : S19x10x1.BroadcastsInDim S19x10x768 (![0, 1, 2] : Fin 3 → Fin S19x10x768.rank)
  transposes_S19x10x65536_S65536x10x19_2_1_0 : S19x10x65536.Transposes [2, 1, 0] S65536x10x19
  transposes_S65536x10x19_S65536x19x10_0_2_1 : S65536x10x19.Transposes [0, 2, 1] S65536x19x10
  shapeCasts_S65536x19x10_S65536x190 : S65536x19x10.ShapeCasts S65536x190
  reducesTo_S65536x190_S65536_d1 : S65536x190.ReducesTo [1] S65536
  bcast_S65536x1_S65536x190_0_1 : S65536x1.BroadcastsInDim S65536x190 (![0, 1] : Fin 2 → Fin S65536x190.rank)
  bcast_S190_S1x190_1 : S190.BroadcastsInDim S1x190 (![1] : Fin 1 → Fin S1x190.rank)
  bcast_S1x190_S65536x190_0_1 : S1x190.BroadcastsInDim S65536x190 (![0, 1] : Fin 2 → Fin S65536x190.rank)
  shapeCasts_S65536x190_S65536x19x10 : S65536x190.ShapeCasts S65536x19x10
  reducesTo_S65536x19x10_S65536x19_d2 : S65536x19x10.ReducesTo [2] S65536x19
  reducesTo_S65536x19_S65536_d1 : S65536x19.ReducesTo [1] S65536
  bcast_S65536x1_S65536x19_0_1 : S65536x1.BroadcastsInDim S65536x19 (![0, 1] : Fin 2 → Fin S65536x19.rank)
  bcast_S19_S1x19_1 : S19.BroadcastsInDim S1x19 (![1] : Fin 1 → Fin S1x19.rank)
  bcast_S1x19_S65536x19_0_1 : S1x19.BroadcastsInDim S65536x19 (![0, 1] : Fin 2 → Fin S65536x19.rank)
  dot_S19x10x768_S65536x768_S19x10x65536_2_1_01_0_n_n_wf : DotDims.WF S19x10x768 S65536x768 S19x10x65536 [2] [1] [0, 1] [0] [] []

variable [Facts₀]

def dot_S19x10x768_S65536x768_S19x10x65536_2_1_01_0_n_n : DotDims S19x10x768 S65536x768 S19x10x65536 where
  lhsContracting := [2]
  rhsContracting := [1]
  lhsNonContracting := [0, 1]
  rhsNonContracting := [0]
  lhsBatch := []
  rhsBatch := []
  wf := dot_S19x10x768_S65536x768_S19x10x65536_2_1_01_0_n_n_wf

class Facts : Prop extends Facts₀ where

variable [Facts]
-- ==== Proof.Spec.lean ====
/-
  What both programs compute, one pixel row at a time, on the extended reals.

  A pixel's 768 features are layer-normalised (mean and variance over the row, divided by the
  literal 768; scale and shift per feature) and divided by their Euclidean length plus a small
  literal. Each of the 19 x 10 prototype vectors is divided by its own length plus the same literal.
  The 190 similarities of the pixel (a sum over the 768 features of products) are layer-normalised
  as ONE row of 190, each with its own scale and shift; per class the greatest of its ten entries
  is kept; the 19 maxima are layer-normalised once more.

  The two programs lay the 190 similarities out differently: the reference puts entry (class k,
  prototype m) at position 10 k + m, the kernel at position 19 m + k. A row's mean and variance
  are sums over all its positions, so they do not see the order (a sum over a finite type is
  invariant under a bijection of the type), and scale and shift travel with their entry. The
  reference takes each class's maximum as a fold of `max` from the bottom element over the ten
  prototypes, the kernel as a chain of nine binary maxima: one least upper bound. The reference
  multiplies prototype by feature, the kernel feature by prototype: multiplication commutes.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The literals, as the words both programs print (never evaluated: the same word on both sides). -/
abbrev e5 : EReal := Ideal.ofBits .f32 0x3727C5AC#32
abbrev e12 : EReal := Ideal.ofBits .f32 0x2B8CBCCC#32
abbrev c768 : EReal := Ideal.ofBits .f32 0x44400000#32
abbrev c190 : EReal := Ideal.ofBits .f32 0x433E0000#32
abbrev c19 : EReal := Ideal.ofBits .f32 0x41980000#32

/-- A row's mean: its sum divided by the count `N`. -/
def mean {n : ℕ} (N : EReal) (r : Fin n → EReal) : EReal := Ideal.div (∑ k, r k) N

/-- Layer normalisation of one row, entry `j`: centred, divided by the root of the variance plus `eps`,
    scaled by `g j` and shifted by `b j`. -/
def lnRow {n : ℕ} (N eps : EReal) (r g b : Fin n → EReal) (j : Fin n) : EReal :=
  Ideal.div (r j - mean N r)
      (Ideal.sqrt (Ideal.div (∑ k, (r k - mean N r) * (r k - mean N r)) N + eps)) * g j + b j

/-- One row divided by its Euclidean length plus `eps`, entry `j`. -/
def l2Row {n : ℕ} (eps : EReal) (r : Fin n → EReal) (j : Fin n) : EReal :=
  Ideal.div (r j) (Ideal.sqrt (∑ k, r k * r k) + eps)

/-- Position of (class k, prototype m) in the reference's row of 190: class-major. -/
def cm (k : Fin 19) (m : Fin 10) : Fin 190 := ⟨k.val * 10 + m.val, by omega⟩
/-- Position of (class k, prototype m) in the kernel's row of 190: prototype-major. -/
def pm (k : Fin 19) (m : Fin 10) : Fin 190 := ⟨m.val * 19 + k.val, by omega⟩

/-- The class and the prototype of a class-major position. -/
def cmK (j : Fin 190) : Fin 19 := ⟨j.val / 10, by omega⟩
def cmM (j : Fin 190) : Fin 10 := ⟨j.val % 10, by omega⟩
/-- The class and the prototype of a prototype-major position. -/
def pmK (j : Fin 190) : Fin 19 := ⟨j.val % 19, by omega⟩
def pmM (j : Fin 190) : Fin 10 := ⟨j.val / 19, by omega⟩

/-- A chain of nine binary maxima over ten entries, in the kernel's order. -/
def max10 (f : Fin 10 → EReal) : EReal :=
  max (max (max (max (max (max (max (max (max (f 0) (f 1)) (f 2)) (f 3)) (f 4)) (f 5)) (f 6)) (f 7)) (f 8)) (f 9)

/-- The pixel's normalised feature row. -/
def featRow (xr fg fb : Fin 768 → EReal) : Fin 768 → EReal := l2Row e12 (lnRow c768 e5 xr fg fb)

/-- One pixel's 19 class scores as the REFERENCE computes them: `pn k m` the normalised prototype
    vectors, the similarities laid class-major, each a sum of prototype × feature. -/
def outRow (xr fg fb : Fin 768 → EReal) (pn : Fin 19 → Fin 10 → Fin 768 → EReal)
    (pg pb : Fin 190 → EReal) (mg mb : Fin 19 → EReal) (k : Fin 19) : EReal :=
  lnRow c19 e5
    (fun k' => Finset.univ.fold max ⊥ (fun m : Fin 10 =>
      lnRow c190 e5 (fun j : Fin 190 => ∑ d, pn (cmK j) (cmM j) d * featRow xr fg fb d) pg pb (cm k' m)))
    mg mb k

/-- The same as the KERNEL computes them: `w d j` the normalised prototype matrix with its 190 columns
    prototype-major, `pgK`, `pbK` scale and shift in that column order, each similarity a sum of
    feature × prototype, the maximum a chain of binary maxima. -/
def outRowK (xr fg fb : Fin 768 → EReal) (w : Fin 768 → Fin 190 → EReal)
    (pgK pbK : Fin 190 → EReal) (mg mb : Fin 19 → EReal) (k : Fin 19) : EReal :=
  lnRow c19 e5
    (fun k' => max10 (fun m : Fin 10 =>
      lnRow c190 e5 (fun j : Fin 190 => ∑ d, featRow xr fg fb d * w d j) pgK pbK (pm k' m)))
    mg mb k

/-! ## The two layouts agree -/

theorem cmK_cm (k : Fin 19) (m : Fin 10) : cmK (cm k m) = k := Fin.ext (by simp only [cm, cmK]; omega)
theorem cmM_cm (k : Fin 19) (m : Fin 10) : cmM (cm k m) = m := Fin.ext (by simp only [cm, cmM]; omega)
theorem pmK_pm (k : Fin 19) (m : Fin 10) : pmK (pm k m) = k := Fin.ext (by simp only [pm, pmK]; omega)
theorem pmM_pm (k : Fin 19) (m : Fin 10) : pmM (pm k m) = m := Fin.ext (by simp only [pm, pmM]; omega)

/-- The bijection of the 190 positions that takes an entry's prototype-major position to its class-major one. -/
def relay : Fin 190 ≃ Fin 190 where
  toFun j := cm (pmK j) (pmM j)
  invFun i := pm (cmK i) (cmM i)
  left_inv j := Fin.ext (by simp only [cm, pm, cmK, cmM, pmK, pmM]; omega)
  right_inv i := Fin.ext (by simp only [cm, pm, cmK, cmM, pmK, pmM]; omega)

theorem relay_pm (k : Fin 19) (m : Fin 10) : relay (pm k m) = cm k m := by
  show cm (pmK (pm k m)) (pmM (pm k m)) = cm k m
  rw [pmK_pm, pmM_pm]

/-- A row's mean does not see the order of its entries: a sum over a finite type is invariant under a bijection. -/
theorem mean_comp {n : ℕ} (N : EReal) (r : Fin n → EReal) (e : Fin n ≃ Fin n) :
    mean N (fun j => r (e j)) = mean N r := by
  unfold mean
  rw [Equiv.sum_comp e r]

/-- Layer normalisation commutes with re-laying the row, its scales and its shifts by one bijection. -/
theorem lnRow_comp {n : ℕ} (N eps : EReal) (r g b : Fin n → EReal) (e : Fin n ≃ Fin n) (j : Fin n) :
    lnRow N eps (fun j => r (e j)) (fun j => g (e j)) (fun j => b (e j)) j = lnRow N eps r g b (e j) := by
  have hs : (∑ k, (r (e k) - mean N r) * (r (e k) - mean N r)) = ∑ k, (r k - mean N r) * (r k - mean N r) :=
    Equiv.sum_comp e (fun k => (r k - mean N r) * (r k - mean N r))
  unfold lnRow
  rw [mean_comp N r e, hs]

/-- A chain of nine binary maxima over ten entries is the fold of the maximum from the bottom element:
    both are the least upper bound of the ten. -/
theorem max10_eq_fold (f : Fin 10 → EReal) : max10 f = Finset.univ.fold max ⊥ f := by
  have h : Finset.univ.fold max ⊥ f = Finset.univ.sup f := rfl
  rw [h]
  apply le_antisymm
  · unfold max10
    simp only [max_le_iff]
    refine ⟨⟨⟨⟨⟨⟨⟨⟨⟨?_, ?_⟩, ?_⟩, ?_⟩, ?_⟩, ?_⟩, ?_⟩, ?_⟩, ?_⟩, ?_⟩ <;> exact Finset.le_sup (Finset.mem_univ _)
  · apply Finset.sup_le
    intro i _
    unfold max10
    fin_cases i <;> simp [le_max_iff]

/-- The two agree when the kernel's columns are the reference's entries re-laid. -/
theorem outRowK_eq_outRow (xr fg fb : Fin 768 → EReal) (pn : Fin 19 → Fin 10 → Fin 768 → EReal)
    (pg pb : Fin 190 → EReal) (mg mb : Fin 19 → EReal) (k : Fin 19) :
    outRowK xr fg fb (fun d j => pn (pmK j) (pmM j) d) (fun j => pg (cm (pmK j) (pmM j)))
      (fun j => pb (cm (pmK j) (pmM j))) mg mb k
    = outRow xr fg fb pn pg pb mg mb k := by
  have hs : (fun j : Fin 190 => ∑ d, featRow xr fg fb d * pn (pmK j) (pmM j) d)
      = fun j : Fin 190 => (fun i : Fin 190 => ∑ d, pn (cmK i) (cmM i) d * featRow xr fg fb d) (relay j) := by
    funext j
    show _ = ∑ d, pn (cmK (cm (pmK j) (pmM j))) (cmM (cm (pmK j) (pmM j))) d * featRow xr fg fb d
    rw [cmK_cm, cmM_cm]
    exact Finset.sum_congr rfl fun d _ => mul_comm _ _
  have hrow : (fun k' : Fin 19 => max10 (fun m : Fin 10 =>
        lnRow c190 e5 (fun j : Fin 190 => ∑ d, featRow xr fg fb d * pn (pmK j) (pmM j) d)
          (fun j => pg (cm (pmK j) (pmM j))) (fun j => pb (cm (pmK j) (pmM j))) (pm k' m)))
      = fun k' : Fin 19 => Finset.univ.fold max ⊥ (fun m : Fin 10 =>
        lnRow c190 e5 (fun j : Fin 190 => ∑ d, pn (cmK j) (cmM j) d * featRow xr fg fb d) pg pb (cm k' m)) := by
    funext k'
    rw [max10_eq_fold]
    congr 1
    funext m
    rw [hs]
    have h := lnRow_comp c190 e5 (fun i : Fin 190 => ∑ d, pn (cmK i) (cmM i) d * featRow xr fg fb d) pg pb relay (pm k' m)
    rw [relay_pm] at h
    exact h
  unfold outRowK outRow
  rw [hrow]

/-- The whole result array as one function of the argument arrays: entry (n, k) is pixel `n`'s score of class `k`. -/
def G (x : (⟨2, ![65536, 768]⟩ : Shape).Idx → EReal) (P : (⟨3, ![19, 10, 768]⟩ : Shape).Idx → EReal)
    (fg fb : (⟨1, ![768]⟩ : Shape).Idx → EReal) (pg pb : (⟨1, ![190]⟩ : Shape).Idx → EReal)
    (mg mb : (⟨1, ![19]⟩ : Shape).Idx → EReal) : (⟨2, ![65536, 19]⟩ : Shape).Idx → EReal := fun i =>
  outRow (fun d => x (ix2 (i 0) d)) (fun d => fg (ix1 d)) (fun d => fb (ix1 d))
    (fun k m => l2Row e12 (fun d => P (ix3 k m d)))
    (fun j => pg (ix1 j)) (fun j => pb (ix1 j)) (fun k => mg (ix1 k)) (fun k => mb (ix1 k)) (i 1)

end Cert.Spec

end
-- ==== Proof.KerFeat.lean ====
/-
  The first part of the main kernel's body on a block of 1024 pixels, read at an entry: the block's
  similarities (row p's normalised features contracted with column j of the prototype matrix) and their
  row mean.
-/
import proofs.«151860_g13219909337484_cont_week2b_1152_2_alg».proof.Proof.Gen.KernelIdeal.Skeleton
import proofs.«151860_g13219909337484_cont_week2b_1152_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Ker

open Idealize.ShloMosaic Idealize.ShloMosaic.ValueIdx Cert.KernelIdeal Cert.KernelIdeal.Gen
open scoped BigOperators

/-! ## Rows of a block: a row sum, a column broadcast along the rows, a row broadcast down the columns -/

/-- The sum over axis 1 of a block of 1024 rows, at row `p`, is the sum of the row's entries. -/
theorem rowSum_apply {n : ℕ} (v : FVec Ideal ⟨2, ![1024, n]⟩ .f32) (h : Shape.Reduces ⟨2, ![1024, n]⟩ [1] S1024)
    (hφ : FKind.Formats .f32) (hacc : (0x00000000#32 : BitVec 32) = FKind.add.neutral .f32 hφ) (p : Fin 1024) :
    multiReduction .add [1] S1024 v 0x00000000#32 h hφ hacc (ix1 p) = ∑ d : Fin n, v (ix2 p d) := by
  rw [Ideal.multiReduction_add_single]
  show ∑ d : Fin n, v (h.lift (ix1 p) d) = ∑ d : Fin n, v (ix2 p d)
  refine Finset.sum_congr rfl fun d _ => congrArg v (funext fun a => Fin.ext ?_)
  match a with
  | ⟨0, _⟩ => rfl
  | ⟨1, _⟩ => rfl

/-- A vector of 1024 entries cast to a column reads, at `(p, u)`, its entry `p`. -/
theorem colCast_apply {α : Type} (x : S1024.Idx → α) (h : S1024.ShapeCasts S1024x1) (p : Fin 1024) (u : Fin 1) :
    shapeCast S1024x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column broadcast along the rows reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The contraction: rows of the left operand against columns of the right one -/

/-- The left operand's index at output `(r, c)` and contraction position `k` is `(r, k)`: its row coordinate … -/
theorem dot_lhs_row (i : S1024x190.Idx) (k : dot_S1024x768_S768x190_S1024x190_1_0_0_1_n_n.contr.Idx) :
    (dot_S1024x768_S768x190_S1024x190_1_0_0_1_n_n.lhsIdx i k 0).val = (i 0).val := rfl
/-- … and its column coordinate. -/
theorem dot_lhs_col (i : S1024x190.Idx) (k : dot_S1024x768_S768x190_S1024x190_1_0_0_1_n_n.contr.Idx) :
    (dot_S1024x768_S768x190_S1024x190_1_0_0_1_n_n.lhsIdx i k 1).val = (k ⟨0, Nat.one_pos⟩).val :=
  dot_S1024x768_S768x190_S1024x190_1_0_0_1_n_n.lhsIdx_val_of_single rfl i k
/-- The right operand's index there is `(k, c)`: its row coordinate … -/
theorem dot_rhs_row (i : S1024x190.Idx) (k : dot_S1024x768_S768x190_S1024x190_1_0_0_1_n_n.contr.Idx) :
    (dot_S1024x768_S768x190_S1024x190_1_0_0_1_n_n.rhsIdx i k 0).val = (k ⟨0, Nat.one_pos⟩).val :=
  dot_S1024x768_S768x190_S1024x190_1_0_0_1_n_n.rhsIdx_val_of_single rfl i k
/-- … and its column coordinate. -/
theorem dot_rhs_col (i : S1024x190.Idx) (k : dot_S1024x768_S768x190_S1024x190_1_0_0_1_n_n.contr.Idx) :
    (dot_S1024x768_S768x190_S1024x190_1_0_0_1_n_n.rhsIdx i k 1).val = (i 1).val := rfl

/-- The product into a zero accumulator, at `(p, j)`: the sum over the 768 contracted positions of row `p` of the left
    operand times column `j` of the right one. -/
theorem matmul_zero_apply (A : FVec Ideal S1024x768 .f32) (B : FVec Ideal S768x190 .f32) (p : Fin 1024) (j : Fin 190) :
    matmul dot_S1024x768_S768x190_S1024x190_1_0_0_1_n_n none A B (constant (F := Ideal) S1024x190 .f32 0x00000000#32) (ix2 p j)
      = ∑ d : Fin 768, A (ix2 p d) * B (ix2 d j) := by
  show FloatOps.matmul dot_S1024x768_S768x190_S1024x190_1_0_0_1_n_n none A B
    (constant (F := Ideal) S1024x190 .f32 0x00000000#32) (ix2 p j) = _
  rw [Ideal.matmul_constant_zero_apply,
    ← Equiv.sum_comp (contrEquiv1 dot_S1024x768_S768x190_S1024x190_1_0_0_1_n_n 768 rfl rfl).symm]
  refine Finset.sum_congr rfl fun d _ => ?_
  have c := contrEquiv1_symm_val dot_S1024x768_S768x190_S1024x190_1_0_0_1_n_n 768 rfl rfl d
  have l : dot_S1024x768_S768x190_S1024x190_1_0_0_1_n_n.lhsIdx (ix2 p j)
      ((contrEquiv1 dot_S1024x768_S768x190_S1024x190_1_0_0_1_n_n 768 rfl rfl).symm d) = ix2 p d := by
    funext ax; apply Fin.ext
    match ax with
    | ⟨0, _⟩ => exact dot_lhs_row _ _
    | ⟨1, _⟩ => exact (dot_lhs_col _ _).trans c
  have r : dot_S1024x768_S768x190_S1024x190_1_0_0_1_n_n.rhsIdx (ix2 p j)
      ((contrEquiv1 dot_S1024x768_S768x190_S1024x190_1_0_0_1_n_n 768 rfl rfl).symm d) = ix2 d j := by
    funext ax; apply Fin.ext
    match ax with
    | ⟨0, _⟩ => exact (dot_rhs_row _ _).trans c
    | ⟨1, _⟩ => exact dot_rhs_col _ _
  rw [l, r]

/-! ## The stages of the body, as vectors over a block -/

/-- Each row's sum, as a column. -/
def sumCol (v : FVec Ideal S1024x768 .f32) : FVec Ideal S1024x1 .f32 :=
  shapeCast S1024x1 (multiReduction .add [1] S1024 v 0x00000000#32 reduces_S1024x768_S1024 (.inl rfl) rfl)
    shapeCasts_S1024_S1024x1

/-- Each row minus its mean (the row's sum divided by the count `N`). -/
def centred (N : Ideal .f32) (v : FVec Ideal S1024x768 .f32) : FVec Ideal S1024x768 .f32 :=
  subf v (broadcastTo S1024x768 (divf (sumCol v) (broadcast S1024x1 N)) broadcasts_S1024x1_S1024x768)

/-- Each row layer-normalised: centred, divided by the root of its variance plus `eps`, scaled by the row `g` and
    shifted by the row `b`. -/
def lnBlock (N eps : Ideal .f32) (v : FVec Ideal S1024x768 .f32) (g b : Vec Ideal S1x768 .f32) :
    FVec Ideal S1024x768 .f32 :=
  addf
    (mulf
      (divf (centred N v)
        (broadcastTo S1024x768
          (sqrt (addf (divf (sumCol (mulf (centred N v) (centred N v))) (broadcast S1024x1 N)) (broadcast S1024x1 eps)))
          broadcasts_S1024x1_S1024x768))
      (broadcastTo S1024x768 (shapeCast S1x768 g shapeCasts_S1x768_S1x768) broadcasts_S1x768_S1024x768))
    (broadcastTo S1024x768 (shapeCast S1x768 b shapeCasts_S1x768_S1x768) broadcasts_S1x768_S1024x768)

/-- Each row divided by the root of its sum of squares plus `eps`. -/
def unitBlock (eps : Ideal .f32) (w : FVec Ideal S1024x768 .f32) : FVec Ideal S1024x768 .f32 :=
  divf w (broadcastTo S1024x768 (addf (sqrt (sumCol (mulf w w))) (broadcast S1024x1 eps)) broadcasts_S1024x1_S1024x768)

/-- The similarities are the product of the normalised block with the prototype matrix. -/
theorem k1_pay2_eq (v0 : Vec Ideal S1024x768 .f32) (v17 v21 : Vec Ideal S1x768 .f32) (v33 : Vec Ideal S768x190 .f32) :
    k1_pay2 v0 v17 v21 v33
      = matmul dot_S1024x768_S768x190_S1024x190_1_0_0_1_n_n none
          (unitBlock Cert.Spec.e12 (lnBlock Cert.Spec.c768 Cert.Spec.e5 v0 v17 v21))
          (shapeCast S768x190 v33 shapeCasts_S768x190_S768x190 : FVec Ideal S768x190 .f32) (constant (F := Ideal) S1024x190 .f32 0x00000000#32) := rfl

/-! ## The stages read at an entry -/

/-- A root over a vector reads, at an index, the root of the entry. -/
theorem sqrt_apply {s : Shape} {φ : FTy} (v : FVec Ideal s φ) (i : s.Idx) : sqrt v i = Ideal.sqrt (v i) := rfl

/-- Entry `(p, u)` of the column of row sums is the sum of row `p`. -/
theorem sumCol_apply (v : FVec Ideal S1024x768 .f32) (p : Fin 1024) (u : Fin 1) :
    sumCol v (ix2 p u) = ∑ d : Fin 768, v (ix2 p d) :=
  (colCast_apply _ _ p u).trans (rowSum_apply v _ _ _ p)

/-- Entry `(p, d)` of the centred block is the entry minus its row's mean. -/
theorem centred_apply (N : Ideal .f32) (v : FVec Ideal S1024x768 .f32) (p : Fin 1024) (d : Fin 768) :
    centred N v (ix2 p d) = v (ix2 p d) - Cert.Spec.mean N (fun k => v (ix2 p k)) := by
  unfold centred Cert.Spec.mean
  simp only [subf_apply, divf_apply, broadcast_apply, broadcastTo_a1_ab_apply, sumCol_apply]

/-- Entry `(p, d)` of the layer-normalised block is the layer normalisation of row `p` at `d`. -/
theorem lnBlock_apply (N eps : Ideal .f32) (v : FVec Ideal S1024x768 .f32) (g b : Vec Ideal S1x768 .f32)
    (p : Fin 1024) (d : Fin 768) :
    lnBlock N eps v g b (ix2 p d)
      = Cert.Spec.lnRow N eps (fun k => v (ix2 p k)) (fun k => g (ix2 (0 : Fin 1) k)) (fun k => b (ix2 (0 : Fin 1) k)) d := by
  unfold lnBlock Cert.Spec.lnRow
  simp only [addf_apply, mulf_apply, divf_apply, broadcast_apply, broadcastTo_a1_ab_apply, broadcastTo_1b_ab_apply,
    shapeCast_self, sqrt_apply, sumCol_apply, centred_apply]

/-- Entry `(p, d)` of the block of unit rows is row `p` divided by its length plus `eps`, at `d`. -/
theorem unitBlock_apply (eps : Ideal .f32) (w : FVec Ideal S1024x768 .f32) (p : Fin 1024) (d : Fin 768) :
    unitBlock eps w (ix2 p d) = Cert.Spec.l2Row eps (fun k => w (ix2 p k)) d := by
  unfold unitBlock Cert.Spec.l2Row
  simp only [addf_apply, mulf_apply, divf_apply, broadcast_apply, broadcastTo_a1_ab_apply, sqrt_apply, sumCol_apply]

/-! ## The two payloads at an entry -/

/-- Entry (p, j) of the similarities: the sum over the 768 features of row p's normalised feature times the
    prototype matrix's entry (d, j). -/
theorem pay2_apply (x0 : Vec Ideal S1024x768 .f32) (x2 x3 : Vec Ideal S1x768 .f32) (x1 : Vec Ideal S768x190 .f32)
    (p : Fin 1024) (j : Fin 190) :
    k1_pay2 x0 x2 x3 x1 (ix2 p j)
      = ∑ d : Fin 768, Cert.Spec.featRow (fun d' => x0 (ix2 p d')) (fun d' => x2 (ix2 (0 : Fin 1) d'))
          (fun d' => x3 (ix2 (0 : Fin 1) d')) d * x1 (ix2 d j) := by
  rw [k1_pay2_eq, matmul_zero_apply]
  refine Finset.sum_congr rfl fun d _ => ?_
  have hrow : (fun k => lnBlock Cert.Spec.c768 Cert.Spec.e5 x0 x2 x3 (ix2 p k))
      = Cert.Spec.lnRow Cert.Spec.c768 Cert.Spec.e5 (fun d' => x0 (ix2 p d')) (fun d' => x2 (ix2 (0 : Fin 1) d'))
          (fun d' => x3 (ix2 (0 : Fin 1) d')) := funext fun k => lnBlock_apply _ _ _ _ _ p k
  rw [unitBlock_apply, shapeCast_self, hrow]
  rfl

/-- Entry (p, j) of the broadcast row mean of the similarities. -/
theorem pay3_apply (x0 : Vec Ideal S1024x768 .f32) (x2 x3 : Vec Ideal S1x768 .f32) (x1 : Vec Ideal S768x190 .f32)
    (p : Fin 1024) (j : Fin 190) :
    k1_pay3 x0 x2 x3 x1 (ix2 p j) = Cert.Spec.mean Cert.Spec.c190 (fun j' => k1_pay2 x0 x2 x3 x1 (ix2 p j')) := by
  unfold k1_pay3 Cert.Spec.mean
  refine (broadcastTo_a1_ab_apply _ _ p j).trans ?_
  refine (divf_apply _ _ _).trans ?_
  refine congrArg (fun s => Ideal.div s Cert.Spec.c190) ?_
  exact (colCast_apply _ _ p 0).trans (rowSum_apply _ _ _ _ p)

end Cert.Ker

end
-- ==== Proof.KerTail.lean ====
/-
  The rest of the main kernel's body on a block, read at an entry: the 190 similarities of a row
  layer-normalised, the greatest of each class's ten entries (ten column slices 19 wide, joined by binary
  maxima), the 19 maxima centred, their variance, and the final scale and shift.
-/
import proofs.«151860_g13219909337484_cont_week2b_1152_2_alg».proof.Proof.Gen.KernelIdeal.Skeleton
import proofs.«151860_g13219909337484_cont_week2b_1152_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Ker

open Idealize.ShloMosaic Idealize.ShloMosaic.ValueIdx Cert.KernelIdeal Cert.KernelIdeal.Gen
open scoped BigOperators

namespace Tail

/-! ### Small readings at an entry, over variables of the literal shapes -/

/-- The sum over the 190 columns of row p. -/
theorem rowsum190 (x : FVec Ideal S1024x190 .f32) (p : Fin 1024) :
    multiReduction .add [1] S1024 x 0x00000000#32 reduces_S1024x190_S1024 (.inl rfl) rfl (ix1 p)
      = ∑ j : Fin 190, x (ix2 p j) := by
  refine (Ideal.multiReduction_add_single x _ reduces_S1024x190_S1024 (.inl rfl) rfl (ix1 p)).trans ?_
  show (∑ j : Fin 190, x (reduces_S1024x190_S1024.lift (ix1 p) j)) = _
  refine Finset.sum_congr rfl fun j _ => congrArg x ?_
  funext a
  match a with
  | ⟨0, _⟩ => exact Fin.ext rfl
  | ⟨1, _⟩ => exact Fin.ext rfl

/-- The sum over the 19 columns of row p. -/
theorem rowsum19 (x : FVec Ideal S1024x19 .f32) (p : Fin 1024) :
    multiReduction .add [1] S1024 x 0x00000000#32 reduces_S1024x19_S1024 (.inl rfl) rfl (ix1 p)
      = ∑ k : Fin 19, x (ix2 p k) := by
  refine (Ideal.multiReduction_add_single x _ reduces_S1024x19_S1024 (.inl rfl) rfl (ix1 p)).trans ?_
  show (∑ k : Fin 19, x (reduces_S1024x19_S1024.lift (ix1 p) k)) = _
  refine Finset.sum_congr rfl fun k _ => congrArg x ?_
  funext a
  match a with
  | ⟨0, _⟩ => exact Fin.ext rfl
  | ⟨1, _⟩ => exact Fin.ext rfl

/-- A vector of 1024 entries cast to one column reads entry p in row p. -/
theorem col_apply (y : FVec Ideal S1024 .f32) (p : Fin 1024) (u : Fin 1) :
    shapeCast S1024x1 y shapeCasts_S1024_S1024x1 (ix2 p u) = y (ix1 p) := by
  refine shapeCast_apply y shapeCasts_S1024_S1024x1 (ix2 p u) (ix1 p) ?_
  rw [Shape.rowMajor_val_one, Shape.rowMajor_val_two]
  show p.val = p.val * 1 + u.val
  omega

/-- One column spread over 190 columns reads, at (p, j), the column's entry in row p. -/
theorem bcol190 (c : FVec Ideal S1024x1 .f32) (p : Fin 1024) (j : Fin 190) :
    broadcastTo S1024x190 c broadcasts_S1024x1_S1024x190 (ix2 p j) = c (ix2 p (0 : Fin 1)) := by
  refine broadcastTo_apply c broadcasts_S1024x1_S1024x190 (ix2 p j) (ix2 p (0 : Fin 1)) fun a => ?_
  match a with
  | ⟨0, _⟩ => rfl
  | ⟨1, _⟩ => rfl

/-- One column spread over 19 columns reads, at (p, k), the column's entry in row p. -/
theorem bcol19 (c : FVec Ideal S1024x1 .f32) (p : Fin 1024) (k : Fin 19) :
    broadcastTo S1024x19 c broadcasts_S1024x1_S1024x19 (ix2 p k) = c (ix2 p (0 : Fin 1)) := by
  refine broadcastTo_apply c broadcasts_S1024x1_S1024x19 (ix2 p k) (ix2 p (0 : Fin 1)) fun a => ?_
  match a with
  | ⟨0, _⟩ => rfl
  | ⟨1, _⟩ => rfl

/-- One row of 190 spread over the 1024 rows reads, at (p, j), the row's entry j. -/
theorem brow190 (v : Vec Ideal S1x190 .f32) (p : Fin 1024) (j : Fin 190) :
    broadcastTo S1024x190 (shapeCast S1x190 v shapeCasts_S1x190_S1x190) broadcasts_S1x190_S1024x190 (ix2 p j)
      = v (ix2 (0 : Fin 1) j) := by
  rw [shapeCast_self]
  exact broadcastTo_1b_ab_apply v broadcasts_S1x190_S1024x190 p j

/-- One row of 19 spread over the 1024 rows reads, at (p, k), the row's entry k. -/
theorem brow19 (v : Vec Ideal S1x19 .f32) (p : Fin 1024) (k : Fin 19) :
    broadcastTo S1024x19 (shapeCast S1x19 v shapeCasts_S1x19_S1x19) broadcasts_S1x19_S1024x19 (ix2 p k)
      = v (ix2 (0 : Fin 1) k) := by
  rw [shapeCast_self]
  exact broadcastTo_1b_ab_apply v broadcasts_S1x19_S1024x19 p k

/-- A square root of a vector reads the square root of the entry. -/
theorem sqrt_apply {s : Shape} (x : FVec Ideal s .f32) (i : s.Idx) : sqrt x i = Ideal.sqrt (x i) := rfl

/-- A literal spread over a shape reads the extended real its word encodes. -/
theorem lit_apply {s : Shape} (w : BitVec 32) (i : s.Idx) :
    broadcast s (Scalar.ofBits (F := Ideal) .f32 w) i = Ideal.ofBits .f32 w := rfl

/-! ### The body's stages as functions of their operands -/

/-- The layer normalisation over the 190 columns: centred by the given mean, divided by the root of the row's
    mean square plus the small literal, scaled and shifted by the two rows. -/
def ln190 (v35 v40 : FVec Ideal S1024x190 .f32) (v52 v56 : Vec Ideal S1x190 .f32) : FVec Ideal S1024x190 .f32 :=
  addf
    (mulf
      (divf (subf v35 v40)
        (broadcastTo S1024x190
          (sqrt (addf
            (divf
              (shapeCast S1024x1
                (multiReduction .add [1] S1024 (mulf (subf v35 v40) (subf v35 v40)) 0x00000000#32
                  reduces_S1024x190_S1024 (.inl rfl) rfl)
                shapeCasts_S1024_S1024x1)
              (broadcast S1024x1 (Scalar.ofBits .f32 0x433E0000#32)))
            (broadcast S1024x1 (Scalar.ofBits .f32 0x3727C5AC#32))))
          broadcasts_S1024x1_S1024x190))
      (broadcastTo S1024x190 (shapeCast S1x190 v52 shapeCasts_S1x190_S1x190) broadcasts_S1x190_S1024x190))
    (broadcastTo S1024x190 (shapeCast S1x190 v56 shapeCasts_S1x190_S1x190) broadcasts_S1x190_S1024x190)

/-- The ten column slices 19 wide joined by nine binary maxima, in order of their offsets. -/
def cmax (y : FVec Ideal S1024x190 .f32) : FVec Ideal S1024x19 .f32 :=
  maximumf (maximumf (maximumf (maximumf (maximumf (maximumf (maximumf (maximumf (maximumf
    (extractStridedSlice S1024x19 ![0, 0] y slices_S1024x190_o0_0_S1024x19)
    (extractStridedSlice S1024x19 ![0, 19] y slices_S1024x190_o0_19_S1024x19))
    (extractStridedSlice S1024x19 ![0, 38] y slices_S1024x190_o0_38_S1024x19))
    (extractStridedSlice S1024x19 ![0, 57] y slices_S1024x190_o0_57_S1024x19))
    (extractStridedSlice S1024x19 ![0, 76] y slices_S1024x190_o0_76_S1024x19))
    (extractStridedSlice S1024x19 ![0, 95] y slices_S1024x190_o0_95_S1024x19))
    (extractStridedSlice S1024x19 ![0, 114] y slices_S1024x190_o0_114_S1024x19))
    (extractStridedSlice S1024x19 ![0, 133] y slices_S1024x190_o0_133_S1024x19))
    (extractStridedSlice S1024x19 ![0, 152] y slices_S1024x190_o0_152_S1024x19))
    (extractStridedSlice S1024x19 ![0, 171] y slices_S1024x190_o0_171_S1024x19)

/-- A block of 19 columns minus its row mean (the row sum divided by the literal 19). -/
def centre19 (z : FVec Ideal S1024x19 .f32) : FVec Ideal S1024x19 .f32 :=
  subf z
    (broadcastTo S1024x19
      (divf
        (shapeCast S1024x1 (multiReduction .add [1] S1024 z 0x00000000#32 reduces_S1024x19_S1024 (.inl rfl) rfl)
          shapeCasts_S1024_S1024x1)
        (broadcast S1024x1 (Scalar.ofBits .f32 0x41980000#32)))
      broadcasts_S1024x1_S1024x19)

/-- The row mean of the squares of a block of 19 columns, as one column. -/
def msq19 (w : FVec Ideal S1024x19 .f32) : FVec Ideal S1024x1 .f32 :=
  divf
    (shapeCast S1024x1 (multiReduction .add [1] S1024 (mulf w w) 0x00000000#32 reduces_S1024x19_S1024 (.inl rfl) rfl)
      shapeCasts_S1024_S1024x1)
    (broadcast S1024x1 (Scalar.ofBits .f32 0x41980000#32))

/-- The centred maxima are the three stages composed. -/
theorem pay4_eq (v35 v40 : FVec Ideal S1024x190 .f32) (v52 v56 : Vec Ideal S1x190 .f32) :
    k1_pay4 v35 v40 v52 v56 = centre19 (cmax (ln190 v35 v40 v52 v56)) := rfl

/-- The variance column is the row mean of the squares of the centred maxima. -/
theorem pay5_eq (v35 v40 : FVec Ideal S1024x190 .f32) (v52 v56 : Vec Ideal S1x190 .f32) :
    k1_pay5 v35 v40 v52 v56 = msq19 (k1_pay4 v35 v40 v52 v56) := rfl

/-! ### Each stage read at an entry -/

/-- Entry (p, j) of the normalised block is the row's layer normalisation at j, given that the second operand
    is the row mean of the first. -/
theorem ln190_apply (v35 v40 : FVec Ideal S1024x190 .f32) (v52 v56 : Vec Ideal S1x190 .f32) (p : Fin 1024)
    (hmu : ∀ j : Fin 190, v40 (ix2 p j) = Cert.Spec.mean Cert.Spec.c190 (fun j' => v35 (ix2 p j'))) (j : Fin 190) :
    ln190 v35 v40 v52 v56 (ix2 p j)
      = Cert.Spec.lnRow Cert.Spec.c190 Cert.Spec.e5 (fun j => v35 (ix2 p j)) (fun j => v52 (ix2 (0 : Fin 1) j))
          (fun j => v56 (ix2 (0 : Fin 1) j)) j := by
  unfold ln190 Cert.Spec.lnRow
  simp only [addf_apply, mulf_apply, divf_apply, subf_apply, bcol190, sqrt_apply, col_apply, lit_apply, hmu]
  rw [rowsum190, brow190, brow190]
  simp only [mulf_apply, subf_apply, hmu]

/-- The slice at column offset 19 m reads, at (p, k), the source at the prototype-major position of (k, m). -/
theorem slice_apply (o : Nat) (m : Fin 10) (y : FVec Ideal S1024x190 .f32) (h : S1024x190.Slices ![0, o] S1024x19)
    (p : Fin 1024) (k : Fin 19) (ho : o = m.val * 19) :
    extractStridedSlice S1024x19 ![0, o] y h (ix2 p k) = y (ix2 p (Cert.Spec.pm k m)) :=
  slice2_axis1_apply o y h p k (Cert.Spec.pm k m) (by show m.val * 19 + k.val = o + k.val; omega)

/-- Entry (p, k) of the joined maxima is the chain of maxima over the ten prototypes of class k. -/
theorem cmax_apply (y : FVec Ideal S1024x190 .f32) (p : Fin 1024) (k : Fin 19) :
    cmax y (ix2 p k) = Cert.Spec.max10 (fun m => y (ix2 p (Cert.Spec.pm k m))) := by
  unfold cmax Cert.Spec.max10
  simp only [maximumf_apply]
  rw [slice_apply 0 0 y _ p k rfl, slice_apply 19 1 y _ p k rfl, slice_apply 38 2 y _ p k rfl,
    slice_apply 57 3 y _ p k rfl, slice_apply 76 4 y _ p k rfl, slice_apply 95 5 y _ p k rfl,
    slice_apply 114 6 y _ p k rfl, slice_apply 133 7 y _ p k rfl, slice_apply 152 8 y _ p k rfl,
    slice_apply 171 9 y _ p k rfl]

/-- Entry (p, k) of a centred block: the entry minus the row's mean. -/
theorem centre19_apply (z : FVec Ideal S1024x19 .f32) (p : Fin 1024) (k : Fin 19) :
    centre19 z (ix2 p k) = z (ix2 p k) - Cert.Spec.mean Cert.Spec.c19 (fun k' => z (ix2 p k')) := by
  unfold centre19 Cert.Spec.mean
  simp only [subf_apply, bcol19, divf_apply, col_apply, lit_apply]
  rw [rowsum19]

/-- Entry (p, ·) of the mean-square column: the row's sum of squares divided by the literal 19. -/
theorem msq19_apply (w : FVec Ideal S1024x19 .f32) (p : Fin 1024) (u : Fin 1) :
    msq19 w (ix2 p u) = Ideal.div (∑ k : Fin 19, w (ix2 p k) * w (ix2 p k)) Cert.Spec.c19 := by
  unfold msq19
  simp only [divf_apply, col_apply, lit_apply]
  rw [rowsum19]
  simp only [mulf_apply]

end Tail

open Tail

/-- The per-class maxima of one row of 190 similarities `s` after its layer normalisation with scale `g` and
    shift `b`, the columns prototype-major. -/
def rowMax (s g b : Fin 190 → EReal) (k : Fin 19) : EReal :=
  Cert.Spec.max10 (fun m => Cert.Spec.lnRow Cert.Spec.c190 Cert.Spec.e5 s g b (Cert.Spec.pm k m))

/-- Entry (p, k) of the joined maxima of the normalised block is the row's per-class maximum. -/
theorem Tail.cmax_ln190_apply (v35 v40 : FVec Ideal S1024x190 .f32) (v52 v56 : Vec Ideal S1x190 .f32) (p : Fin 1024)
    (hmu : ∀ j : Fin 190, v40 (ix2 p j) = Cert.Spec.mean Cert.Spec.c190 (fun j' => v35 (ix2 p j'))) (k : Fin 19) :
    cmax (ln190 v35 v40 v52 v56) (ix2 p k)
      = rowMax (fun j => v35 (ix2 p j)) (fun j => v52 (ix2 (0 : Fin 1) j)) (fun j => v56 (ix2 (0 : Fin 1) j)) k := by
  rw [cmax_apply]
  unfold rowMax
  exact congrArg Cert.Spec.max10 (funext fun m => ln190_apply v35 v40 v52 v56 p hmu _)

/-- Entry (p, k) of the centred maxima, given that the second operand is the row mean of the first, broadcast. -/
theorem pay4_apply (v35 v40 : FVec Ideal S1024x190 .f32) (v52 v56 : Vec Ideal S1x190 .f32) (p : Fin 1024)
    (hmu : ∀ j : Fin 190, v40 (ix2 p j) = Cert.Spec.mean Cert.Spec.c190 (fun j' => v35 (ix2 p j'))) (k : Fin 19) :
    k1_pay4 v35 v40 v52 v56 (ix2 p k)
      = rowMax (fun j => v35 (ix2 p j)) (fun j => v52 (ix2 (0 : Fin 1) j)) (fun j => v56 (ix2 (0 : Fin 1) j)) k
        - Cert.Spec.mean Cert.Spec.c19
            (rowMax (fun j => v35 (ix2 p j)) (fun j => v52 (ix2 (0 : Fin 1) j)) (fun j => v56 (ix2 (0 : Fin 1) j))) := by
  rw [pay4_eq, centre19_apply]
  simp only [cmax_ln190_apply v35 v40 v52 v56 p hmu]

/-- Entry (p, ·) of the variance of the maxima. -/
theorem pay5_apply (v35 v40 : FVec Ideal S1024x190 .f32) (v52 v56 : Vec Ideal S1x190 .f32) (p : Fin 1024)
    (hmu : ∀ j : Fin 190, v40 (ix2 p j) = Cert.Spec.mean Cert.Spec.c190 (fun j' => v35 (ix2 p j'))) (u : Fin 1) :
    k1_pay5 v35 v40 v52 v56 (ix2 p u)
      = Ideal.div (∑ k : Fin 19,
          (rowMax (fun j => v35 (ix2 p j)) (fun j => v52 (ix2 (0 : Fin 1) j)) (fun j => v56 (ix2 (0 : Fin 1) j)) k
            - Cert.Spec.mean Cert.Spec.c19
                (rowMax (fun j => v35 (ix2 p j)) (fun j => v52 (ix2 (0 : Fin 1) j)) (fun j => v56 (ix2 (0 : Fin 1) j))))
          * (rowMax (fun j => v35 (ix2 p j)) (fun j => v52 (ix2 (0 : Fin 1) j)) (fun j => v56 (ix2 (0 : Fin 1) j)) k
            - Cert.Spec.mean Cert.Spec.c19
                (rowMax (fun j => v35 (ix2 p j)) (fun j => v52 (ix2 (0 : Fin 1) j)) (fun j => v56 (ix2 (0 : Fin 1) j)))))
          Cert.Spec.c19 := by
  rw [pay5_eq, msq19_apply]
  simp only [pay4_apply v35 v40 v52 v56 p hmu]

/-- Entry (p, k) of what is stored: the centred maximum divided by the root of the variance plus the small
    literal, scaled and shifted. -/
theorem pay1_apply (v84 : FVec Ideal S1024x19 .f32) (v89 : FVec Ideal S1024x1 .f32) (v95 v99 : Vec Ideal S1x19 .f32)
    (p : Fin 1024) (k : Fin 19) :
    k1_pay1 v84 v89 v95 v99 (ix2 p k)
      = Ideal.div (v84 (ix2 p k)) (Ideal.sqrt (v89 (ix2 p (0 : Fin 1)) + Cert.Spec.e5)) * v95 (ix2 (0 : Fin 1) k)
        + v99 (ix2 (0 : Fin 1) k) := by
  unfold k1_pay1
  simp only [addf_apply, mulf_apply, divf_apply, bcol19, sqrt_apply, lit_apply]
  rw [brow19, brow19]

end Cert.Ker

end
-- ==== Proof.KerBlock.lean ====
/-
  The kernel's body on one block of 1024 pixels, read at an entry: row p of the block's 19 class scores
  is the row function of the specification applied to row p of the feature block, the whole normalised
  prototype matrix and the six parameter rows.
-/
import proofs.«151860_g13219909337484_cont_week2b_1152_2_alg».proof.Proof.Gen.KernelIdeal.Skeleton
import proofs.«151860_g13219909337484_cont_week2b_1152_2_alg».proof.Proof.Spec
import proofs.«151860_g13219909337484_cont_week2b_1152_2_alg».proof.Proof.KerFeat
import proofs.«151860_g13219909337484_cont_week2b_1152_2_alg».proof.Proof.KerTail
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Ker

open Idealize.ShloMosaic Idealize.ShloMosaic.ValueIdx Cert.KernelIdeal Cert.KernelIdeal.Gen

/-- Entry (p, k) of what the body stores, from the blocks it loads. -/
theorem block_apply (x0 : Vec Ideal S1024x768 .f32) (x1 : Vec Ideal S768x190 .f32) (x2 x3 : Vec Ideal S1x768 .f32)
    (x4 x5 : Vec Ideal S1x190 .f32) (x6 x7 : Vec Ideal S1x19 .f32) (p : Fin 1024) (k : Fin 19) :
    k1_pay1 (k1_pay4 (k1_pay2 x0 x2 x3 x1) (k1_pay3 x0 x2 x3 x1) x4 x5)
        (k1_pay5 (k1_pay2 x0 x2 x3 x1) (k1_pay3 x0 x2 x3 x1) x4 x5) x6 x7 (ix2 p k)
      = Cert.Spec.outRowK (fun d => x0 (ix2 p d)) (fun d => x2 (ix2 (0 : Fin 1) d)) (fun d => x3 (ix2 (0 : Fin 1) d))
          (fun d j => x1 (ix2 d j)) (fun j => x4 (ix2 (0 : Fin 1) j)) (fun j => x5 (ix2 (0 : Fin 1) j))
          (fun k' => x6 (ix2 (0 : Fin 1) k')) (fun k' => x7 (ix2 (0 : Fin 1) k')) k := by
  -- the second operand of the tail is the broadcast row mean of the similarities
  have hmu : ∀ j : Fin 190, k1_pay3 x0 x2 x3 x1 (ix2 p j)
      = Cert.Spec.mean Cert.Spec.c190 (fun j' => k1_pay2 x0 x2 x3 x1 (ix2 p j')) :=
    fun j => pay3_apply x0 x2 x3 x1 p j
  -- row p of the similarities: feature row p contracted with each column of the prototype matrix
  have hrow : (fun j : Fin 190 => k1_pay2 x0 x2 x3 x1 (ix2 p j))
      = (fun j : Fin 190 => ∑ d : Fin 768, Cert.Spec.featRow (fun d' => x0 (ix2 p d')) (fun d' => x2 (ix2 (0 : Fin 1) d'))
          (fun d' => x3 (ix2 (0 : Fin 1) d')) d * x1 (ix2 d j)) :=
    funext fun j => pay2_apply x0 x2 x3 x1 p j
  rw [pay1_apply, pay4_apply _ _ _ _ p hmu, pay5_apply _ _ _ _ p hmu, hrow]
  -- what is left is the outer layer normalisation of the 19 maxima, written out
  rfl

end Cert.Ker

end
-- ==== Proof.KerProto.lean ====
/-
  The prototype kernel's body, read at an entry: column j of the 768 x 190 matrix divided by its
  Euclidean length plus the small literal.
-/
import proofs.«151860_g13219909337484_cont_week2b_1152_2_alg».proof.Proof.Gen.KernelIdeal.Skeleton
import proofs.«151860_g13219909337484_cont_week2b_1152_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Ker

open Idealize.ShloMosaic Idealize.ShloMosaic.ValueIdx Cert.KernelIdeal Cert.KernelIdeal.Gen

/-- Entry (d, j) of the normalised prototype matrix, from the matrix loaded. -/
theorem proto_apply (v0 : Vec Ideal S768x190 .f32) (d : Fin 768) (j : Fin 190) :
    k0_pay1 v0 (ix2 d j) = Cert.Spec.l2Row Cert.Spec.e12 (fun d' => v0 (ix2 d' j)) d := by
  unfold k0_pay1 Cert.Spec.l2Row
  dsimp only
  -- the same-shape cast is the identity; the quotient, the row broadcast over the 768 rows, the sum with the
  -- literal and the literal's splat read at the entry
  rw [shapeCast_self]
  rw [divf_apply, broadcastTo_1b_ab_apply, addf_apply, broadcast_apply]
  -- both sides are the entry over (root of a sum, plus the literal): the sums are left to compare
  refine congrArg (fun t => Ideal.div (v0 (ix2 d j)) (Ideal.sqrt t + Cert.Spec.e12)) ?_
  -- the vector of 190 column sums re-laid as one row, read at column j
  rw [shapeCast_a_1a_apply]
  -- the reduction over axis 0 is the sum over the 768 rows of the squared entry
  refine (Ideal.multiReduction_add_single _ _ _ _ _ _).trans ?_
  show ∑ k : Fin 768, _ = _
  refine Finset.sum_congr rfl fun k _ => ?_
  rw [mulf_apply]
  -- row k inserted at axis 0 of the column index j is the entry (k, j)
  have e : (reduces_S768x190_S190.lift (ix1 j) k : S768x190.Idx) = ix2 k j := by
    funext a
    match a with
    | ⟨0, _⟩ => rfl
    | ⟨1, _⟩ => rfl
  rw [e]

end Cert.Ker

end
-- ==== Proof.KerEntry.lean ====
/-
  What the main kernel finds in its eight input arrays, in terms of the launch memory: the pixel features
  untouched; the prototype matrix re-laid (column 19 m + k is prototype m of class k) and normalised column
  by column by the prototype kernel; the six parameter vectors as rows, the two of 190 entries re-laid into
  the same column order.
-/
import proofs.«151860_g13219909337484_cont_week2b_1152_2_alg».proof.Proof.Gen.KernelIdeal.Frame
import proofs.«151860_g13219909337484_cont_week2b_1152_2_alg».proof.Proof.KerProto
import proofs.«151860_g13219909337484_cont_week2b_1152_2_alg».proof.Proof.Spec
import Idealize.ShloMosaic.Lib.StableHlo.Run

set_option maxRecDepth 16384

noncomputable section

namespace Cert.Ker

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

namespace Entry

/-! ## An argument's buffer is written by no host operation and is no array of the prototype kernel -/

/-- A buffer the first stretch of host operations does not write, and that is no array of the prototype kernel, holds
    at that kernel's exit what the launch memory holds. -/
theorem W2_launch (c : Dev nD) (b : Ref sig .tc) (hb : ∀ w, Pipeline.arrRef spec0 w ≠ b)
    (h0 : ∀ op ∈ (hostOps0 : List (HloOp τ sig (Elt Ideal))), Proc.devRef .tc b ∉ op.writes) :
    W2 m ρ c (Proc.devRef .tc b) = m ((c.tc : Thread nD τ).loc b) :=
  calc W2 m ρ c (Proc.devRef .tc b)
    _ = W1 m ρ c (Proc.devRef .tc b) := W2_of_ne m ρ c b hb
    _ = W0 m ρ c (Proc.devRef .tc b) := StableHlo.after_of_forall_not_mem (b := Proc.devRef .tc b) _ _ h0
    _ = m ((c.tc : Thread nD τ).loc b) := rfl

theorem W2_arg2 (c : Dev nD) : W2 m ρ c (Proc.devRef .tc main_arg2) = m ((c.tc : Thread nD τ).loc main_arg2) :=
  W2_launch m ρ c main_arg2 (by decide) (List.forall_iff_forall_mem.mp (by
      simp only [hostOps0, List.Forall, StableHlo.unary_writes, StableHlo.reshape_writes, Finset.mem_singleton]
      repeat' apply And.intro
      all_goals exact StableHlo.devRef_ne_of_ne (by decide)))
theorem W2_arg3 (c : Dev nD) : W2 m ρ c (Proc.devRef .tc main_arg3) = m ((c.tc : Thread nD τ).loc main_arg3) :=
  W2_launch m ρ c main_arg3 (by decide) (List.forall_iff_forall_mem.mp (by
      simp only [hostOps0, List.Forall, StableHlo.unary_writes, StableHlo.reshape_writes, Finset.mem_singleton]
      repeat' apply And.intro
      all_goals exact StableHlo.devRef_ne_of_ne (by decide)))
theorem W2_arg4 (c : Dev nD) : W2 m ρ c (Proc.devRef .tc main_arg4) = m ((c.tc : Thread nD τ).loc main_arg4) :=
  W2_launch m ρ c main_arg4 (by decide) (List.forall_iff_forall_mem.mp (by
      simp only [hostOps0, List.Forall, StableHlo.unary_writes, StableHlo.reshape_writes, Finset.mem_singleton]
      repeat' apply And.intro
      all_goals exact StableHlo.devRef_ne_of_ne (by decide)))
theorem W2_arg5 (c : Dev nD) : W2 m ρ c (Proc.devRef .tc main_arg5) = m ((c.tc : Thread nD τ).loc main_arg5) :=
  W2_launch m ρ c main_arg5 (by decide) (List.forall_iff_forall_mem.mp (by
      simp only [hostOps0, List.Forall, StableHlo.unary_writes, StableHlo.reshape_writes, Finset.mem_singleton]
      repeat' apply And.intro
      all_goals exact StableHlo.devRef_ne_of_ne (by decide)))
theorem W2_arg6 (c : Dev nD) : W2 m ρ c (Proc.devRef .tc main_arg6) = m ((c.tc : Thread nD τ).loc main_arg6) :=
  W2_launch m ρ c main_arg6 (by decide) (List.forall_iff_forall_mem.mp (by
      simp only [hostOps0, List.Forall, StableHlo.unary_writes, StableHlo.reshape_writes, Finset.mem_singleton]
      repeat' apply And.intro
      all_goals exact StableHlo.devRef_ne_of_ne (by decide)))
theorem W2_arg7 (c : Dev nD) : W2 m ρ c (Proc.devRef .tc main_arg7) = m ((c.tc : Thread nD τ).loc main_arg7) :=
  W2_launch m ρ c main_arg7 (by decide) (List.forall_iff_forall_mem.mp (by
      simp only [hostOps0, List.Forall, StableHlo.unary_writes, StableHlo.reshape_writes, Finset.mem_singleton]
      repeat' apply And.intro
      all_goals exact StableHlo.devRef_ne_of_ne (by decide)))

/-! ## The two vectors of 190: reshaped to 19 x 10, transposed, flattened to a row -/

/-- A vector of 190 re-laid class-major to prototype-major: position j of the row reads the vector at
    10 (j mod 19) + j / 19. -/
theorem relaid_apply (x : S190.Idx → EReal) (u : Fin 1) (j : Fin 190) :
    shapeCast S1x190 (transpose S10x19 [1, 0] (shapeCast S19x10 x shapeCasts_S190_S19x10) transposes_S19x10_S10x19_1_0)
        shapeCasts_S10x19_S1x190 (ix2 u j)
      = x (ix1 (Cert.Spec.cm (Cert.Spec.pmK j) (Cert.Spec.pmM j))) := by
  have hu : u.val = 0 := by omega
  have hj := j.isLt
  rw [shapeCast_apply _ _ (ix2 u j) (ix2 (Cert.Spec.pmM j) (Cert.Spec.pmK j)) (by
    rw [Shape.rowMajor_val_two, Shape.rowMajor_val_two]
    show (j.val / 19) * 19 + j.val % 19 = u.val * 190 + j.val
    have := Nat.div_add_mod j.val 19
    omega)]
  rw [transpose_ix2_apply]
  rw [shapeCast_apply _ _ (ix2 (Cert.Spec.pmK j) (Cert.Spec.pmM j)) (ix1 (Cert.Spec.cm (Cert.Spec.pmK j) (Cert.Spec.pmM j))) (by
    rw [Shape.rowMajor_val_two, Shape.rowMajor_val_one]
    rfl)]

/-! ## The prototype matrix: re-laid by three host operations, normalised by the prototype kernel -/

theorem hz2 : (![0, 0] : Fin 2 → Nat) = fun _ => 0 := funext fun a => by fin_cases a <;> rfl

section Region0
variable (V : (c : Dev nD) → (b : Ref sig .tc) → Buf (Elt Ideal) ((c : Thread nD τ).loc b))

/-- The prototype kernel's input block at a point is the whole array the kernel finds. -/
theorem iblk0_whole (c : Dev nD) (t : Fin cfg0.N) :
    (iblk0 V c 0 t : S768x190.Idx → EReal) = V c main_call0_v2 := by
  have hz' : (fun a => win0_0.index t a * main_call0_v2.ty.shape.size a) = fun _ => 0 := funext fun a => Nat.zero_mul _
  exact Memref.read_access_unit_zero (Elt Ideal) main_call0_v2 hz' (fun a => by rw [congrFun hz' a]; simp) (V c main_call0_v2)

/-- What a point writes back: the payload of the whole array, read through the point's block of the result array. -/
theorem flushed0 (c : Dev nD) (t : Fin cfg0.N) (hf : (cfg0.win 1).flush t = true) :
    (dat0 V c).flushed 1 t = ((cfg0.win 1).blk t).view.read (Elt Ideal) (k0_pay1 (V c main_call0_v2) : S768x190.Idx → EReal) := by
  show (cfg0.win 1).cut (grid0.coords t) ((dat0 V c).after 1 t) = _
  rw [after0_1]
  unfold out0_1
  rw [View.canon_unit_zero hz2, View.ld_unit_zero hz2, iblk0_whole]
  have hz' : (fun a => win0_1.index t a * main_call0_v3.ty.shape.size a) = fun _ => 0 := funext fun a => Nat.zero_mul _
  exact (Memref.read_access_unit_zero (Elt Ideal) main_call0_v3 hz' (fun a => by rw [congrFun hz' a]; simp) (k0_pay1 (V c main_call0_v2))).symm

/-- The one point's block is the whole result array, so the array ends holding the payload of the array found. -/
theorem final0 (c : Dev nD) :
    (dat0 V c).arrAt 1 cfg0.N = (k0_pay1 (V c main_call0_v2) : S768x190.Idx → EReal) :=
  (dat0 V c).arrAt_eq_of_cover 1 (k0_pay1 (V c main_call0_v2) : S768x190.Idx → EReal) (flushed0 V c) fun i =>
    ⟨t0_0, rfl, by
      show i ∈ ((View.whole main_call0_v3).slice (win0_1.rect t0_0)).set
      rw [View.set_slice_whole, Rect.mem_set_unit]
      intro a
      have h0 : (i 0 : Nat) < 768 := (i 0).isLt
      have h1 : (i 1 : Nat) < 190 := (i 1).isLt
      match a with
      | ⟨0, _⟩ => exact ⟨by show 0 * 768 ≤ (i 0 : Nat); omega, by show (i 0 : Nat) < 0 * 768 + 768; omega⟩
      | ⟨1, _⟩ => exact ⟨by show 0 * 190 ≤ (i 1 : Nat); omega, by show (i 1 : Nat) < 0 * 190 + 190; omega⟩⟩

end Region0

/-- The matrix the prototype kernel finds: the launch prototypes re-laid by a transpose of the two leading axes, a
    flattening of them and a transpose of the matrix, so that column 19 m + k is prototype m of class k. -/
theorem V1_v2_apply (c : Dev nD) (d : Fin 768) (j : Fin 190) :
    (V1 m ρ c main_call0_v2 : S768x190.Idx → EReal) (ix2 d j)
      = m ((c.tc : Thread nD τ).loc main_arg1) (ix3 (Cert.Spec.pmK j) (Cert.Spec.pmM j) d) := by
  have e : (V1 m ρ c main_call0_v2 : S768x190.Idx → EReal)
      = transpose S768x190 [1, 0] (shapeCast S190x768 (transpose S10x19x768 [1, 0, 2]
          (W0 m ρ c (Proc.devRef .tc main_arg1) : S19x10x768.Idx → EReal) transposes_S19x10x768_S10x19x768_1_0_2)
          shapeCasts_S10x19x768_S190x768) transposes_S190x768_S768x190_1_0 := by
    dsimp only [V1, W1, hostOps0]
    after_results
    rfl
  have hj := j.isLt
  rw [e, transpose_ix2_apply]
  -- row j of the 190 x 768 matrix is row (j / 19, j mod 19) of the 10 x 19 x 768 array: same row-major position
  rw [shapeCast_apply _ _ (ix2 j d) (ix3 (Cert.Spec.pmM j) (Cert.Spec.pmK j) d) (by
    rw [Shape.rowMajor_val_three, Shape.rowMajor_val_two]
    show ((j.val / 19) * 19 + j.val % 19) * 768 + d.val = j.val * 768 + d.val
    omega)]
  rw [transpose_apply _ _ _ (ix3 (Cert.Spec.pmM j) (Cert.Spec.pmK j) d) (ix3 (Cert.Spec.pmK j) (Cert.Spec.pmM j) d)
    (fun b => match b with | ⟨0, _⟩ => rfl | ⟨1, _⟩ => rfl | ⟨2, _⟩ => rfl)]

end Entry

open Entry

/-! ## The eight arrays the main kernel finds -/

theorem entry_x (c : Dev nD) : V3 m ρ c main_arg0 = m ((c.tc : Thread nD τ).loc main_arg0) := by
  -- neither stretch of host operations writes the pixel features, and they are no array of the prototype kernel
  have e3 : V3 m ρ c main_arg0 = W2 m ρ c (Proc.devRef .tc main_arg0) :=
    StableHlo.after_of_forall_not_mem (b := Proc.devRef .tc main_arg0) _ _ (List.forall_iff_forall_mem.mp (by
      simp only [hostOps1, List.Forall, StableHlo.unary_writes, StableHlo.reshape_writes, Finset.mem_singleton]
      repeat' apply And.intro
      all_goals exact StableHlo.devRef_ne_of_ne (by decide)))
  exact e3.trans (W2_launch m ρ c main_arg0 (by decide) (List.forall_iff_forall_mem.mp (by
      simp only [hostOps0, List.Forall, StableHlo.unary_writes, StableHlo.reshape_writes, Finset.mem_singleton]
      repeat' apply And.intro
      all_goals exact StableHlo.devRef_ne_of_ne (by decide))))

theorem entry_w (c : Dev nD) (d : Fin 768) (j : Fin 190) :
    V3 m ρ c main_call0_v3 (ix2 d j)
      = Cert.Spec.l2Row Cert.Spec.e12
          (fun d' => m ((c.tc : Thread nD τ).loc main_arg1) (ix3 (Cert.Spec.pmK j) (Cert.Spec.pmM j) d')) d := by
  -- the second stretch of host operations does not write the normalised matrix; it is the prototype kernel's result array
  have e3 : V3 m ρ c main_call0_v3 = W2 m ρ c (Proc.devRef .tc main_call0_v3) :=
    StableHlo.after_of_forall_not_mem (b := Proc.devRef .tc main_call0_v3) _ _ (List.forall_iff_forall_mem.mp (by
      simp only [hostOps1, List.Forall, StableHlo.unary_writes, StableHlo.reshape_writes, Finset.mem_singleton]
      repeat' apply And.intro
      all_goals exact StableHlo.devRef_ne_of_ne (by decide)))
  have e2 : W2 m ρ c (Proc.devRef .tc main_call0_v3) = (dat0 (V1 m ρ) c).arrAt 1 cfg0.N := W2_arr m ρ c 1
  rw [e3, e2, final0, proto_apply]
  exact congrArg (fun r => Cert.Spec.l2Row Cert.Spec.e12 r d) (funext fun d' => V1_v2_apply m ρ c d' j)

theorem entry_fg (c : Dev nD) (u : Fin 1) (d : Fin 768) :
    V3 m ρ c main_call0_v10 (ix2 u d) = m ((c.tc : Thread nD τ).loc main_arg2) (ix1 d) := by
  have e : (V3 m ρ c main_call0_v10 : S1x768.Idx → EReal)
      = shapeCast S1x768 (W2 m ρ c (Proc.devRef .tc main_arg2) : S768.Idx → EReal) shapeCasts_S768_S1x768 := by
    dsimp only [V3, W3, hostOps1]
    after_results
    rfl
  rw [e, shapeCast_a_1a_apply, W2_arg2]

theorem entry_fb (c : Dev nD) (u : Fin 1) (d : Fin 768) :
    V3 m ρ c main_call0_v11 (ix2 u d) = m ((c.tc : Thread nD τ).loc main_arg3) (ix1 d) := by
  have e : (V3 m ρ c main_call0_v11 : S1x768.Idx → EReal)
      = shapeCast S1x768 (W2 m ρ c (Proc.devRef .tc main_arg3) : S768.Idx → EReal) shapeCasts_S768_S1x768 := by
    dsimp only [V3, W3, hostOps1]
    after_results
    rfl
  rw [e, shapeCast_a_1a_apply, W2_arg3]

theorem entry_pg (c : Dev nD) (u : Fin 1) (j : Fin 190) :
    V3 m ρ c main_call0_v6 (ix2 u j)
      = m ((c.tc : Thread nD τ).loc main_arg4) (ix1 (Cert.Spec.cm (Cert.Spec.pmK j) (Cert.Spec.pmM j))) := by
  have e : (V3 m ρ c main_call0_v6 : S1x190.Idx → EReal)
      = shapeCast S1x190 (transpose S10x19 [1, 0] (shapeCast S19x10 (W2 m ρ c (Proc.devRef .tc main_arg4) : S190.Idx → EReal)
          shapeCasts_S190_S19x10) transposes_S19x10_S10x19_1_0) shapeCasts_S10x19_S1x190 := by
    dsimp only [V3, W3, hostOps1]
    after_results
    rfl
  rw [e, relaid_apply, W2_arg4]

theorem entry_pb (c : Dev nD) (u : Fin 1) (j : Fin 190) :
    V3 m ρ c main_call0_v9 (ix2 u j)
      = m ((c.tc : Thread nD τ).loc main_arg5) (ix1 (Cert.Spec.cm (Cert.Spec.pmK j) (Cert.Spec.pmM j))) := by
  have e : (V3 m ρ c main_call0_v9 : S1x190.Idx → EReal)
      = shapeCast S1x190 (transpose S10x19 [1, 0] (shapeCast S19x10 (W2 m ρ c (Proc.devRef .tc main_arg5) : S190.Idx → EReal)
          shapeCasts_S190_S19x10) transposes_S19x10_S10x19_1_0) shapeCasts_S10x19_S1x190 := by
    dsimp only [V3, W3, hostOps1]
    after_results
    rfl
  rw [e, relaid_apply, W2_arg5]

theorem entry_mg (c : Dev nD) (u : Fin 1) (k : Fin 19) :
    V3 m ρ c main_call0_v12 (ix2 u k) = m ((c.tc : Thread nD τ).loc main_arg6) (ix1 k) := by
  have e : (V3 m ρ c main_call0_v12 : S1x19.Idx → EReal)
      = shapeCast S1x19 (W2 m ρ c (Proc.devRef .tc main_arg6) : S19.Idx → EReal) shapeCasts_S19_S1x19 := by
    dsimp only [V3, W3, hostOps1]
    after_results
    rfl
  rw [e, shapeCast_a_1a_apply, W2_arg6]

theorem entry_mb (c : Dev nD) (u : Fin 1) (k : Fin 19) :
    V3 m ρ c main_call0_v13 (ix2 u k) = m ((c.tc : Thread nD τ).loc main_arg7) (ix1 k) := by
  have e : (V3 m ρ c main_call0_v13 : S1x19.Idx → EReal)
      = shapeCast S1x19 (W2 m ρ c (Proc.devRef .tc main_arg7) : S19.Idx → EReal) shapeCasts_S19_S1x19 := by
    dsimp only [V3, W3, hostOps1]
    after_results
    rfl
  rw [e, shapeCast_a_1a_apply, W2_arg7]

end Cert.Ker

end
-- ==== Proof.KerValue.lean ====
/-
  The kernel's result array after the run: block t of it is what grid point t stores, rows 1024 t to
  1024 t + 1023; the 64 blocks cover the array; every entry is the specification's function of the arguments.
-/
import proofs.«151860_g13219909337484_cont_week2b_1152_2_alg».proof.Proof.Gen.KernelIdeal.Frame
import proofs.«151860_g13219909337484_cont_week2b_1152_2_alg».proof.Proof.KerBlock
import proofs.«151860_g13219909337484_cont_week2b_1152_2_alg».proof.Proof.KerEntry
import proofs.«151860_g13219909337484_cont_week2b_1152_2_alg».proof.Proof.Spec

set_option maxRecDepth 16384

noncomputable section

namespace Cert.Ker

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

namespace Value

/-- The zero offsets of a whole-block access, spelt as the constant function. -/
theorem hz2 : (![0, 0] : Fin 2 → Nat) = fun _ => 0 := funext fun a => by fin_cases a <;> rfl

/-- The index maps over the grid: the pixel window and the result window sit at block (t, 0); the seven
    parameter windows at block (0, 0). -/
theorem idx_facts : ∀ t : Fin cfg1.N,
    win1_8.index t (0 : Fin 2) = t.val ∧ win1_8.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- The pixel block at point t. -/
abbrev xblk (c : Dev nD) (t : Fin cfg1.N) : Vec Ideal S1024x768 .f32 := iblk1 (V3 m ρ) c 0 t

theorem xblk_apply (c : Dev nD) (t : Fin cfg1.N) (p : Fin 1024) (d : Fin 768) (r : Fin 65536)
    (hr : r.val = 1024 * t.val + p.val) :
    xblk m ρ c t (ix2 p d) = V3 m ρ c main_arg0 (ix2 r d) := by
  obtain ⟨-, -, e0, e1, -⟩ := idx_facts t
  show V3 m ρ c main_arg0 (((cfg1.win 0).blk t).view.emb (ix2 p d)) = _
  refine congrArg (V3 m ρ c main_arg0) ?_
  funext a; apply Fin.ext
  match a with
  | ⟨0, _⟩ => show win1_0.index t (0 : Fin 2) * 1024 + 1 * p.val = r.val; omega
  | ⟨1, _⟩ => show win1_0.index t (1 : Fin 2) * 768 + 1 * d.val = d.val; omega

/-- The prototype matrix block (the whole array) at point t. -/
abbrev wblk (c : Dev nD) (t : Fin cfg1.N) : Vec Ideal S768x190 .f32 := iblk1 (V3 m ρ) c 1 t
/-- The feature scale and shift rows. -/
abbrev fgblk (c : Dev nD) (t : Fin cfg1.N) : Vec Ideal S1x768 .f32 := iblk1 (V3 m ρ) c 2 t
abbrev fbblk (c : Dev nD) (t : Fin cfg1.N) : Vec Ideal S1x768 .f32 := iblk1 (V3 m ρ) c 3 t
/-- The similarity scale and shift rows. -/
abbrev pgblk (c : Dev nD) (t : Fin cfg1.N) : Vec Ideal S1x190 .f32 := iblk1 (V3 m ρ) c 4 t
abbrev pbblk (c : Dev nD) (t : Fin cfg1.N) : Vec Ideal S1x190 .f32 := iblk1 (V3 m ρ) c 5 t
/-- The class scale and shift rows. -/
abbrev mgblk (c : Dev nD) (t : Fin cfg1.N) : Vec Ideal S1x19 .f32 := iblk1 (V3 m ρ) c 6 t
abbrev mbblk (c : Dev nD) (t : Fin cfg1.N) : Vec Ideal S1x19 .f32 := iblk1 (V3 m ρ) c 7 t

/-- A window at block (0, 0) whose block is its whole array reads the array at the same index. -/
theorem wblk_apply (c : Dev nD) (t : Fin cfg1.N) (d : Fin 768) (j : Fin 190) :
    wblk m ρ c t (ix2 d j) = V3 m ρ c main_call0_v3 (ix2 d j) := by
  obtain ⟨-, -, -, -, e0, e1, -⟩ := idx_facts t
  show V3 m ρ c main_call0_v3 (((cfg1.win 1).blk t).view.emb (ix2 d j)) = _
  refine congrArg (V3 m ρ c main_call0_v3) ?_
  funext a; apply Fin.ext
  match a with
  | ⟨0, _⟩ => show win1_1.index t (0 : Fin 2) * 768 + 1 * d.val = d.val; omega
  | ⟨1, _⟩ => show win1_1.index t (1 : Fin 2) * 190 + 1 * j.val = j.val; omega

theorem fgblk_apply (c : Dev nD) (t : Fin cfg1.N) (u : Fin 1) (d : Fin 768) :
    fgblk m ρ c t (ix2 u d) = V3 m ρ c main_call0_v10 (ix2 u d) := by
  obtain ⟨-, -, -, -, -, -, e0, e1, -⟩ := idx_facts t
  show V3 m ρ c main_call0_v10 (((cfg1.win 2).blk t).view.emb (ix2 u d)) = _
  refine congrArg (V3 m ρ c main_call0_v10) ?_
  funext a; apply Fin.ext
  match a with
  | ⟨0, _⟩ => show win1_2.index t (0 : Fin 2) * 1 + 1 * u.val = u.val; omega
  | ⟨1, _⟩ => show win1_2.index t (1 : Fin 2) * 768 + 1 * d.val = d.val; omega

theorem fbblk_apply (c : Dev nD) (t : Fin cfg1.N) (u : Fin 1) (d : Fin 768) :
    fbblk m ρ c t (ix2 u d) = V3 m ρ c main_call0_v11 (ix2 u d) := by
  obtain ⟨-, -, -, -, -, -, -, -, e0, e1, -⟩ := idx_facts t
  show V3 m ρ c main_call0_v11 (((cfg1.win 3).blk t).view.emb (ix2 u d)) = _
  refine congrArg (V3 m ρ c main_call0_v11) ?_
  funext a; apply Fin.ext
  match a with
  | ⟨0, _⟩ => show win1_3.index t (0 : Fin 2) * 1 + 1 * u.val = u.val; omega
  | ⟨1, _⟩ => show win1_3.index t (1 : Fin 2) * 768 + 1 * d.val = d.val; omega

theorem pgblk_apply (c : Dev nD) (t : Fin cfg1.N) (u : Fin 1) (j : Fin 190) :
    pgblk m ρ c t (ix2 u j) = V3 m ρ c main_call0_v6 (ix2 u j) := by
  obtain ⟨-, -, -, -, -, -, -, -, -, -, e0, e1, -⟩ := idx_facts t
  show V3 m ρ c main_call0_v6 (((cfg1.win 4).blk t).view.emb (ix2 u j)) = _
  refine congrArg (V3 m ρ c main_call0_v6) ?_
  funext a; apply Fin.ext
  match a with
  | ⟨0, _⟩ => show win1_4.index t (0 : Fin 2) * 1 + 1 * u.val = u.val; omega
  | ⟨1, _⟩ => show win1_4.index t (1 : Fin 2) * 190 + 1 * j.val = j.val; omega

theorem pbblk_apply (c : Dev nD) (t : Fin cfg1.N) (u : Fin 1) (j : Fin 190) :
    pbblk m ρ c t (ix2 u j) = V3 m ρ c main_call0_v9 (ix2 u j) := by
  obtain ⟨-, -, -, -, -, -, -, -, -, -, -, -, e0, e1, -⟩ := idx_facts t
  show V3 m ρ c main_call0_v9 (((cfg1.win 5).blk t).view.emb (ix2 u j)) = _
  refine congrArg (V3 m ρ c main_call0_v9) ?_
  funext a; apply Fin.ext
  match a with
  | ⟨0, _⟩ => show win1_5.index t (0 : Fin 2) * 1 + 1 * u.val = u.val; omega
  | ⟨1, _⟩ => show win1_5.index t (1 : Fin 2) * 190 + 1 * j.val = j.val; omega

theorem mgblk_apply (c : Dev nD) (t : Fin cfg1.N) (u : Fin 1) (k : Fin 19) :
    mgblk m ρ c t (ix2 u k) = V3 m ρ c main_call0_v12 (ix2 u k) := by
  obtain ⟨-, -, -, -, -, -, -, -, -, -, -, -, -, -, e0, e1, -⟩ := idx_facts t
  show V3 m ρ c main_call0_v12 (((cfg1.win 6).blk t).view.emb (ix2 u k)) = _
  refine congrArg (V3 m ρ c main_call0_v12) ?_
  funext a; apply Fin.ext
  match a with
  | ⟨0, _⟩ => show win1_6.index t (0 : Fin 2) * 1 + 1 * u.val = u.val; omega
  | ⟨1, _⟩ => show win1_6.index t (1 : Fin 2) * 19 + 1 * k.val = k.val; omega

theorem mbblk_apply (c : Dev nD) (t : Fin cfg1.N) (u : Fin 1) (k : Fin 19) :
    mbblk m ρ c t (ix2 u k) = V3 m ρ c main_call0_v13 (ix2 u k) := by
  obtain ⟨-, -, -, -, -, -, -, -, -, -, -, -, -, -, -, -, e0, e1⟩ := idx_facts t
  show V3 m ρ c main_call0_v13 (((cfg1.win 7).blk t).view.emb (ix2 u k)) = _
  refine congrArg (V3 m ρ c main_call0_v13) ?_
  funext a; apply Fin.ext
  match a with
  | ⟨0, _⟩ => show win1_7.index t (0 : Fin 2) * 1 + 1 * u.val = u.val; omega
  | ⟨1, _⟩ => show win1_7.index t (1 : Fin 2) * 19 + 1 * k.val = k.val; omega

/-- The result array as the specification's function of the eight argument arrays at launch. -/
abbrev Gm (c : Dev nD) : S65536x19.Idx → EReal :=
  Cert.Spec.G (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))

/-- What the body leaves in the result block at entry (p, k), from the blocks it loads: its one store covers the
    block, its loads read whole blocks, and the stored payload at an entry is the kernel's row function. -/
theorem out_apply (x0 : Vec Ideal S1024x768 .f32) (x1 : Vec Ideal S768x190 .f32) (x2 x3 : Vec Ideal S1x768 .f32)
    (x4 x5 : Vec Ideal S1x190 .f32) (x6 x7 : Vec Ideal S1x19 .f32) (p : Fin 1024) (k : Fin 19) :
    out1_8 x0 x1 x2 x3 x4 x5 x6 x7 (ix2 p k)
      = Cert.Spec.outRowK (fun d => x0 (ix2 p d)) (fun d => x2 (ix2 (0 : Fin 1) d)) (fun d => x3 (ix2 (0 : Fin 1) d))
          (fun d j => x1 (ix2 d j)) (fun j => x4 (ix2 (0 : Fin 1) j)) (fun j => x5 (ix2 (0 : Fin 1) j))
          (fun k' => x6 (ix2 (0 : Fin 1) k')) (fun k' => x7 (ix2 (0 : Fin 1) k')) k := by
  unfold out1_8
  rw [View.canon_unit_zero hz2]
  simp only [View.ld_unit_zero (S := S1024x768) hz2, View.ld_unit_zero (S := S768x190) hz2,
    View.ld_unit_zero (S := S1x768) hz2, View.ld_unit_zero (S := S1x190) hz2, View.ld_unit_zero (S := S1x19) hz2]
  exact block_apply x0 x1 x2 x3 x4 x5 x6 x7 p k

/-- Entry (p, k) of the result block at point t sits at row 1024 t + p, column k of the array. -/
theorem oemb (t : Fin cfg1.N) (p : Fin 1024) (k : Fin 19) (r : Fin 65536) (hr : r.val = 1024 * t.val + p.val) :
    ((cfg1.win 8).blk t).view.emb (ix2 p k) = (ix2 r k : S65536x19.Idx) := by
  obtain ⟨e0, e1, -⟩ := idx_facts t
  funext a; apply Fin.ext
  match a with
  | ⟨0, _⟩ => show win1_8.index t (0 : Fin 2) * 1024 + 1 * p.val = r.val; omega
  | ⟨1, _⟩ => show win1_8.index t (1 : Fin 2) * 19 + 1 * k.val = k.val; omega

/-- What point t writes back is block t of the specification's array: rows 1024 t to 1024 t + 1023. -/
theorem flushed_eq (c : Dev nD) (t : Fin cfg1.N) :
    (dat1 (V3 m ρ) c).flushed 8 t = ((cfg1.win 8).blk t).view.read (Elt Ideal) (Gm m c) := by
  show (cfg1.win 8).cut (grid1.coords t) ((dat1 (V3 m ρ) c).after 8 t) = _
  rw [after1_8]
  funext y
  obtain ⟨p, k, rfl⟩ : ∃ (p : Fin 1024) (k : Fin 19), y = ix2 p k := ⟨y 0, y 1, eq_ix2 y⟩
  have hN : cfg1.N = 64 := N_1
  have ht : t.val < 64 := hN ▸ t.isLt
  have hr : (⟨1024 * t.val + p.val, by omega⟩ : Fin 65536).val = 1024 * t.val + p.val := rfl
  show out1_8 (xblk m ρ c t) (wblk m ρ c t) (fgblk m ρ c t) (fbblk m ρ c t) (pgblk m ρ c t) (pbblk m ρ c t)
      (mgblk m ρ c t) (mbblk m ρ c t) (ix2 p k) = Gm m c (((cfg1.win 8).blk t).view.emb (ix2 p k))
  rw [out_apply, oemb t p k _ hr]
  have h0 : (fun d => xblk m ρ c t (ix2 p d))
      = fun d => m ((c.tc : Thread nD τ).loc main_arg0) (ix2 (⟨1024 * t.val + p.val, by omega⟩ : Fin 65536) d) :=
    funext fun d => (xblk_apply m ρ c t p d _ hr).trans (congrFun (entry_x m ρ c) _)
  have h1 : (fun d j => wblk m ρ c t (ix2 d j))
      = fun d j => Cert.Spec.l2Row Cert.Spec.e12
          (fun d' => m ((c.tc : Thread nD τ).loc main_arg1) (ix3 (Cert.Spec.pmK j) (Cert.Spec.pmM j) d')) d :=
    funext fun d => funext fun j => (wblk_apply m ρ c t d j).trans (entry_w m ρ c d j)
  have h2 : (fun d => fgblk m ρ c t (ix2 (0 : Fin 1) d)) = fun d => m ((c.tc : Thread nD τ).loc main_arg2) (ix1 d) :=
    funext fun d => (fgblk_apply m ρ c t 0 d).trans (entry_fg m ρ c 0 d)
  have h3 : (fun d => fbblk m ρ c t (ix2 (0 : Fin 1) d)) = fun d => m ((c.tc : Thread nD τ).loc main_arg3) (ix1 d) :=
    funext fun d => (fbblk_apply m ρ c t 0 d).trans (entry_fb m ρ c 0 d)
  have h4 : (fun j => pgblk m ρ c t (ix2 (0 : Fin 1) j))
      = fun j => m ((c.tc : Thread nD τ).loc main_arg4) (ix1 (Cert.Spec.cm (Cert.Spec.pmK j) (Cert.Spec.pmM j))) :=
    funext fun j => (pgblk_apply m ρ c t 0 j).trans (entry_pg m ρ c 0 j)
  have h5 : (fun j => pbblk m ρ c t (ix2 (0 : Fin 1) j))
      = fun j => m ((c.tc : Thread nD τ).loc main_arg5) (ix1 (Cert.Spec.cm (Cert.Spec.pmK j) (Cert.Spec.pmM j))) :=
    funext fun j => (pbblk_apply m ρ c t 0 j).trans (entry_pb m ρ c 0 j)
  have h6 : (fun k' => mgblk m ρ c t (ix2 (0 : Fin 1) k')) = fun k' => m ((c.tc : Thread nD τ).loc main_arg6) (ix1 k') :=
    funext fun k' => (mgblk_apply m ρ c t 0 k').trans (entry_mg m ρ c 0 k')
  have h7 : (fun k' => mbblk m ρ c t (ix2 (0 : Fin 1) k')) = fun k' => m ((c.tc : Thread nD τ).loc main_arg7) (ix1 k') :=
    funext fun k' => (mbblk_apply m ρ c t 0 k').trans (entry_mb m ρ c 0 k')
  rw [h0, h1, h2, h3, h4, h5, h6, h7]
  exact Cert.Spec.outRowK_eq_outRow
    (fun d => m ((c.tc : Thread nD τ).loc main_arg0) (ix2 (⟨1024 * t.val + p.val, by omega⟩ : Fin 65536) d))
    (fun d => m ((c.tc : Thread nD τ).loc main_arg2) (ix1 d)) (fun d => m ((c.tc : Thread nD τ).loc main_arg3) (ix1 d))
    (fun k' m' => Cert.Spec.l2Row Cert.Spec.e12 (fun d => m ((c.tc : Thread nD τ).loc main_arg1) (ix3 k' m' d)))
    (fun j => m ((c.tc : Thread nD τ).loc main_arg4) (ix1 j)) (fun j => m ((c.tc : Thread nD τ).loc main_arg5) (ix1 j))
    (fun k' => m ((c.tc : Thread nD τ).loc main_arg6) (ix1 k')) (fun k' => m ((c.tc : Thread nD τ).loc main_arg7) (ix1 k')) k

/-- An index of the result array is in point t's block iff each coordinate is in the block's range on its axis. -/
theorem mem_blk (t : Fin cfg1.N) (i : S65536x19.Idx) :
    i ∈ ((cfg1.win 8).blk t).view.set
      ↔ ∀ a : Fin 2, win1_8.index t a * S1024x19.size a ≤ (i a).val
          ∧ (i a).val < win1_8.index t a * S1024x19.size a + S1024x19.size a := by
  show i ∈ ((View.whole main_v0).slice (win1_8.rect t)).set ↔ _
  rw [View.set_slice_whole, Rect.mem_set_unit]
  exact Iff.rfl

/-- The 64 blocks cover the array: row r is in the block of point r / 1024. -/
theorem cover (i : S65536x19.Idx) :
    ∃ t : Fin cfg1.N, (cfg1.win 8).flush t = true ∧ i ∈ ((cfg1.win 8).blk t).view.set := by
  have hi0 : (i 0).val < 65536 := idx2_lt0 i
  have hi1 : (i 1).val < 19 := idx2_lt1 i
  have hN : cfg1.N = 64 := N_1
  have hq : (i 0).val / 1024 < cfg1.N := by rw [hN]; omega
  refine ⟨⟨(i 0).val / 1024, hq⟩, flush1_8 _, ?_⟩
  rw [mem_blk]
  obtain ⟨e0, e1, -⟩ := idx_facts ⟨(i 0).val / 1024, hq⟩
  have e0' : win1_8.index ⟨(i 0).val / 1024, hq⟩ (0 : Fin 2) = (i 0).val / 1024 := e0
  intro a
  match a with
  | ⟨0, _⟩ =>
    show win1_8.index ⟨(i 0).val / 1024, hq⟩ (0 : Fin 2) * 1024 ≤ (i 0).val
      ∧ (i 0).val < win1_8.index ⟨(i 0).val / 1024, hq⟩ (0 : Fin 2) * 1024 + 1024
    omega
  | ⟨1, _⟩ =>
    show win1_8.index ⟨(i 0).val / 1024, hq⟩ (1 : Fin 2) * 19 ≤ (i 1).val
      ∧ (i 1).val < win1_8.index ⟨(i 0).val / 1024, hq⟩ (1 : Fin 2) * 19 + 19
    omega

end Value

/-- The result array after the run is the specification's function of the launch contents: each of the 64 points
    writes back its block of that function, and the blocks cover the array. -/
theorem out_eq (c : Dev nD) :
    W4 m ρ c (Proc.devRef .tc main_v0)
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (W4_arr m ρ c 8).trans
    ((dat1 (V3 m ρ) c).arrAt_eq_of_cover 8 (Value.Gm m c) (fun t _ => Value.flushed_eq m ρ c t) Value.cover)

end Cert.Ker

end
-- ==== Proof.RefTerm.lean ====
/-
  The reference's result as one term of its argument arrays, written stage by stage in the order
  the reference computes it: row sums and means, the guarded variance quotient (the count minus a
  zero correction, taken when that difference is positive), layer normalisation over 768, division
  by the Euclidean length, the same for the prototype vectors, the similarities (a contraction over
  the 768 features, transposed twice and flattened class-major), layer normalisation over 190, the
  maximum over each class's ten prototypes, layer normalisation over 19.
-/
import proofs.«151860_g13219909337484_cont_week2b_1152_2_alg».proof.Proof.Gen.ReferenceIdeal
import Idealize.ShloMosaic.PureOps.Ideal

noncomputable section

namespace Cert.Ref

open Idealize.ShloMosaic Cert.ReferenceIdeal Cert.ReferenceIdeal.Gen

/-- A float array of the reference at the ideal values. -/
abbrev A (s : Shape) : Type := FVec Ideal s .f32

/-- A scalar literal. -/
abbrev lit (b : BitVec 32) : A S_ := constant S_ .f32 b

/-- A scalar repeated down a column of 65536 entries. -/
abbrev splat1 {α : Type} (v : S_.Idx → α) : S65536x1.Idx → α := broadcastInDim S65536x1 ![] bcast_S_S65536x1 v
/-- A vector of 65536 entries as a column. -/
abbrev col (v : A S65536) : A S65536x1 := broadcastInDim S65536x1 ![0] bcast_S65536_S65536x1_0 v

/-- The count a variance divides by: the literal count minus the correction, which is the integer zero converted. -/
abbrev cnt (n : BitVec 32) : A S_ := subf (lit n) (sitofp .f32 (constantI S_ 32 0#32))

/-- The guarded quotient of a variance: the column of sums of squares `ss` divided by the count when the count is
    positive, a fixed junk value otherwise. -/
abbrev guarded (n : BitVec 32) (ss : A S65536x1) : A S65536x1 :=
  select (splat1 (cmpf .ogt (cnt n) (lit 0x00000000#32))) (Host.divf ss (splat1 (cnt n))) (splat1 (id (lit 0x7FC00000#32)))

/-! ## Rows of 768 -/

abbrev sum768 (x : A S65536x768) : A S65536x1 :=
  col (Host.reduceAdd x (lit 0x00000000#32) reducesTo_S65536x768_S65536_d1 h_S_)
abbrev rep768 (v : A S65536x1) : A S65536x768 := broadcastInDim S65536x768 ![0, 1] bcast_S65536x1_S65536x768_0_1 v
abbrev row768 (g : A S768) : A S65536x768 :=
  broadcastInDim S65536x768 ![0, 1] bcast_S1x768_S65536x768_0_1 (broadcastInDim S1x768 ![1] bcast_S768_S1x768_1 g)
def mean768 (x : A S65536x768) : A S65536x1 := Host.divf (sum768 x) (splat1 (lit 0x44400000#32))
def var768 (x : A S65536x768) : A S65536x1 :=
  guarded 0x44400000#32 (sum768 (mulf (subf x (rep768 (mean768 x))) (subf x (rep768 (mean768 x)))))
/-- Layer normalisation over the 768 features. -/
def ln768 (x : A S65536x768) (g b : A S768) : A S65536x768 :=
  addf (mulf (Host.divf (subf x (rep768 (mean768 x)))
      (rep768 (Host.sqrt (addf (var768 x) (splat1 (lit 0x3727C5AC#32)))))) (row768 g)) (row768 b)
/-- Each row divided by its length plus the small literal. -/
def unit768 (c : A S65536x768) : A S65536x768 :=
  Host.divf c (rep768 (addf (Host.sqrt (sum768 (mulf c c))) (splat1 (lit 0x2B8CBCCC#32))))
/-- The normalised features. -/
def feat (x : A S65536x768) (g b : A S768) : A S65536x768 := unit768 (ln768 x g b)

/-! ## The prototype vectors -/

/-- Each prototype vector divided by its length plus the small literal. -/
def protoUnit (P : A S19x10x768) : A S19x10x768 :=
  Host.divf P (broadcastInDim S19x10x768 ![0, 1, 2] bcast_S19x10x1_S19x10x768_0_1_2
    (addf (Host.sqrt (broadcastInDim S19x10x1 ![0, 1] bcast_S19x10_S19x10x1_0_1
        (Host.reduceAdd (mulf P P) (lit 0x00000000#32) reducesTo_S19x10x768_S19x10_d2 h_S_)))
      (broadcastInDim S19x10x1 ![] bcast_S_S19x10x1 (lit 0x2B8CBCCC#32))))

/-! ## The similarities, class-major -/

def sims (pn : A S19x10x768) (c : A S65536x768) : A S65536x190 :=
  shapeCast S65536x190 (transpose S65536x19x10 [0, 2, 1]
    (transpose S65536x10x19 [2, 1, 0] (Host.dotGeneral dot_S19x10x768_S65536x768_S19x10x65536_2_1_01_0_n_n none pn c)
      transposes_S19x10x65536_S65536x10x19_2_1_0) transposes_S65536x10x19_S65536x19x10_0_2_1) shapeCasts_S65536x19x10_S65536x190

/-! ## Rows of 190 -/

abbrev sum190 (x : A S65536x190) : A S65536x1 :=
  col (Host.reduceAdd x (lit 0x00000000#32) reducesTo_S65536x190_S65536_d1 h_S_)
abbrev rep190 (v : A S65536x1) : A S65536x190 := broadcastInDim S65536x190 ![0, 1] bcast_S65536x1_S65536x190_0_1 v
abbrev row190 (g : A S190) : A S65536x190 :=
  broadcastInDim S65536x190 ![0, 1] bcast_S1x190_S65536x190_0_1 (broadcastInDim S1x190 ![1] bcast_S190_S1x190_1 g)
def mean190 (x : A S65536x190) : A S65536x1 := Host.divf (sum190 x) (splat1 (lit 0x433E0000#32))
def var190 (x : A S65536x190) : A S65536x1 :=
  guarded 0x433E0000#32 (sum190 (mulf (subf x (rep190 (mean190 x))) (subf x (rep190 (mean190 x)))))
/-- Layer normalisation over the 190 similarities. -/
def ln190 (x : A S65536x190) (g b : A S190) : A S65536x190 :=
  addf (mulf (Host.divf (subf x (rep190 (mean190 x)))
      (rep190 (Host.sqrt (addf (var190 x) (splat1 (lit 0x3727C5AC#32)))))) (row190 g)) (row190 b)

/-! ## The maximum over each class's prototypes -/

def classMax (s : A S65536x190) : A S65536x19 :=
  Host.reduce FloatOps.maximumf (shapeCast S65536x19x10 s shapeCasts_S65536x190_S65536x19x10) (lit 0xFF800000#32)
    reducesTo_S65536x19x10_S65536x19_d2 h_S_

/-! ## Rows of 19 -/

abbrev sum19 (x : A S65536x19) : A S65536x1 :=
  col (Host.reduceAdd x (lit 0x00000000#32) reducesTo_S65536x19_S65536_d1 h_S_)
abbrev rep19 (v : A S65536x1) : A S65536x19 := broadcastInDim S65536x19 ![0, 1] bcast_S65536x1_S65536x19_0_1 v
abbrev row19 (g : A S19) : A S65536x19 :=
  broadcastInDim S65536x19 ![0, 1] bcast_S1x19_S65536x19_0_1 (broadcastInDim S1x19 ![1] bcast_S19_S1x19_1 g)
def mean19 (x : A S65536x19) : A S65536x1 := Host.divf (sum19 x) (splat1 (lit 0x41980000#32))
def var19 (x : A S65536x19) : A S65536x1 :=
  guarded 0x41980000#32 (sum19 (mulf (subf x (rep19 (mean19 x))) (subf x (rep19 (mean19 x)))))
/-- Layer normalisation over the 19 class maxima. -/
def ln19 (x : A S65536x19) (g b : A S19) : A S65536x19 :=
  addf (mulf (Host.divf (subf x (rep19 (mean19 x)))
      (rep19 (Host.sqrt (addf (var19 x) (splat1 (lit 0x3727C5AC#32)))))) (row19 g)) (row19 b)

/-! ## The result -/

/-- The reference's result array as a term of its eight argument arrays. -/
def refOut (x : A S65536x768) (P : A S19x10x768) (fg fb : A S768) (pg pb : A S190) (mg mb : A S19) : A S65536x19 :=
  ln19 (classMax (ln190 (sims (protoUnit P) (feat x fg fb)) pg pb)) mg mb

end Cert.Ref

end
-- ==== Proof.RefOps.lean ====
/-
  The reference's 159 operations in the program's order, an outlined function's operations in place at
  its call over that call's record, cut into the six stages of the reference's result: per stage the list of
  its operations, the list of the buffers they write, and that each operation's buffers are the core's own.
  Every function is ascribed at the ideal arrays, where a float is an extended real.
-/
import proofs.«151860_g13219909337484_cont_week2b_1152_2_alg».proof.Proof.RefTerm
import Idealize.ShloMosaic.Lib.StableHlo.Run

noncomputable section

namespace Cert.Ref

open Idealize.ShloMosaic Idealize.ShloMosaic.TcCoe Idealize.SL.Sem Idealize.ShloMosaic.StableHlo
open Cert.ReferenceIdeal Cert.ReferenceIdeal.Gen

/-- The 54 operations of the layer normalisation over the 768 features and the division of each row by its length. -/
abbrev opsA : List (HloOp τ sig (Elt Ideal)) :=
  [ nullary main_cst (constant (F := Ideal) S_ .f32 0x00000000#32),
    binary main_arg0 main_cst main_v0 ((fun x v => Host.reduceAdd x v reducesTo_S65536x768_S65536_d1 h_S_) : A S65536x768 → A S_ → A S65536),
    unary main_v0 main_v1 (broadcastInDim S65536x1 ![0] bcast_S65536_S65536x1_0 : A S65536 → A S65536x1),
    nullary main_cst_0 (constant (F := Ideal) S_ .f32 0x44400000#32),
    unary main_cst_0 main_v2 (broadcastInDim S65536x1 ![] bcast_S_S65536x1 : A S_ → A S65536x1),
    binary main_v1 main_v2 main_v3 (Host.divf : A S65536x1 → A S65536x1 → A S65536x1),
    nullary main_c (constantI S_ 32 0#32),
    TRef.nullary main_call0.cst (constant (F := Ideal) S_ .f32 0x00000000#32),
    TRef.binary (.of main_arg0) main_call0.cst main_call0.v0 ((fun x v => Host.reduceAdd x v reducesTo_S65536x768_S65536_d1 h_S_) : A S65536x768 → A S_ → A S65536),
    TRef.unary main_call0.v0 main_call0.v1 (broadcastInDim S65536x1 ![0] bcast_S65536_S65536x1_0 : A S65536 → A S65536x1),
    TRef.nullary main_call0.cst_0 (constant (F := Ideal) S_ .f32 0x44400000#32),
    TRef.unary main_call0.cst_0 main_call0.v2 (broadcastInDim S65536x1 ![] bcast_S_S65536x1 : A S_ → A S65536x1),
    TRef.binary main_call0.v1 main_call0.v2 main_call0.v3 (Host.divf : A S65536x1 → A S65536x1 → A S65536x1),
    TRef.unary main_call0.v3 main_call0.v4 (broadcastInDim S65536x768 ![0, 1] bcast_S65536x1_S65536x768_0_1 : A S65536x1 → A S65536x768),
    TRef.binary (.of main_arg0) main_call0.v4 main_call0.v5 (subf : A S65536x768 → A S65536x768 → A S65536x768),
    TRef.binary main_call0.v5 main_call0.v5 main_call0.v6 (mulf : A S65536x768 → A S65536x768 → A S65536x768),
    TRef.unary (.of main_c) main_call0.v7 (sitofp .f32 : IVec S_ 32 → A S_),
    TRef.nullary main_call0.cst_1 (constant (F := Ideal) S_ .f32 0x44400000#32),
    TRef.binary main_call0.cst_1 main_call0.v7 main_call0.v8 (subf : A S_ → A S_ → A S_),
    TRef.nullary main_call0.cst_2 (constant (F := Ideal) S_ .f32 0x00000000#32),
    TRef.binary main_call0.v6 main_call0.cst_2 main_call0.v9 ((fun x v => Host.reduceAdd x v reducesTo_S65536x768_S65536_d1 h_S_) : A S65536x768 → A S_ → A S65536),
    TRef.unary main_call0.v9 main_call0.v10 (broadcastInDim S65536x1 ![0] bcast_S65536_S65536x1_0 : A S65536 → A S65536x1),
    TRef.unary main_call0.v8 main_call0.v11 (broadcastInDim S65536x1 ![] bcast_S_S65536x1 : A S_ → A S65536x1),
    TRef.binary main_call0.v10 main_call0.v11 main_call0.v12 (Host.divf : A S65536x1 → A S65536x1 → A S65536x1),
    TRef.nullary main_call0.cst_3 (constant (F := Ideal) S_ .f32 0x00000000#32),
    TRef.binary main_call0.v8 main_call0.cst_3 main_call0.v13 (cmpf .ogt : A S_ → A S_ → IVec S_ 1),
    TRef.nullary main_call0.cst_4 (constant (F := Ideal) S_ .f32 0x7FC00000#32),
    TRef.unary main_call0.cst_4 main_call0.call0.v0 (id : A S_ → A S_),
    TRef.unary main_call0.call0.v0 main_call0.call0.v1 (broadcastInDim S65536x1 ![] bcast_S_S65536x1 : A S_ → A S65536x1),
    TRef.ternary main_call0.v13 main_call0.v12 main_call0.call0.v1 main_call0.call0.v2 ((fun p a b => select (broadcastInDim S65536x1 ![] bcast_S_S65536x1 p) a b) : IVec S_ 1 → A S65536x1 → A S65536x1 → A S65536x1),
    unary main_v3 main_v5 (broadcastInDim S65536x768 ![0, 1] bcast_S65536x1_S65536x768_0_1 : A S65536x1 → A S65536x768),
    binary main_arg0 main_v5 main_v6 (subf : A S65536x768 → A S65536x768 → A S65536x768),
    nullary main_cst_1 (constant (F := Ideal) S_ .f32 0x3727C5AC#32),
    unary main_cst_1 main_v7 (broadcastInDim S65536x1 ![] bcast_S_S65536x1 : A S_ → A S65536x1),
    binary main_v4 main_v7 main_v8 (addf : A S65536x1 → A S65536x1 → A S65536x1),
    unary main_v8 main_v9 (Host.sqrt : A S65536x1 → A S65536x1),
    unary main_v9 main_v10 (broadcastInDim S65536x768 ![0, 1] bcast_S65536x1_S65536x768_0_1 : A S65536x1 → A S65536x768),
    binary main_v6 main_v10 main_v11 (Host.divf : A S65536x768 → A S65536x768 → A S65536x768),
    unary main_arg2 main_v12 (broadcastInDim S1x768 ![1] bcast_S768_S1x768_1 : A S768 → A S1x768),
    unary main_v12 main_v13 (broadcastInDim S65536x768 ![0, 1] bcast_S1x768_S65536x768_0_1 : A S1x768 → A S65536x768),
    binary main_v11 main_v13 main_v14 (mulf : A S65536x768 → A S65536x768 → A S65536x768),
    unary main_arg3 main_v15 (broadcastInDim S1x768 ![1] bcast_S768_S1x768_1 : A S768 → A S1x768),
    unary main_v15 main_v16 (broadcastInDim S65536x768 ![0, 1] bcast_S1x768_S65536x768_0_1 : A S1x768 → A S65536x768),
    binary main_v14 main_v16 main_v17 (addf : A S65536x768 → A S65536x768 → A S65536x768),
    TRef.binary (.of main_v17) (.of main_v17) main_call1.v0 (mulf : A S65536x768 → A S65536x768 → A S65536x768),
    TRef.nullary main_call1.cst (constant (F := Ideal) S_ .f32 0x00000000#32),
    TRef.binary main_call1.v0 main_call1.cst main_call1.v1 ((fun x v => Host.reduceAdd x v reducesTo_S65536x768_S65536_d1 h_S_) : A S65536x768 → A S_ → A S65536),
    TRef.unary main_call1.v1 main_call1.v2 (broadcastInDim S65536x1 ![0] bcast_S65536_S65536x1_0 : A S65536 → A S65536x1),
    TRef.unary main_call1.v2 main_call1.v3 (Host.sqrt : A S65536x1 → A S65536x1),
    nullary main_cst_2 (constant (F := Ideal) S_ .f32 0x2B8CBCCC#32),
    unary main_cst_2 main_v19 (broadcastInDim S65536x1 ![] bcast_S_S65536x1 : A S_ → A S65536x1),
    binary main_v18 main_v19 main_v20 (addf : A S65536x1 → A S65536x1 → A S65536x1),
    unary main_v20 main_v21 (broadcastInDim S65536x768 ![0, 1] bcast_S65536x1_S65536x768_0_1 : A S65536x1 → A S65536x768),
    binary main_v17 main_v21 main_v22 (Host.divf : A S65536x768 → A S65536x768 → A S65536x768) ]

/-- The buffers those operations write, in order. -/
abbrev opsA_W : List (Ref sig .tc) :=
  [main_cst, main_v0, main_v1, main_cst_0, main_v2, main_v3, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v4, main_v5, main_v6, main_cst_1, main_v7, main_v8, main_v9, main_v10, main_v11, main_v12, main_v13, main_v14, main_v15, main_v16, main_v17, main_call1_v0, main_call1_cst, main_call1_v1, main_call1_v2, main_v18, main_cst_2, main_v19, main_v20, main_v21, main_v22]

set_option maxRecDepth 8192 in
/-- Each of those operations touches the core's own buffers only. -/
theorem opsA_sub : (opsA : List (HloOp τ sig (Elt Ideal))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- The 10 operations of the division of each prototype vector by its length. -/
abbrev opsB : List (HloOp τ sig (Elt Ideal)) :=
  [ TRef.binary (.of main_arg1) (.of main_arg1) main_call2.v0 (mulf : A S19x10x768 → A S19x10x768 → A S19x10x768),
    TRef.nullary main_call2.cst (constant (F := Ideal) S_ .f32 0x00000000#32),
    TRef.binary main_call2.v0 main_call2.cst main_call2.v1 ((fun x v => Host.reduceAdd x v reducesTo_S19x10x768_S19x10_d2 h_S_) : A S19x10x768 → A S_ → A S19x10),
    TRef.unary main_call2.v1 main_call2.v2 (broadcastInDim S19x10x1 ![0, 1] bcast_S19x10_S19x10x1_0_1 : A S19x10 → A S19x10x1),
    TRef.unary main_call2.v2 main_call2.v3 (Host.sqrt : A S19x10x1 → A S19x10x1),
    nullary main_cst_3 (constant (F := Ideal) S_ .f32 0x2B8CBCCC#32),
    unary main_cst_3 main_v24 (broadcastInDim S19x10x1 ![] bcast_S_S19x10x1 : A S_ → A S19x10x1),
    binary main_v23 main_v24 main_v25 (addf : A S19x10x1 → A S19x10x1 → A S19x10x1),
    unary main_v25 main_v26 (broadcastInDim S19x10x768 ![0, 1, 2] bcast_S19x10x1_S19x10x768_0_1_2 : A S19x10x1 → A S19x10x768),
    binary main_arg1 main_v26 main_v27 (Host.divf : A S19x10x768 → A S19x10x768 → A S19x10x768) ]

/-- The buffers those operations write, in order. -/
abbrev opsB_W : List (Ref sig .tc) :=
  [main_call2_v0, main_call2_cst, main_call2_v1, main_call2_v2, main_v23, main_cst_3, main_v24, main_v25, main_v26, main_v27]

set_option maxRecDepth 8192 in
/-- Each of those operations touches the core's own buffers only. -/
theorem opsB_sub : (opsB : List (HloOp τ sig (Elt Ideal))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩

/-- The 4 operations of the contraction over the 768 features, the two transpositions and the flattening, class-major. -/
abbrev opsC : List (HloOp τ sig (Elt Ideal)) :=
  [ binary main_v27 main_v22 main_v28 ((fun l r => Host.dotGeneral dot_S19x10x768_S65536x768_S19x10x65536_2_1_01_0_n_n none l r) : A S19x10x768 → A S65536x768 → A S19x10x65536),
    unary main_v28 main_v29 ((transpose S65536x10x19 [2, 1, 0] · transposes_S19x10x65536_S65536x10x19_2_1_0) : A S19x10x65536 → A S65536x10x19),
    unary main_v29 main_v30 ((transpose S65536x19x10 [0, 2, 1] · transposes_S65536x10x19_S65536x19x10_0_2_1) : A S65536x10x19 → A S65536x19x10),
    reshape main_v30 main_v31 rfl shapeCasts_S65536x19x10_S65536x190 ]

/-- The buffers those operations write, in order. -/
abbrev opsC_W : List (Ref sig .tc) :=
  [main_v28, main_v29, main_v30, main_v31]

set_option maxRecDepth 8192 in
/-- Each of those operations touches the core's own buffers only. -/
theorem opsC_sub : (opsC : List (HloOp τ sig (Elt Ideal))).Forall fun op => op.bufs ⊆ tcRefs τ sig :=
  ⟨binary_bufs_sub .., unary_bufs_sub .., unary_bufs_sub .., reshape_bufs_sub ..⟩

/-- The 44 operations of the layer normalisation over the 190 similarities. -/
abbrev opsD : List (HloOp τ sig (Elt Ideal)) :=
  [ nullary main_cst_4 (constant (F := Ideal) S_ .f32 0x00000000#32),
    binary main_v31 main_cst_4 main_v32 ((fun x v => Host.reduceAdd x v reducesTo_S65536x190_S65536_d1 h_S_) : A S65536x190 → A S_ → A S65536),
    unary main_v32 main_v33 (broadcastInDim S65536x1 ![0] bcast_S65536_S65536x1_0 : A S65536 → A S65536x1),
    nullary main_cst_5 (constant (F := Ideal) S_ .f32 0x433E0000#32),
    unary main_cst_5 main_v34 (broadcastInDim S65536x1 ![] bcast_S_S65536x1 : A S_ → A S65536x1),
    binary main_v33 main_v34 main_v35 (Host.divf : A S65536x1 → A S65536x1 → A S65536x1),
    nullary main_c_6 (constantI S_ 32 0#32),
    TRef.nullary main_call3.cst (constant (F := Ideal) S_ .f32 0x00000000#32),
    TRef.binary (.of main_v31) main_call3.cst main_call3.v0 ((fun x v => Host.reduceAdd x v reducesTo_S65536x190_S65536_d1 h_S_) : A S65536x190 → A S_ → A S65536),
    TRef.unary main_call3.v0 main_call3.v1 (broadcastInDim S65536x1 ![0] bcast_S65536_S65536x1_0 : A S65536 → A S65536x1),
    TRef.nullary main_call3.cst_0 (constant (F := Ideal) S_ .f32 0x433E0000#32),
    TRef.unary main_call3.cst_0 main_call3.v2 (broadcastInDim S65536x1 ![] bcast_S_S65536x1 : A S_ → A S65536x1),
    TRef.binary main_call3.v1 main_call3.v2 main_call3.v3 (Host.divf : A S65536x1 → A S65536x1 → A S65536x1),
    TRef.unary main_call3.v3 main_call3.v4 (broadcastInDim S65536x190 ![0, 1] bcast_S65536x1_S65536x190_0_1 : A S65536x1 → A S65536x190),
    TRef.binary (.of main_v31) main_call3.v4 main_call3.v5 (subf : A S65536x190 → A S65536x190 → A S65536x190),
    TRef.binary main_call3.v5 main_call3.v5 main_call3.v6 (mulf : A S65536x190 → A S65536x190 → A S65536x190),
    TRef.unary (.of main_c_6) main_call3.v7 (sitofp .f32 : IVec S_ 32 → A S_),
    TRef.nullary main_call3.cst_1 (constant (F := Ideal) S_ .f32 0x433E0000#32),
    TRef.binary main_call3.cst_1 main_call3.v7 main_call3.v8 (subf : A S_ → A S_ → A S_),
    TRef.nullary main_call3.cst_2 (constant (F := Ideal) S_ .f32 0x00000000#32),
    TRef.binary main_call3.v6 main_call3.cst_2 main_call3.v9 ((fun x v => Host.reduceAdd x v reducesTo_S65536x190_S65536_d1 h_S_) : A S65536x190 → A S_ → A S65536),
    TRef.unary main_call3.v9 main_call3.v10 (broadcastInDim S65536x1 ![0] bcast_S65536_S65536x1_0 : A S65536 → A S65536x1),
    TRef.unary main_call3.v8 main_call3.v11 (broadcastInDim S65536x1 ![] bcast_S_S65536x1 : A S_ → A S65536x1),
    TRef.binary main_call3.v10 main_call3.v11 main_call3.v12 (Host.divf : A S65536x1 → A S65536x1 → A S65536x1),
    TRef.nullary main_call3.cst_3 (constant (F := Ideal) S_ .f32 0x00000000#32),
    TRef.binary main_call3.v8 main_call3.cst_3 main_call3.v13 (cmpf .ogt : A S_ → A S_ → IVec S_ 1),
    TRef.nullary main_call3.cst_4 (constant (F := Ideal) S_ .f32 0x7FC00000#32),
    TRef.unary main_call3.cst_4 main_call3.call0.v0 (id : A S_ → A S_),
    TRef.unary main_call3.call0.v0 main_call3.call0.v1 (broadcastInDim S65536x1 ![] bcast_S_S65536x1 : A S_ → A S65536x1),
    TRef.ternary main_call3.v13 main_call3.v12 main_call3.call0.v1 main_call3.call0.v2 ((fun p a b => select (broadcastInDim S65536x1 ![] bcast_S_S65536x1 p) a b) : IVec S_ 1 → A S65536x1 → A S65536x1 → A S65536x1),
    unary main_v35 main_v37 (broadcastInDim S65536x190 ![0, 1] bcast_S65536x1_S65536x190_0_1 : A S65536x1 → A S65536x190),
    binary main_v31 main_v37 main_v38 (subf : A S65536x190 → A S65536x190 → A S65536x190),
    nullary main_cst_7 (constant (F := Ideal) S_ .f32 0x3727C5AC#32),
    unary main_cst_7 main_v39 (broadcastInDim S65536x1 ![] bcast_S_S65536x1 : A S_ → A S65536x1),
    binary main_v36 main_v39 main_v40 (addf : A S65536x1 → A S65536x1 → A S65536x1),
    unary main_v40 main_v41 (Host.sqrt : A S65536x1 → A S65536x1),
    unary main_v41 main_v42 (broadcastInDim S65536x190 ![0, 1] bcast_S65536x1_S65536x190_0_1 : A S65536x1 → A S65536x190),
    binary main_v38 main_v42 main_v43 (Host.divf : A S65536x190 → A S65536x190 → A S65536x190),
    unary main_arg4 main_v44 (broadcastInDim S1x190 ![1] bcast_S190_S1x190_1 : A S190 → A S1x190),
    unary main_v44 main_v45 (broadcastInDim S65536x190 ![0, 1] bcast_S1x190_S65536x190_0_1 : A S1x190 → A S65536x190),
    binary main_v43 main_v45 main_v46 (mulf : A S65536x190 → A S65536x190 → A S65536x190),
    unary main_arg5 main_v47 (broadcastInDim S1x190 ![1] bcast_S190_S1x190_1 : A S190 → A S1x190),
    unary main_v47 main_v48 (broadcastInDim S65536x190 ![0, 1] bcast_S1x190_S65536x190_0_1 : A S1x190 → A S65536x190),
    binary main_v46 main_v48 main_v49 (addf : A S65536x190 → A S65536x190 → A S65536x190) ]

/-- The buffers those operations write, in order. -/
abbrev opsD_W : List (Ref sig .tc) :=
  [main_cst_4, main_v32, main_v33, main_cst_5, main_v34, main_v35, main_c_6, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v36, main_v37, main_v38, main_cst_7, main_v39, main_v40, main_v41, main_v42, main_v43, main_v44, main_v45, main_v46, main_v47, main_v48, main_v49]

set_option maxRecDepth 8192 in
/-- Each of those operations touches the core's own buffers only. -/
theorem opsD_sub : (opsD : List (HloOp τ sig (Elt Ideal))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- The 3 operations of the maximum over each class's ten prototypes. -/
abbrev opsE : List (HloOp τ sig (Elt Ideal)) :=
  [ reshape main_v49 main_v50 rfl shapeCasts_S65536x190_S65536x19x10,
    nullary main_cst_8 (constant (F := Ideal) S_ .f32 0xFF800000#32),
    binary main_v50 main_cst_8 main_v51 ((fun x v => Host.reduce FloatOps.maximumf x v reducesTo_S65536x19x10_S65536x19_d2 h_S_) : A S65536x19x10 → A S_ → A S65536x19) ]

/-- The buffers those operations write, in order. -/
abbrev opsE_W : List (Ref sig .tc) :=
  [main_v50, main_cst_8, main_v51]

set_option maxRecDepth 8192 in
/-- Each of those operations touches the core's own buffers only. -/
theorem opsE_sub : (opsE : List (HloOp τ sig (Elt Ideal))).Forall fun op => op.bufs ⊆ tcRefs τ sig :=
  ⟨reshape_bufs_sub .., nullary_bufs_sub .., binary_bufs_sub ..⟩

/-- The 44 operations of the layer normalisation over the 19 class maxima. -/
abbrev opsG : List (HloOp τ sig (Elt Ideal)) :=
  [ nullary main_cst_9 (constant (F := Ideal) S_ .f32 0x00000000#32),
    binary main_v51 main_cst_9 main_v52 ((fun x v => Host.reduceAdd x v reducesTo_S65536x19_S65536_d1 h_S_) : A S65536x19 → A S_ → A S65536),
    unary main_v52 main_v53 (broadcastInDim S65536x1 ![0] bcast_S65536_S65536x1_0 : A S65536 → A S65536x1),
    nullary main_cst_10 (constant (F := Ideal) S_ .f32 0x41980000#32),
    unary main_cst_10 main_v54 (broadcastInDim S65536x1 ![] bcast_S_S65536x1 : A S_ → A S65536x1),
    binary main_v53 main_v54 main_v55 (Host.divf : A S65536x1 → A S65536x1 → A S65536x1),
    nullary main_c_11 (constantI S_ 32 0#32),
    TRef.nullary main_call4.cst (constant (F := Ideal) S_ .f32 0x00000000#32),
    TRef.binary (.of main_v51) main_call4.cst main_call4.v0 ((fun x v => Host.reduceAdd x v reducesTo_S65536x19_S65536_d1 h_S_) : A S65536x19 → A S_ → A S65536),
    TRef.unary main_call4.v0 main_call4.v1 (broadcastInDim S65536x1 ![0] bcast_S65536_S65536x1_0 : A S65536 → A S65536x1),
    TRef.nullary main_call4.cst_0 (constant (F := Ideal) S_ .f32 0x41980000#32),
    TRef.unary main_call4.cst_0 main_call4.v2 (broadcastInDim S65536x1 ![] bcast_S_S65536x1 : A S_ → A S65536x1),
    TRef.binary main_call4.v1 main_call4.v2 main_call4.v3 (Host.divf : A S65536x1 → A S65536x1 → A S65536x1),
    TRef.unary main_call4.v3 main_call4.v4 (broadcastInDim S65536x19 ![0, 1] bcast_S65536x1_S65536x19_0_1 : A S65536x1 → A S65536x19),
    TRef.binary (.of main_v51) main_call4.v4 main_call4.v5 (subf : A S65536x19 → A S65536x19 → A S65536x19),
    TRef.binary main_call4.v5 main_call4.v5 main_call4.v6 (mulf : A S65536x19 → A S65536x19 → A S65536x19),
    TRef.unary (.of main_c_11) main_call4.v7 (sitofp .f32 : IVec S_ 32 → A S_),
    TRef.nullary main_call4.cst_1 (constant (F := Ideal) S_ .f32 0x41980000#32),
    TRef.binary main_call4.cst_1 main_call4.v7 main_call4.v8 (subf : A S_ → A S_ → A S_),
    TRef.nullary main_call4.cst_2 (constant (F := Ideal) S_ .f32 0x00000000#32),
    TRef.binary main_call4.v6 main_call4.cst_2 main_call4.v9 ((fun x v => Host.reduceAdd x v reducesTo_S65536x19_S65536_d1 h_S_) : A S65536x19 → A S_ → A S65536),
    TRef.unary main_call4.v9 main_call4.v10 (broadcastInDim S65536x1 ![0] bcast_S65536_S65536x1_0 : A S65536 → A S65536x1),
    TRef.unary main_call4.v8 main_call4.v11 (broadcastInDim S65536x1 ![] bcast_S_S65536x1 : A S_ → A S65536x1),
    TRef.binary main_call4.v10 main_call4.v11 main_call4.v12 (Host.divf : A S65536x1 → A S65536x1 → A S65536x1),
    TRef.nullary main_call4.cst_3 (constant (F := Ideal) S_ .f32 0x00000000#32),
    TRef.binary main_call4.v8 main_call4.cst_3 main_call4.v13 (cmpf .ogt : A S_ → A S_ → IVec S_ 1),
    TRef.nullary main_call4.cst_4 (constant (F := Ideal) S_ .f32 0x7FC00000#32),
    TRef.unary main_call4.cst_4 main_call4.call0.v0 (id : A S_ → A S_),
    TRef.unary main_call4.call0.v0 main_call4.call0.v1 (broadcastInDim S65536x1 ![] bcast_S_S65536x1 : A S_ → A S65536x1),
    TRef.ternary main_call4.v13 main_call4.v12 main_call4.call0.v1 main_call4.call0.v2 ((fun p a b => select (broadcastInDim S65536x1 ![] bcast_S_S65536x1 p) a b) : IVec S_ 1 → A S65536x1 → A S65536x1 → A S65536x1),
    unary main_v55 main_v57 (broadcastInDim S65536x19 ![0, 1] bcast_S65536x1_S65536x19_0_1 : A S65536x1 → A S65536x19),
    binary main_v51 main_v57 main_v58 (subf : A S65536x19 → A S65536x19 → A S65536x19),
    nullary main_cst_12 (constant (F := Ideal) S_ .f32 0x3727C5AC#32),
    unary main_cst_12 main_v59 (broadcastInDim S65536x1 ![] bcast_S_S65536x1 : A S_ → A S65536x1),
    binary main_v56 main_v59 main_v60 (addf : A S65536x1 → A S65536x1 → A S65536x1),
    unary main_v60 main_v61 (Host.sqrt : A S65536x1 → A S65536x1),
    unary main_v61 main_v62 (broadcastInDim S65536x19 ![0, 1] bcast_S65536x1_S65536x19_0_1 : A S65536x1 → A S65536x19),
    binary main_v58 main_v62 main_v63 (Host.divf : A S65536x19 → A S65536x19 → A S65536x19),
    unary main_arg6 main_v64 (broadcastInDim S1x19 ![1] bcast_S19_S1x19_1 : A S19 → A S1x19),
    unary main_v64 main_v65 (broadcastInDim S65536x19 ![0, 1] bcast_S1x19_S65536x19_0_1 : A S1x19 → A S65536x19),
    binary main_v63 main_v65 main_v66 (mulf : A S65536x19 → A S65536x19 → A S65536x19),
    unary main_arg7 main_v67 (broadcastInDim S1x19 ![1] bcast_S19_S1x19_1 : A S19 → A S1x19),
    unary main_v67 main_v68 (broadcastInDim S65536x19 ![0, 1] bcast_S1x19_S65536x19_0_1 : A S1x19 → A S65536x19),
    binary main_v66 main_v68 main_v69 (addf : A S65536x19 → A S65536x19 → A S65536x19) ]

/-- The buffers those operations write, in order. -/
abbrev opsG_W : List (Ref sig .tc) :=
  [main_cst_9, main_v52, main_v53, main_cst_10, main_v54, main_v55, main_c_11, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v56, main_v57, main_v58, main_cst_12, main_v59, main_v60, main_v61, main_v62, main_v63, main_v64, main_v65, main_v66, main_v67, main_v68, main_v69]

set_option maxRecDepth 8192 in
/-- Each of those operations touches the core's own buffers only. -/
theorem opsG_sub : (opsG : List (HloOp τ sig (Elt Ideal))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

end Cert.Ref

end
-- ==== Proof.RefRunStage.lean ====
/-
  The reference's six stages, each read by itself. From any contents of the buffers, a stage's operations leave
  the stage's result buffer at the stage's term (`feat`, `protoUnit`, `sims`, `ln190`, `classMax`, `ln19`) of the
  buffers the stage reads; and a buffer outside the list of the buffers the stage's operations write keeps its
  contents through the stage.
-/
import proofs.«151860_g13219909337484_cont_week2b_1152_2_alg».proof.Proof.RefOps
import Idealize.ShloMosaic.Lib.StableHlo.Run

noncomputable section

namespace Cert.Ref

open Idealize.ShloMosaic Idealize.ShloMosaic.TcCoe Idealize.SL.Sem Idealize.ShloMosaic.StableHlo
open Cert.ReferenceIdeal Cert.ReferenceIdeal.Gen

/-! ## Each stage's result

From any contents `W` of the buffers, a stage's operations leave its result buffer at the stage's term of the
buffers the stage reads: the fold read at that buffer, operation by operation, is the term written out. -/

set_option maxRecDepth 8192 in
/-- The normalised features: layer normalisation over 768 of the first argument, then each row over its length. -/
theorem stageA (W : Valuation τ sig (Elt Ideal)) :
    after opsA W (main_v22 : DevRef τ sig)
      = feat (W (main_arg0 : DevRef τ sig)) (W (main_arg2 : DevRef τ sig)) (W (main_arg3 : DevRef τ sig)) := by
  after_results_simp
  rfl

/-- The prototype vectors, each over its length. -/
theorem stageB (W : Valuation τ sig (Elt Ideal)) :
    after opsB W (main_v27 : DevRef τ sig) = protoUnit (W (main_arg1 : DevRef τ sig)) := by
  after_results_simp
  rfl

/-- The similarities of the two normalised families, class-major. -/
theorem stageC (W : Valuation τ sig (Elt Ideal)) :
    after opsC W (main_v31 : DevRef τ sig) = sims (W (main_v27 : DevRef τ sig)) (W (main_v22 : DevRef τ sig)) := by
  after_results_simp
  rfl

set_option maxRecDepth 8192 in
/-- Layer normalisation over the 190 similarities. -/
theorem stageD (W : Valuation τ sig (Elt Ideal)) :
    after opsD W (main_v49 : DevRef τ sig)
      = ln190 (W (main_v31 : DevRef τ sig)) (W (main_arg4 : DevRef τ sig)) (W (main_arg5 : DevRef τ sig)) := by
  after_results_simp
  rfl

/-- The maximum over each class's ten prototypes. -/
theorem stageE (W : Valuation τ sig (Elt Ideal)) :
    after opsE W (main_v51 : DevRef τ sig) = classMax (W (main_v49 : DevRef τ sig)) := by
  after_results_simp
  rfl

set_option maxRecDepth 8192 in
/-- Layer normalisation over the 19 class maxima. -/
theorem stageG (W : Valuation τ sig (Elt Ideal)) :
    after opsG W (main_v69 : DevRef τ sig)
      = ln19 (W (main_v51 : DevRef τ sig)) (W (main_arg6 : DevRef τ sig)) (W (main_arg7 : DevRef τ sig)) := by
  after_results_simp
  rfl

/-! ## What a stage leaves alone

A buffer outside the list of the buffers a stage's operations write keeps its contents through the stage. -/

/-- Every operation of a stage writes one buffer, and that buffer is in the stage's list. -/
macro "writes_listed" : tactic =>
  `(tactic| (simp only [List.Forall, nullary_writes, unary_writes, binary_writes, ternary_writes, reshape_writes,
               Finset.singleton_subset_iff, List.mem_toFinset]
             repeat' (first | exact List.mem_map_of_mem (by decide) | constructor)))

set_option maxRecDepth 8192 in
theorem opsA_writes : (opsA : List (HloOp τ sig (Elt Ideal))).Forall fun op =>
    op.writes ⊆ (opsA_W.map (Proc.devRef (τ := τ) .tc)).toFinset := by writes_listed
theorem opsB_writes : (opsB : List (HloOp τ sig (Elt Ideal))).Forall fun op =>
    op.writes ⊆ (opsB_W.map (Proc.devRef (τ := τ) .tc)).toFinset := by writes_listed
theorem opsC_writes : (opsC : List (HloOp τ sig (Elt Ideal))).Forall fun op =>
    op.writes ⊆ (opsC_W.map (Proc.devRef (τ := τ) .tc)).toFinset := by writes_listed
set_option maxRecDepth 8192 in
theorem opsD_writes : (opsD : List (HloOp τ sig (Elt Ideal))).Forall fun op =>
    op.writes ⊆ (opsD_W.map (Proc.devRef (τ := τ) .tc)).toFinset := by writes_listed
theorem opsE_writes : (opsE : List (HloOp τ sig (Elt Ideal))).Forall fun op =>
    op.writes ⊆ (opsE_W.map (Proc.devRef (τ := τ) .tc)).toFinset := by writes_listed
set_option maxRecDepth 8192 in
theorem opsG_writes : (opsG : List (HloOp τ sig (Elt Ideal))).Forall fun op =>
    op.writes ⊆ (opsG_W.map (Proc.devRef (τ := τ) .tc)).toFinset := by writes_listed

section Keep

variable (W : Valuation τ sig (Elt Ideal)) (r : Ref sig .tc)

theorem keepA (h : r ∉ opsA_W) : after opsA W (Proc.devRef .tc r) = W (Proc.devRef .tc r) :=
  after_of_writes_sub opsA W opsA_writes h
theorem keepB (h : r ∉ opsB_W) : after opsB W (Proc.devRef .tc r) = W (Proc.devRef .tc r) :=
  after_of_writes_sub opsB W opsB_writes h
theorem keepC (h : r ∉ opsC_W) : after opsC W (Proc.devRef .tc r) = W (Proc.devRef .tc r) :=
  after_of_writes_sub opsC W opsC_writes h
theorem keepD (h : r ∉ opsD_W) : after opsD W (Proc.devRef .tc r) = W (Proc.devRef .tc r) :=
  after_of_writes_sub opsD W opsD_writes h
theorem keepE (h : r ∉ opsE_W) : after opsE W (Proc.devRef .tc r) = W (Proc.devRef .tc r) :=
  after_of_writes_sub opsE W opsE_writes h
theorem keepG (h : r ∉ opsG_W) : after opsG W (Proc.devRef .tc r) = W (Proc.devRef .tc r) :=
  after_of_writes_sub opsG W opsG_writes h

end Keep

end Cert.Ref

end
-- ==== Proof.RefRun.lean ====
/-
  The reference's run: its @main is one straight line of host operations (the outlined functions' operations in
  place at their calls), the six stages one after the other, so every weakly fair execution terminates with each
  buffer at the stages' folds nested over the launch contents: the result buffer at `refOut` of the arguments, each
  stage's result read where the next stage finds it, and the arguments, which no stage writes, unchanged.
-/
import proofs.«151860_g13219909337484_cont_week2b_1152_2_alg».proof.Proof.RefRunStage
import Idealize.ShloMosaic.Lib.StableHlo.Run
import Idealize.ShloMosaic.Lib.Pipeline.Frame

noncomputable section

namespace Cert.Ref

open Idealize.ShloMosaic Idealize.ShloMosaic.TcCoe Idealize.SL.Sem Idealize.ShloMosaic.StableHlo
open Cert.ReferenceIdeal Cert.ReferenceIdeal.Gen

/-! ## The stages in a row

The program's operations are the six stages one after the other, so the contents after all of them are the
stages' folds nested; each stage's result is read where the next stage finds it, and an argument no stage
writes is read where the launch left it. -/

/-- The program's operations in order. -/
abbrev ops : List (HloOp τ sig (Elt Ideal)) := opsA ++ (opsB ++ (opsC ++ (opsD ++ (opsE ++ opsG))))

/-- A function of three arguments at equal arguments. -/
theorem stage_congr3 {α β γ δ : Type} (f : α → β → γ → δ) {a a' : α} {b b' : β} {c c' : γ}
    (ha : a = a') (hb : b = b') (hc : c = c') : f a b c = f a' b' c' := by
  subst ha hb hc; rfl

section Chain

variable (V : Valuation τ sig (Elt Ideal))

theorem after_ops :
    after ops V = after opsG (after opsE (after opsD (after opsC (after opsB (after opsA V))))) := by
  simp only [ops, after_append]

/-- A buffer none of the first three stages writes, after them. -/
theorem keepABC (r : Ref sig .tc) (hA : r ∉ opsA_W) (hB : r ∉ opsB_W) (hC : r ∉ opsC_W) :
    after opsC (after opsB (after opsA V)) (Proc.devRef .tc r) = V (Proc.devRef .tc r) :=
  (keepC _ r hC).trans ((keepB _ r hB).trans (keepA V r hA))

/-- A buffer none of the first five stages writes, after them. -/
theorem keepABCDE (r : Ref sig .tc) (hA : r ∉ opsA_W) (hB : r ∉ opsB_W) (hC : r ∉ opsC_W) (hD : r ∉ opsD_W)
    (hE : r ∉ opsE_W) :
    after opsE (after opsD (after opsC (after opsB (after opsA V)))) (Proc.devRef .tc r) = V (Proc.devRef .tc r) :=
  (keepE _ r hE).trans ((keepD _ r hD).trans (keepABC V r hA hB hC))

/-- A buffer no stage writes, after the whole program. -/
theorem keepAll (r : Ref sig .tc) (hA : r ∉ opsA_W) (hB : r ∉ opsB_W) (hC : r ∉ opsC_W) (hD : r ∉ opsD_W)
    (hE : r ∉ opsE_W) (hG : r ∉ opsG_W) :
    after ops V (Proc.devRef .tc r) = V (Proc.devRef .tc r) := by
  rw [after_ops]
  exact (keepG _ r hG).trans (keepABCDE V r hA hB hC hD hE)

/-- The normalised features still stand after the prototype stage, which does not write them. -/
theorem v22_afterB :
    after opsB (after opsA V) (main_v22 : DevRef τ sig)
      = feat (V (main_arg0 : DevRef τ sig)) (V (main_arg2 : DevRef τ sig)) (V (main_arg3 : DevRef τ sig)) :=
  (keepB _ main_v22 (by decide)).trans (stageA V)

/-- The normalised prototypes, of the second argument as launched: the first stage does not write it. -/
theorem v27_afterB :
    after opsB (after opsA V) (main_v27 : DevRef τ sig) = protoUnit (V (main_arg1 : DevRef τ sig)) :=
  (stageB _).trans (congrArg protoUnit (keepA V main_arg1 (by decide)))

theorem v31_afterC :
    after opsC (after opsB (after opsA V)) (main_v31 : DevRef τ sig)
      = sims (protoUnit (V (main_arg1 : DevRef τ sig)))
          (feat (V (main_arg0 : DevRef τ sig)) (V (main_arg2 : DevRef τ sig)) (V (main_arg3 : DevRef τ sig))) :=
  (stageC _).trans (congrArg₂ sims (v27_afterB V) (v22_afterB V))

theorem v49_afterD :
    after opsD (after opsC (after opsB (after opsA V))) (main_v49 : DevRef τ sig)
      = ln190 (sims (protoUnit (V (main_arg1 : DevRef τ sig)))
          (feat (V (main_arg0 : DevRef τ sig)) (V (main_arg2 : DevRef τ sig)) (V (main_arg3 : DevRef τ sig))))
          (V (main_arg4 : DevRef τ sig)) (V (main_arg5 : DevRef τ sig)) :=
  (stageD _).trans (stage_congr3 ln190 (v31_afterC V)
    (keepABC V main_arg4 (by decide) (by decide) (by decide)) (keepABC V main_arg5 (by decide) (by decide) (by decide)))

theorem v51_afterE :
    after opsE (after opsD (after opsC (after opsB (after opsA V)))) (main_v51 : DevRef τ sig)
      = classMax (ln190 (sims (protoUnit (V (main_arg1 : DevRef τ sig)))
          (feat (V (main_arg0 : DevRef τ sig)) (V (main_arg2 : DevRef τ sig)) (V (main_arg3 : DevRef τ sig))))
          (V (main_arg4 : DevRef τ sig)) (V (main_arg5 : DevRef τ sig))) :=
  (stageE _).trans (congrArg classMax (v49_afterD V))

/-- The result buffer after the whole program is the reference's result term of the arguments as launched. -/
theorem out_after_ops :
    after ops V (main_v69 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  rw [after_ops]
  exact (stageG _).trans (stage_congr3 ln19 (v51_afterE V)
    (keepABCDE V main_arg6 (by decide) (by decide) (by decide) (by decide) (by decide))
    (keepABCDE V main_arg7 (by decide) (by decide) (by decide) (by decide) (by decide)))

end Chain

/-! ## The program is that straight line, and its run -/

set_option maxRecDepth 8192 in
/-- The first window: the outlined functions' bodies in place at their calls, the sequencing reassociated. -/
theorem main_part0_eq (c : Dev nD) : main_part0 (F := Ideal) c = seq (opsA ++ (opsB ++ (opsC ++ opsD))) := by
  simp only [main_part0, fn_var.body, fn_norm.body, fn_norm_0.body, fn_var_1.body, fn_where.body, bind_assoc, pure_bind]
  rfl

set_option maxRecDepth 8192 in
/-- The second window, likewise. -/
theorem main_part1_eq (c : Dev nD) : main_part1 (F := Ideal) c = seq (opsE ++ opsG) := by
  simp only [main_part1, fn_var_2.body, fn_where.body, bind_assoc, pure_bind]
  rfl

theorem main_eq (c : Dev nD) : main (F := Ideal) c = seq ops := by
  have h : ops = (opsA ++ (opsB ++ (opsC ++ opsD))) ++ (opsE ++ opsG) := by
    simp only [ops, List.append_assoc]
  rw [h, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- What holds of every element of two lists holds of every element of their concatenation. -/
theorem forall_of_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt Ideal))).Forall fun op => op.bufs ⊆ tcRefs τ sig :=
  forall_of_append opsA_sub (forall_of_append opsB_sub (forall_of_append opsC_sub (forall_of_append opsD_sub
    (forall_of_append opsE_sub opsG_sub))))

set_option maxRecDepth 8192 in
/-- Every weakly fair execution of the reference terminates with the result array at `refOut` of the arguments'
    launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v69)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := Ideal)) _ _).mono (fun _ h c =>
      ⟨(h c main_v69).trans (out_after_ops (launchContents m c)),
        (h c main_arg0).trans (keepAll (launchContents m c) main_arg0 (by decide) (by decide) (by decide) (by decide) (by decide) (by decide)),
        (h c main_arg1).trans (keepAll (launchContents m c) main_arg1 (by decide) (by decide) (by decide) (by decide) (by decide) (by decide)),
        (h c main_arg2).trans (keepAll (launchContents m c) main_arg2 (by decide) (by decide) (by decide) (by decide) (by decide) (by decide)),
        (h c main_arg3).trans (keepAll (launchContents m c) main_arg3 (by decide) (by decide) (by decide) (by decide) (by decide) (by decide)),
        (h c main_arg4).trans (keepAll (launchContents m c) main_arg4 (by decide) (by decide) (by decide) (by decide) (by decide) (by decide)),
        (h c main_arg5).trans (keepAll (launchContents m c) main_arg5 (by decide) (by decide) (by decide) (by decide) (by decide) (by decide)),
        (h c main_arg6).trans (keepAll (launchContents m c) main_arg6 (by decide) (by decide) (by decide) (by decide) (by decide) (by decide)),
        (h c main_arg7).trans (keepAll (launchContents m c) main_arg7 (by decide) (by decide) (by decide) (by decide) (by decide) (by decide))⟩)
    (run_seq scopedRefs_eq scopedSems_eq (defs (F := Ideal)) (main (F := Ideal)) (fun _ => ops) main_eq (fun _ => ops_sub) m ρ)

end Cert.Ref

end
-- ==== Proof.Consts.lean ====
/-
  The literals whose values the proof uses, each evaluated once: the three counts (768, 190, 19) are
  positive reals, so a variance's guard is taken; the maximum's initial value is the bottom element.
-/
import Idealize.ShloMosaic.PureOps.Ideal
import Idealize.ShloMosaic.PureOps.Ideal.Laws

noncomputable section

namespace Cert.Consts

open Idealize.ShloMosaic

theorem ofBits_768 : Ideal.ofBits .f32 0x44400000#32 = ((768 : ℝ) : EReal) := by
  simp [Ideal.ofBits, Ideal.ieee, -EReal.coe_mul]; norm_num

theorem ofBits_190 : Ideal.ofBits .f32 0x433E0000#32 = ((190 : ℝ) : EReal) := by
  simp [Ideal.ofBits, Ideal.ieee, -EReal.coe_mul]; norm_num

theorem ofBits_19 : Ideal.ofBits .f32 0x41980000#32 = ((19 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

end Cert.Consts

end
-- ==== Proof.RefLn.lean ====
/-
  The reference's three layer normalisations read at an entry: entry (n, j) is the row function of the
  specification applied to row n. The variance's guarded quotient is the plain quotient: the count minus the
  converted integer zero is the count, which is positive. The three normalisations are one term at three widths
  (768, 190, 19), so the reading is proved once at a width `C` and instantiated.
-/
import proofs.«151860_g13219909337484_cont_week2b_1152_2_alg».proof.Proof.RefTerm
import proofs.«151860_g13219909337484_cont_week2b_1152_2_alg».proof.Proof.Spec
import proofs.«151860_g13219909337484_cont_week2b_1152_2_alg».proof.Proof.Consts
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.Ref

open Idealize.ShloMosaic Idealize.ShloMosaic.ValueIdx Cert.ReferenceIdeal Cert.ReferenceIdeal.Gen
open scoped BigOperators

/-- A scalar repeated down a column reads the scalar at every entry. -/
theorem splat1_apply {α : Type} (v : S_.Idx → α) (j : S65536x1.Idx) : splat1 v j = v ix0 :=
  broadcastInDim_scalar_apply bcast_S_S65536x1 v j

/-- The variance's count is the literal count: the converted integer zero is the real zero. -/
theorem cnt_apply (w : BitVec 32) : cnt w ix0 = Ideal.ofBits .f32 w := by
  show Ideal.ofBits .f32 w - ((((0#32 : BitVec 32).toInt : ℤ) : ℝ) : EReal) = Ideal.ofBits .f32 w
  rw [BitVec.toInt_zero, Int.cast_zero, EReal.coe_zero, sub_zero]

/-- The count's guard holds when the count is a positive real. -/
theorem guard_apply (w : BitVec 32) (N : ℝ) (hN : Ideal.ofBits .f32 w = (N : EReal)) (hpos : 0 < N)
    (j : S65536x1.Idx) : splat1 (cmpf .ogt (cnt w) (lit 0x00000000#32)) j = 1#1 := by
  rw [splat1_apply, cmpf_apply, cnt_apply]
  show Ideal.cmp .ogt (Ideal.ofBits .f32 w) (Ideal.ofBits .f32 0x00000000#32) = 1#1
  rw [Ideal.ofBits_zero_f32, hN]
  have h0 : (0 : EReal) < (N : EReal) := by exact_mod_cast hpos
  simp [Ideal.cmp, h0]

/-- The guarded quotient is the plain quotient when the count is a positive real. -/
theorem guarded_apply (w : BitVec 32) (N : ℝ) (hN : Ideal.ofBits .f32 w = (N : EReal)) (hpos : 0 < N)
    (ss : A S65536x1) (j : S65536x1.Idx) :
    guarded w ss j = Ideal.div (ss j) (Ideal.ofBits .f32 w) := by
  show Scalar.select (splat1 (cmpf .ogt (cnt w) (lit 0x00000000#32)) j)
      (Ideal.div (ss j) (splat1 (cnt w) j)) (splat1 (id (lit 0x7FC00000#32)) j) = _
  rw [guard_apply w N hN hpos, select_one, splat1_apply, cnt_apply]

/-- Rows of width `C`: the array of 65536 rows, a single row, a vector of that length. -/
abbrev SC (C : ℕ) : Shape := ⟨2, ![65536, C]⟩
abbrev S1C (C : ℕ) : Shape := ⟨2, ![1, C]⟩
abbrev SV (C : ℕ) : Shape := ⟨1, ![C]⟩

/-- A vector of 65536 entries as a column reads the vector's entry. -/
theorem col_apply (v : A S65536) (n : Fin 65536) (u : Fin 1) : col v (ix2 n u) = v (ix1 n) :=
  broadcastInDim_apply ![0] bcast_S65536_S65536x1_0 v (ix2 n u) (ix1 n) (fun a => by match a with | ⟨0, _⟩ => rfl)

section Width
variable {C : ℕ}

/-- A row sum: the zero literal plus the sum of the row's entries. -/
theorem sumC_apply (hr' : (SC C).ReducesTo [1] S65536) (hr : (SC C).Reduces [1] S65536) (x : A (SC C))
    (n : Fin 65536) (u : Fin 1) :
    col (Host.reduceAdd x (lit 0x00000000#32) hr' h_S_) (ix2 n u) = ∑ k : Fin C, x (ix2 n k) := by
  rw [col_apply, hostReduceAdd_apply, Ideal.hostReduceAdd_single hr' hr]
  show Ideal.ofBits .f32 0x00000000#32 + _ = _
  rw [Ideal.ofBits_zero_f32, zero_add]
  exact Fintype.sum_congr _ _ (fun k => congrArg x (funext fun a => Fin.ext (by
    match a with
    | ⟨0, _⟩ => rfl
    | ⟨1, _⟩ => rfl)))

/-- A column repeated along the rows reads the column's entry of the row. -/
theorem repC_apply (hb : S65536x1.BroadcastsInDim (SC C) ![0, 1]) (v : A S65536x1) (n : Fin 65536) (j : Fin C) :
    broadcastInDim (SC C) ![0, 1] hb v (ix2 n j) = v (ix2 n 0) :=
  broadcastInDim_apply ![0, 1] hb v (ix2 n j) (ix2 n 0) (fun a => by
    match a with
    | ⟨0, _⟩ => rfl
    | ⟨1, _⟩ => rfl)

/-- A vector repeated down the rows reads the vector's entry of the column. -/
theorem rowC_apply (h1 : (SV C).BroadcastsInDim (S1C C) ![1]) (h2 : (S1C C).BroadcastsInDim (SC C) ![0, 1])
    (g : A (SV C)) (n : Fin 65536) (j : Fin C) :
    broadcastInDim (SC C) ![0, 1] h2 (broadcastInDim (S1C C) ![1] h1 g) (ix2 n j) = g (ix1 j) := by
  have hj : j.val = if C = 1 then 0 else j.val := by
    split
    · have := j.isLt; omega
    · rfl
  rw [broadcastInDim_apply ![0, 1] h2 _ (ix2 n j) (ix2 0 j) (fun a => by
    match a with
    | ⟨0, _⟩ => rfl
    | ⟨1, _⟩ => exact hj)]
  exact broadcastInDim_apply ![1] h1 g (ix2 0 j) (ix1 j) (fun a => by
    match a with
    | ⟨0, _⟩ => exact hj)

end Width

section Norm
variable {C : ℕ} (hr' : (SC C).ReducesTo [1] S65536) (hb : S65536x1.BroadcastsInDim (SC C) ![0, 1])
  (h1 : (SV C).BroadcastsInDim (S1C C) ![1]) (h2 : (S1C C).BroadcastsInDim (SC C) ![0, 1])

/-- The reference's layer normalisation at width `C` with count word `w`: row means, guarded variances, and the
    centred rows divided by the root of variance plus the small literal, scaled and shifted. -/
def meanC (w : BitVec 32) (x : A (SC C)) : A S65536x1 :=
  Host.divf (col (Host.reduceAdd x (lit 0x00000000#32) hr' h_S_)) (splat1 (lit w))
def varC (w : BitVec 32) (x : A (SC C)) : A S65536x1 :=
  guarded w (col (Host.reduceAdd
    (mulf (subf x (broadcastInDim (SC C) ![0, 1] hb (meanC hr' w x))) (subf x (broadcastInDim (SC C) ![0, 1] hb (meanC hr' w x))))
    (lit 0x00000000#32) hr' h_S_))
def lnC (w : BitVec 32) (x : A (SC C)) (g b : A (SV C)) : A (SC C) :=
  addf (mulf (Host.divf (subf x (broadcastInDim (SC C) ![0, 1] hb (meanC hr' w x)))
      (broadcastInDim (SC C) ![0, 1] hb (Host.sqrt (addf (varC hr' hb w x) (splat1 (lit 0x3727C5AC#32))))))
      (broadcastInDim (SC C) ![0, 1] h2 (broadcastInDim (S1C C) ![1] h1 g)))
    (broadcastInDim (SC C) ![0, 1] h2 (broadcastInDim (S1C C) ![1] h1 b))

variable (hr : (SC C).Reduces [1] S65536)
include hr

/-- A row's mean is the specification's mean of the row. -/
theorem meanC_apply (w : BitVec 32) (x : A (SC C)) (n : Fin 65536) (u : Fin 1) :
    meanC hr' w x (ix2 n u) = Cert.Spec.mean (Ideal.ofBits .f32 w) (fun k => x (ix2 n k)) := by
  unfold meanC Cert.Spec.mean
  rw [hostDivf_apply, sumC_apply hr' hr, splat1_apply]
  rfl

/-- A row's variance is the sum of the squared centred entries divided by the count. -/
theorem varC_apply (w : BitVec 32) (N : ℝ) (hN : Ideal.ofBits .f32 w = (N : EReal)) (hpos : 0 < N)
    (x : A (SC C)) (n : Fin 65536) (u : Fin 1) :
    varC hr' hb w x (ix2 n u)
      = Ideal.div (∑ k, (x (ix2 n k) - Cert.Spec.mean (Ideal.ofBits .f32 w) (fun k => x (ix2 n k)))
          * (x (ix2 n k) - Cert.Spec.mean (Ideal.ofBits .f32 w) (fun k => x (ix2 n k)))) (Ideal.ofBits .f32 w) := by
  unfold varC
  rw [guarded_apply w N hN hpos, sumC_apply hr' hr]
  refine congrArg (fun s => Ideal.div s (Ideal.ofBits .f32 w)) (Fintype.sum_congr _ _ (fun k => ?_))
  rw [mulf_apply, subf_apply, repC_apply, meanC_apply hr' hr]

/-- The layer normalisation at an entry is the specification's row function of the row. -/
theorem lnC_apply (w : BitVec 32) (N : ℝ) (hN : Ideal.ofBits .f32 w = (N : EReal)) (hpos : 0 < N)
    (x : A (SC C)) (g b : A (SV C)) (n : Fin 65536) (j : Fin C) :
    lnC hr' hb h1 h2 w x g b (ix2 n j)
      = Cert.Spec.lnRow (Ideal.ofBits .f32 w) Cert.Spec.e5 (fun j' => x (ix2 n j')) (fun j' => g (ix1 j'))
          (fun j' => b (ix1 j')) j := by
  unfold lnC Cert.Spec.lnRow
  rw [addf_apply, mulf_apply, hostDivf_apply, subf_apply, repC_apply, repC_apply, rowC_apply, rowC_apply,
    meanC_apply hr' hr]
  show Ideal.div _ (Ideal.sqrt (addf (varC hr' hb w x) (splat1 (lit 0x3727C5AC#32)) (ix2 n 0))) * _ + _ = _
  rw [addf_apply, varC_apply hr' hb hr w N hN hpos, splat1_apply]
  rfl

end Norm

theorem ln768_apply (x : A S65536x768) (g b : A S768) (n : Fin 65536) (j : Fin 768) :
    ln768 x g b (ix2 n j)
      = Cert.Spec.lnRow Cert.Spec.c768 Cert.Spec.e5 (fun j' => x (ix2 n j')) (fun j' => g (ix1 j')) (fun j' => b (ix1 j')) j :=
  lnC_apply (C := 768) reducesTo_S65536x768_S65536_d1 bcast_S65536x1_S65536x768_0_1 bcast_S768_S1x768_1
    bcast_S1x768_S65536x768_0_1 (by decide) 0x44400000#32 768 Cert.Consts.ofBits_768 (by norm_num) x g b n j

theorem ln190_apply (x : A S65536x190) (g b : A S190) (n : Fin 65536) (j : Fin 190) :
    ln190 x g b (ix2 n j)
      = Cert.Spec.lnRow Cert.Spec.c190 Cert.Spec.e5 (fun j' => x (ix2 n j')) (fun j' => g (ix1 j')) (fun j' => b (ix1 j')) j :=
  lnC_apply (C := 190) reducesTo_S65536x190_S65536_d1 bcast_S65536x1_S65536x190_0_1 bcast_S190_S1x190_1
    bcast_S1x190_S65536x190_0_1 (by decide) 0x433E0000#32 190 Cert.Consts.ofBits_190 (by norm_num) x g b n j

theorem ln19_apply (x : A S65536x19) (g b : A S19) (n : Fin 65536) (j : Fin 19) :
    ln19 x g b (ix2 n j)
      = Cert.Spec.lnRow Cert.Spec.c19 Cert.Spec.e5 (fun j' => x (ix2 n j')) (fun j' => g (ix1 j')) (fun j' => b (ix1 j')) j :=
  lnC_apply (C := 19) reducesTo_S65536x19_S65536_d1 bcast_S65536x1_S65536x19_0_1 bcast_S19_S1x19_1
    bcast_S1x19_S65536x19_0_1 (by decide) 0x41980000#32 19 Cert.Consts.ofBits_19 (by norm_num) x g b n j

end Cert.Ref

end
-- ==== Proof.RefSim.lean ====
/-
  The reference's division of a row by its length, its normalised prototype vectors, its similarities and
  its per-class maxima, each read at an entry.
-/
import proofs.«151860_g13219909337484_cont_week2b_1152_2_alg».proof.Proof.RefTerm
import proofs.«151860_g13219909337484_cont_week2b_1152_2_alg».proof.Proof.Spec
import proofs.«151860_g13219909337484_cont_week2b_1152_2_alg».proof.Proof.Consts
import Idealize.ShloMosaic.PureOps.Reduce
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.Ref

open Idealize.ShloMosaic Idealize.ShloMosaic.ValueIdx Cert.ReferenceIdeal Cert.ReferenceIdeal.Gen
open scoped BigOperators

/-- The reference's square root of an array, at an entry, is the extended reals' square root of the entry. -/
theorem hostSqrt_apply {s : Shape} (x : FVec Ideal s .f32) (i : s.Idx) : Host.sqrt x i = Ideal.sqrt (x i) :=
  Ideal.hostUnary_sqrt_def (x i)

/-- The sum over the features of a row, as a column entry: the initial value is the zero word. -/
theorem sum768_apply (y : A S65536x768) (n : Fin 65536) :
    sum768 y (ix2 n (0 : Fin 1)) = ∑ d : Fin 768, y (ix2 n d) := by
  have hR : S65536x768.Reduces [1] S65536 := by decide
  refine (broadcastInDim_apply _ _ _ (ix2 n (0 : Fin 1)) (ix1 n) (fun a => ?_)).trans ?_
  · match a with
    | ⟨0, _⟩ => rfl
  · rw [hostReduceAdd_apply, Ideal.hostReduceAdd_single _ hR]
    have h0 : lit (0x00000000#32) (Shape.Idx.first h_S_) = 0 := Ideal.ofBits_zero_f32
    rw [h0, zero_add]
    refine Finset.sum_congr rfl fun d _ => congrArg y ?_
    funext a
    match a with
    | ⟨0, _⟩ => exact Fin.ext rfl
    | ⟨1, _⟩ => exact Fin.ext rfl

theorem unit768_apply (c : A S65536x768) (n : Fin 65536) (d : Fin 768) :
    unit768 c (ix2 n d) = Cert.Spec.l2Row Cert.Spec.e12 (fun d' => c (ix2 n d')) d := by
  unfold unit768 Cert.Spec.l2Row
  rw [hostDivf_apply]
  refine congrArg (Ideal.div (c (ix2 n d))) ?_
  refine (broadcastInDim_apply _ _ _ (ix2 n d) (ix2 n (0 : Fin 1)) (fun a => ?_)).trans ?_
  · match a with
    | ⟨0, _⟩ => rfl
    | ⟨1, _⟩ => rfl
  · have he : splat1 (lit 0x2B8CBCCC#32) (ix2 n (0 : Fin 1)) = Cert.Spec.e12 :=
      broadcastInDim_scalar_apply _ _ _
    rw [addf_apply, hostSqrt_apply, he, sum768_apply]
    rfl

/-- The sum over the features of a prototype vector's squares, read at (class, prototype). -/
theorem protoSum_apply (y : A S19x10x768) (k : Fin 19) (m : Fin 10) :
    Host.reduceAdd y (lit 0x00000000#32) reducesTo_S19x10x768_S19x10_d2 h_S_ (ix2 k m) = ∑ d : Fin 768, y (ix3 k m d) := by
  have hR : S19x10x768.Reduces [2] S19x10 := by decide
  rw [hostReduceAdd_apply, Ideal.hostReduceAdd_single _ hR]
  have h0 : lit (0x00000000#32) (Shape.Idx.first h_S_) = 0 := Ideal.ofBits_zero_f32
  rw [h0, zero_add]
  refine Finset.sum_congr rfl fun d _ => congrArg y ?_
  funext a
  match a with
  | ⟨0, _⟩ => exact Fin.ext rfl
  | ⟨1, _⟩ => exact Fin.ext rfl
  | ⟨2, _⟩ => exact Fin.ext rfl

theorem protoUnit_apply (P : A S19x10x768) (k : Fin 19) (m : Fin 10) (d : Fin 768) :
    protoUnit P (ix3 k m d) = Cert.Spec.l2Row Cert.Spec.e12 (fun d' => P (ix3 k m d')) d := by
  unfold protoUnit Cert.Spec.l2Row
  rw [hostDivf_apply]
  refine congrArg (Ideal.div (P (ix3 k m d))) ?_
  refine (broadcastInDim_apply _ _ _ (ix3 k m d) (ix3 k m (0 : Fin 1)) (fun a => ?_)).trans ?_
  · match a with
    | ⟨0, _⟩ => rfl
    | ⟨1, _⟩ => rfl
    | ⟨2, _⟩ => rfl
  · have he : broadcastInDim S19x10x1 ![] bcast_S_S19x10x1 (lit 0x2B8CBCCC#32) (ix3 k m (0 : Fin 1)) = Cert.Spec.e12 :=
      broadcastInDim_scalar_apply _ _ _
    rw [addf_apply, hostSqrt_apply, he]
    refine congrArg (fun t => Ideal.sqrt t + Cert.Spec.e12) ?_
    refine (broadcastInDim_apply _ _ _ (ix3 k m (0 : Fin 1)) (ix2 k m) (fun a => ?_)).trans ?_
    · match a with
      | ⟨0, _⟩ => rfl
      | ⟨1, _⟩ => rfl
    · rw [protoSum_apply]
      rfl

/-- The contraction's record: prototype array against feature array over the 768 features. -/
abbrev DD : DotDims S19x10x768 S65536x768 S19x10x65536 := dot_S19x10x768_S65536x768_S19x10x65536_2_1_01_0_n_n

/-- The left operand's index at result (k, m, n) and feature d is (k, m, d). -/
theorem DD_lhsIdx (k : Fin 19) (m : Fin 10) (n : Fin 65536) (d : Fin 768) :
    DD.lhsIdx (ix3 k m n) ((contrEquiv1 DD 768 rfl rfl).symm d) = ix3 k m d := by
  funext a
  apply Fin.ext
  match a with
  | ⟨0, _⟩ => rfl
  | ⟨1, _⟩ => rfl
  | ⟨2, _⟩ =>
    exact (DD.lhsIdx_val_of_single (cl := (2 : Fin 3)) rfl _ _).trans (contrEquiv1_symm_val DD 768 rfl rfl d)

/-- The right operand's index at result (k, m, n) and feature d is (n, d). -/
theorem DD_rhsIdx (k : Fin 19) (m : Fin 10) (n : Fin 65536) (d : Fin 768) :
    DD.rhsIdx (ix3 k m n) ((contrEquiv1 DD 768 rfl rfl).symm d) = ix2 n d := by
  funext a
  apply Fin.ext
  match a with
  | ⟨0, _⟩ => rfl
  | ⟨1, _⟩ =>
    exact (DD.rhsIdx_val_of_single (cr := (1 : Fin 2)) rfl _ _).trans (contrEquiv1_symm_val DD 768 rfl rfl d)

/-- The contraction read at (k, m, n): the sum over the features of prototype entry times feature entry. -/
theorem dot_apply (pn : A S19x10x768) (c : A S65536x768) (k : Fin 19) (m : Fin 10) (n : Fin 65536) :
    Host.dotGeneral DD none pn c (ix3 k m n) = ∑ d : Fin 768, pn (ix3 k m d) * c (ix2 n d) := by
  show FloatOps.dotGeneral DD none _ pn c (ix3 k m n) = _
  rw [Ideal.dotGeneral_apply, ← Equiv.sum_comp (contrEquiv1 DD 768 rfl rfl).symm]
  refine Finset.sum_congr rfl fun d _ => ?_
  rw [DD_lhsIdx, DD_rhsIdx]

/-- Entry (n, j) of the class-major similarities: the contraction over the 768 features of prototype
    (class, prototype of position j) with pixel n's features. The flattening keeps the row-major position
    (19 n + j / 10) 10 + j % 10 = 190 n + j; each transposition moves a coordinate to the axis its
    permutation names. -/
theorem sims_apply (pn : A S19x10x768) (c : A S65536x768) (n : Fin 65536) (j : Fin 190) :
    sims pn c (ix2 n j) = ∑ d : Fin 768, pn (ix3 (Cert.Spec.cmK j) (Cert.Spec.cmM j) d) * c (ix2 n d) := by
  unfold sims
  refine (shapeCast_apply _ _ (ix2 n j) (ix3 n (Cert.Spec.cmK j) (Cert.Spec.cmM j)) ?_).trans ?_
  · rw [Shape.rowMajor_val_two, Shape.rowMajor_val_three]
    show (n.val * 19 + j.val / 10) * 10 + j.val % 10 = n.val * 190 + j.val
    have := Nat.div_add_mod j.val 10
    omega
  refine (transpose_apply _ _ _ (ix3 n (Cert.Spec.cmK j) (Cert.Spec.cmM j))
    (ix3 n (Cert.Spec.cmM j) (Cert.Spec.cmK j)) (fun b => ?_)).trans ?_
  · match b with
    | ⟨0, _⟩ => rfl
    | ⟨1, _⟩ => rfl
    | ⟨2, _⟩ => rfl
  refine (transpose_apply _ _ _ (ix3 n (Cert.Spec.cmM j) (Cert.Spec.cmK j))
    (ix3 (Cert.Spec.cmK j) (Cert.Spec.cmM j) n) (fun b => ?_)).trans ?_
  · match b with
    | ⟨0, _⟩ => rfl
    | ⟨1, _⟩ => rfl
    | ⟨2, _⟩ => rfl
  exact dot_apply pn c (Cert.Spec.cmK j) (Cert.Spec.cmM j) n

/-- The class-major row of 190 seen as 19 classes of 10: entry (n, k, m) is entry (n, 10 k + m). -/
theorem castCM_apply (s : A S65536x190) (n : Fin 65536) (k : Fin 19) (m : Fin 10) :
    shapeCast S65536x19x10 s shapeCasts_S65536x190_S65536x19x10 (ix3 n k m) = s (ix2 n (Cert.Spec.cm k m)) := by
  refine shapeCast_apply s _ (ix3 n k m) (ix2 n (Cert.Spec.cm k m)) ?_
  rw [Shape.rowMajor_val_two, Shape.rowMajor_val_three]
  show n.val * 190 + (k.val * 10 + m.val) = (n.val * 19 + k.val) * 10 + m.val
  omega

/-- Entry (n, k) of the class maxima: the fold of the maximum from the bottom element over class k's ten positions. -/
theorem classMax_apply (s : A S65536x190) (n : Fin 65536) (k : Fin 19) :
    classMax s (ix2 n k) = Finset.univ.fold max ⊥ (fun m : Fin 10 => s (ix2 n (Cert.Spec.cm k m))) := by
  have hR : S65536x19x10.Reduces [2] S65536x19 := by decide
  have h0 : lit (0xFF800000#32) (Shape.Idx.first h_S_) = (⊥ : EReal) := Cert.Consts.ofBits_neg_inf
  have hf : (shapeCast S65536x19x10 s shapeCasts_S65536x190_S65536x19x10 ∘ hR.lift (ix2 n k))
      = fun m : Fin 10 => s (ix2 n (Cert.Spec.cm k m)) := by
    funext m
    have hl : hR.lift (ix2 n k) m = ix3 n k m := by
      funext a
      match a with
      | ⟨0, _⟩ => exact Fin.ext rfl
      | ⟨1, _⟩ => exact Fin.ext rfl
      | ⟨2, _⟩ => exact Fin.ext rfl
    show shapeCast S65536x19x10 s shapeCasts_S65536x190_S65536x19x10 (hR.lift (ix2 n k) m) = _
    rw [hl]
    exact castCM_apply s n k m
  unfold classMax
  rw [Host.reduce_eq_fold_single _ _ _ _ hR, h0, hf]
  rfl

end Cert.Ref

end
-- ==== Proof.RefValue.lean ====
/-
  The reference's result term, read entry by entry, is the specification's function of the arguments.
-/
import proofs.«151860_g13219909337484_cont_week2b_1152_2_alg».proof.Proof.RefTerm
import proofs.«151860_g13219909337484_cont_week2b_1152_2_alg».proof.Proof.RefLn
import proofs.«151860_g13219909337484_cont_week2b_1152_2_alg».proof.Proof.RefSim
import proofs.«151860_g13219909337484_cont_week2b_1152_2_alg».proof.Proof.Spec

noncomputable section

namespace Cert.Ref

open Idealize.ShloMosaic Idealize.ShloMosaic.ValueIdx Cert.ReferenceIdeal Cert.ReferenceIdeal.Gen

/-- Pixel n's class maxima: under the fold, each layer-normalised similarity is the sum over the features of a
    normalised prototype entry times a normalised feature entry. -/
theorem classRow_apply (x : A S65536x768) (P : A S19x10x768) (fg fb : A S768) (pg pb : A S190) (n : Fin 65536) (k' : Fin 19) :
    classMax (ln190 (sims (protoUnit P) (feat x fg fb)) pg pb) (ix2 n k')
      = Finset.univ.fold max ⊥ (fun m : Fin 10 =>
          Cert.Spec.lnRow Cert.Spec.c190 Cert.Spec.e5
            (fun j : Fin 190 => ∑ d, Cert.Spec.l2Row Cert.Spec.e12 (fun d' => P (ix3 (Cert.Spec.cmK j) (Cert.Spec.cmM j) d')) d
              * Cert.Spec.featRow (fun d' => x (ix2 n d')) (fun d' => fg (ix1 d')) (fun d' => fb (ix1 d')) d)
            (fun j => pg (ix1 j)) (fun j => pb (ix1 j)) (Cert.Spec.cm k' m)) := by
  rw [classMax_apply]
  refine congrArg (fun f : Fin 10 → EReal => Finset.univ.fold max ⊥ f) (funext fun m => ?_)
  rw [ln190_apply]
  refine congrArg (fun r : Fin 190 → EReal => Cert.Spec.lnRow Cert.Spec.c190 Cert.Spec.e5 r
    (fun j => pg (ix1 j)) (fun j => pb (ix1 j)) (Cert.Spec.cm k' m)) (funext fun j => ?_)
  rw [sims_apply]
  refine Finset.sum_congr rfl fun d _ => ?_
  rw [protoUnit_apply]
  unfold feat
  rw [unit768_apply]
  unfold Cert.Spec.featRow
  refine congrArg (fun r : Fin 768 → EReal => Cert.Spec.l2Row Cert.Spec.e12
    (fun d' => P (ix3 (Cert.Spec.cmK j) (Cert.Spec.cmM j) d')) d * Cert.Spec.l2Row Cert.Spec.e12 r d) (funext fun d' => ?_)
  exact ln768_apply x fg fb n d'

theorem refOut_eq_G (x : A S65536x768) (P : A S19x10x768) (fg fb : A S768) (pg pb : A S190) (mg mb : A S19) :
    refOut x P fg fb pg pb mg mb = Cert.Spec.G x P fg fb pg pb mg mb := by
  funext i
  obtain ⟨n, k, rfl⟩ : ∃ (n : Fin 65536) (k : Fin 19), i = ix2 n k := ⟨i 0, i 1, eq_ix2 i⟩
  unfold refOut
  rw [ln19_apply]
  exact congrArg (fun r : Fin 19 → EReal => Cert.Spec.lnRow Cert.Spec.c19 Cert.Spec.e5 r
    (fun j => mg (ix1 j)) (fun j => mb (ix1 j)) k) (funext fun k' => classRow_apply x P fg fb pg pb n k')

end Cert.Ref

end
-- ==== Proof.lean ====
/-
  The certificate of the fused prototype segmentation head: a pixel's 768 features are layer-normalised
  and divided by their length, compared by inner product with 19 x 10 prototype vectors each divided by
  its own length, the 190 similarities layer-normalised as one row, the greatest of each class's ten kept,
  and the 19 maxima layer-normalised.

  The kernel runs in two launches (the prototypes' normalisation once; then 64 blocks of 1024 pixels) and
  lays the 190 similarities out prototype-major; the reference computes on whole arrays and lays them
  class-major. On the extended reals the two results are one function of the arguments (`Cert.Spec.G`):
  a row's mean and variance are sums over all its positions and do not see their order, a chain of binary
  maxima is the fold of the maximum from the bottom element, multiplication commutes, and the reference's
  variance divides by the count minus a zero correction, taken because that difference is positive.
  No law used needs the inputs finite.

  The two kernel frames are the generated ones. The reference has no kernel: its frame is its run with the
  result dropped. `preserves` has no entry. `algebraic` puts the kernel's run (the generated launch with the
  result array named, then read block by block) beside the reference's run (its operations composed, then
  read entry by entry) at the same function.
-/
import proofs.«151860_g13219909337484_cont_week2b_1152_2_alg».proof.Defs
import proofs.«151860_g13219909337484_cont_week2b_1152_2_alg».proof.Proof.Gen.Kernel
import proofs.«151860_g13219909337484_cont_week2b_1152_2_alg».proof.Proof.Gen.Kernel.Skeleton
import proofs.«151860_g13219909337484_cont_week2b_1152_2_alg».proof.Proof.Gen.Kernel.Launch
import proofs.«151860_g13219909337484_cont_week2b_1152_2_alg».proof.Proof.Gen.Kernel.Points
import proofs.«151860_g13219909337484_cont_week2b_1152_2_alg».proof.Proof.Gen.Kernel.Frame
import proofs.«151860_g13219909337484_cont_week2b_1152_2_alg».proof.Proof.Gen.KernelIdeal
import proofs.«151860_g13219909337484_cont_week2b_1152_2_alg».proof.Proof.Gen.KernelIdeal.Skeleton
import proofs.«151860_g13219909337484_cont_week2b_1152_2_alg».proof.Proof.Gen.KernelIdeal.Launch
import proofs.«151860_g13219909337484_cont_week2b_1152_2_alg».proof.Proof.Gen.KernelIdeal.Points
import proofs.«151860_g13219909337484_cont_week2b_1152_2_alg».proof.Proof.Gen.KernelIdeal.Frame
import proofs.«151860_g13219909337484_cont_week2b_1152_2_alg».proof.Proof.Gen.ReferenceIdeal
import proofs.«151860_g13219909337484_cont_week2b_1152_2_alg».proof.Proof.Gen.Pre_finite_inputs
import proofs.«151860_g13219909337484_cont_week2b_1152_2_alg».proof.Proof.KerRun
import proofs.«151860_g13219909337484_cont_week2b_1152_2_alg».proof.Proof.KerValue
import proofs.«151860_g13219909337484_cont_week2b_1152_2_alg».proof.Proof.RefRun
import proofs.«151860_g13219909337484_cont_week2b_1152_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.Ref.run m ρ)

/-- The kernel's run with its result array named: the specification's function of the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v0)
          = Cert.Spec.G (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono
    (fun r h c => ⟨(h c).1.trans (Cert.Ker.out_eq m ρ c), (h c).2⟩) (Cert.KernelIdeal.Named.run_named (F := Ideal) m ρ)

/-- Both runs end with the result array at the specification's function of the arguments, which agree. -/
theorem algebraic : Cert.algebraic_KernelIdeal_ReferenceIdeal := by
  intro m ρ m' ρ' _ hagree
  refine ⟨_, kernel_run m ρ, ?_⟩
  refine (θ_run Cert.ReferenceIdeal.defs _ _).mono (fun r h c => ⟨?_, (h c).2⟩) (Cert.Ref.run m' ρ')
  rw [(h c).1, Cert.Ref.refOut_eq_G, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
